-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S30x2048 : Shape := ⟨2, ![30, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S30x2048 : S_.BroadcastsInDim S30x2048 (![] : Fin 0 → Fin S30x2048.rank)
  reducesTo_S30x2048_S_d0_1 : S30x2048.ReducesTo [0, 1] S_

variable [Facts]

def fn {F : FTy → Type} [FloatOps F] (main_arg0 : FVec F S8192x2048 .f32) (main_arg1 : IVec S8192x2048 32) (main_arg2 : FVec F S30x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S30x2048 .f32 := Host.absf main_arg2
  let main_cst_0 : FVec F S_ .f32 := constant S_ .f32 0x7F800000#32
  let main_v5 : FVec F S30x2048 .f32 := broadcastInDim S30x2048 ![] bcast_S_S30x2048 main_cst_0
  let main_v6 : IVec S30x2048 1 := cmpf .olt main_v4 main_v5
  let main_c_1 : IVec S_ 1 := constantI S_ 1 1#1
  let main_v7 : IVec S_ 1 := (fun x v => Host.reduce IntOp.andi x v reducesTo_S30x2048_S_d0_1 h_S_) main_v6 main_c_1
  let main_v8 : IVec S_ 1 := andi main_v3 main_v7
  let main_cst_2 : FVec F S_ .f32 := constant S_ .f32 0x00000000#32
  let main_v9 : FVec F S30x2048 .f32 := broadcastInDim S30x2048 ![] bcast_S_S30x2048 main_cst_2
  let main_v10 : IVec S30x2048 1 := cmpf .oge main_arg2 main_v9
  let main_c_3 : IVec S_ 1 := constantI S_ 1 1#1
  let main_v11 : IVec S_ 1 := (fun x v => Host.reduce IntOp.andi x v reducesTo_S30x2048_S_d0_1 h_S_) main_v10 main_c_3
  let main_v12 : IVec S_ 1 := andi main_v8 main_v11
  main_v12
-- ==== Kernel.lean ====
abbrev S8192x2048 : Shape := ⟨2, ![8192, 2048]⟩
abbrev S30x2048 : Shape := ⟨2, ![30, 2048]⟩
abbrev S16x1024 : Shape := ⟨2, ![16, 1024]⟩
abbrev S1024x1024 : Shape := ⟨2, ![1024, 1024]⟩
abbrev S30x1024 : Shape := ⟨2, ![30, 1024]⟩
abbrev S8x1024 : Shape := ⟨2, ![8, 1024]⟩
abbrev S1024 : Shape := ⟨1, ![1024]⟩
abbrev S1x1024 : Shape := ⟨2, ![1, 1024]⟩
abbrev S6x1024 : Shape := ⟨2, ![6, 1024]⟩
abbrev S_ : Shape := ⟨0, ![]⟩

abbrev nBuf : Space → Nat
  | .hbm => 10
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .i32⟩
  | .hbm, ⟨2, _⟩ => ⟨S30x2048, .f32⟩
  | .hbm, ⟨3, _⟩ => ⟨S16x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .i32⟩
  | .local _ .vmem, ⟨3, _⟩ => ⟨S1024x1024, .i32⟩
  | .local _ .vmem, ⟨4, _⟩ => ⟨S30x1024, .f32⟩
  | .local _ .vmem, ⟨5, _⟩ => ⟨S30x1024, .f32⟩
  | .local _ .vmem, ⟨6, _⟩ => ⟨S8x1024, .f32⟩
  | .local _ .vmem, ⟨7, _⟩ => ⟨S8x1024, .f32⟩
  | .local _ .vmem, ⟨8, _⟩ => ⟨S30x1024, .f32⟩
  | .local _ .vmem, ⟨9, _⟩ => ⟨S30x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32_128 : BitVec 32 := 7#32
  let v381 : BitVec 1 := Scalar.cmpi .eq arg1 c7_i32_128
  let v382 : BitVec 32 := Scalar.extui v381
  let c0_i32_129 : BitVec 32 := 0#32
  let v383 : BitVec 1 := Scalar.cmpi .ne v382 c0_i32_129
  v383

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S30x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S30x1024_S30x1024_0_0 : ∀ a, (![0, 0] : Fin 2 → Nat) a + S30x1024.size a ≤ S30x1024.size a
  h_S30x1024 : 0 < S30x1024.numel
  shapeCasts_S30x1024_S30x1024 : S30x1024.ShapeCasts S30x1024
  inb_S1024x1024_S1024x1024_0_0 : ∀ a, (![0, 0] : Fin 2 → Nat) a + S1024x1024.size a ≤ S1024x1024.size a
  h_S1024x1024 : 0 < S1024x1024.numel
  natLt_1_32 : 1 < 32
  reduces_S1024x1024_S1024 : S1024x1024.Reduces [0] S1024
  shapeCasts_S1024_S1x1024 : S1024.ShapeCasts S1x1024
  inb_S30x1024_S8x1024_0_0 : ∀ a, (![0, 0] : Fin 2 → Nat) a + S8x1024.size a ≤ S30x1024.size a
  h_S8x1024 : 0 < S8x1024.numel
  concatenates_S1x1024_S1x1024_S1x1024_S1x1024_S1x1024_S1x1024_S1x1024_S1x1024_S8x1024_d0 : Shape.Concatenates [S1x1024, S1x1024, S1x1024, S1x1024, S1x1024, S1x1024, S1x1024, S1x1024] S8x1024 0
  shapeCasts_S8x1024_S8x1024 : S8x1024.ShapeCasts S8x1024
  inb_S30x1024_S8x1024_8_0 : ∀ a, (![8, 0] : Fin 2 → Nat) a + S8x1024.size a ≤ S30x1024.size a
  inb_S30x1024_S8x1024_16_0 : ∀ a, (![16, 0] : Fin 2 → Nat) a + S8x1024.size a ≤ S30x1024.size a
  inb_S30x1024_S6x1024_24_0 : ∀ a, (![24, 0] : Fin 2 → Nat) a + S6x1024.size a ≤ S30x1024.size a
  h_S6x1024 : 0 < S6x1024.numel
  concatenates_S1x1024_S1x1024_S1x1024_S1x1024_S1x1024_S1x1024_S6x1024_d0 : Shape.Concatenates [S1x1024, S1x1024, S1x1024, S1x1024, S1x1024, S1x1024] S6x1024 0
  shapeCasts_S6x1024_S6x1024 : S6x1024.ShapeCasts S6x1024
  reduces_S30x1024_S1024 : S30x1024.Reduces [0] S1024
  broadcasts_S1x1024_S30x1024 : S1x1024.Broadcasts S30x1024
  shapeCasts_S1x1024_S1x1024 : S1x1024.ShapeCasts S1x1024
  broadcasts_S1x1024_S8x1024 : S1x1024.Broadcasts S8x1024
  inb_S8x1024_S8x1024_0_0 : ∀ a, (![0, 0] : Fin 2 → Nat) a + S8x1024.size a ≤ S8x1024.size a
  reducesTo_S16x1024_S_d0_1 : S16x1024.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x2048.size a
  hwx0_0 : ∀ i : grid0.Coords, EltTy.bits .f32 = 32 ∨ (Rect.block (s := S8192x2048) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x2048.size a
  hwx0_1 : ∀ i : grid0.Coords, EltTy.bits .i32 = 32 ∨ (Rect.block (s := S8192x2048) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S30x1024.size a ≤ S30x2048.size a
  hwx0_2 : ∀ i : grid0.Coords, EltTy.bits .f32 = 32 ∨ (Rect.block (s := S30x2048) S30x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S16x1024.size a
  hwx0_3 : ∀ i : grid0.Coords, EltTy.bits .f32 = 32 ∨ (Rect.block (s := S16x1024) S8x1024.size (cc0_transform_3 i) (hinb0_3 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S30x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x2048 : Shape := ⟨2, ![8192, 2048]⟩
abbrev S30x2048 : Shape := ⟨2, ![30, 2048]⟩
abbrev S_ : Shape := ⟨0, ![]⟩
abbrev S2048 : Shape := ⟨1, ![2048]⟩
abbrev S1x2048 : Shape := ⟨2, ![1, 2048]⟩
abbrev S8192x2048x1 : Shape := ⟨3, ![8192, 2048, 1]⟩
abbrev S8192x2048x2 : Shape := ⟨3, ![8192, 2048, 2]⟩

abbrev nBuf : Space → Nat
  | .hbm => 116
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .i32⟩
  | .hbm, ⟨2, _⟩ => ⟨S30x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S8192x2048, .i32⟩
  | .hbm, ⟨23, _⟩ => ⟨S8192x2048, .i32⟩
  | .hbm, ⟨24, _⟩ => ⟨S_, .i32⟩
  | .hbm, ⟨25, _⟩ => ⟨S8192x2048, .i32⟩
  | .hbm, ⟨26, _⟩ => ⟨S8192x2048, .i32⟩
  | .hbm, ⟨27, _⟩ => ⟨S2048, .i32⟩
  | .hbm, ⟨28, _⟩ => ⟨S1x2048, .i32⟩
  | .hbm, ⟨29, _⟩ => ⟨S8192x2048, .i32⟩
  | .hbm, ⟨30, _⟩ => ⟨S_, .f32⟩
  | .hbm, ⟨31, _⟩ => ⟨S30x2048, .f32⟩
  | .hbm, ⟨32, _⟩ => ⟨S_, .i32⟩
  | .hbm, ⟨33, _⟩ => ⟨S8192x2048, .i32⟩
  | .hbm, ⟨34, _⟩ => ⟨S8192x2048, .i1⟩
  | .hbm, ⟨35, _⟩ => ⟨S_, .i32⟩
  | .hbm, ⟨36, _⟩ => ⟨S8192x2048, .i32⟩
  | .hbm, ⟨37, _⟩ => ⟨S8192x2048, .i32⟩
  | .hbm, ⟨38, _⟩ => ⟨S8192x2048, .i32⟩
  | .hbm, ⟨39, _⟩ => ⟨S_, .i32⟩
  | .hbm, ⟨40, _⟩ => ⟨S8192x2048, .i32⟩
  | .hbm, ⟨41, _⟩ => ⟨S8192x2048, .i1⟩
  | .hbm, ⟨42, _⟩ => ⟨S_, .i32⟩
  | .hbm, ⟨43, _⟩ => ⟨S8192x2048, .i32⟩
  | .hbm, ⟨44, _⟩ => ⟨S8192x2048, .i32⟩
  | .hbm, ⟨45, _⟩ => ⟨S8192x2048, .i32⟩
  | .hbm, ⟨46, _⟩ => ⟨S8192x2048x1, .i32⟩
  | .hbm, ⟨47, _⟩ => ⟨S8192x2048x1, .i32⟩
  | .hbm, ⟨48, _⟩ => ⟨S8192x2048x2, .i32⟩
  | .hbm, ⟨49, _⟩ => ⟨S_, .f32⟩
  | .hbm, ⟨50, _⟩ => ⟨S8192x2048, .f32⟩
  | .hbm, ⟨51, _⟩ => ⟨S30x2048, .f32⟩
  | .hbm, ⟨52, _⟩ => ⟨S_, .f32⟩
  | .hbm, ⟨53, _⟩ => ⟨S30x2048, .f32⟩
  | .hbm, ⟨54, _⟩ => ⟨S30x2048, .i1⟩
  | .hbm, ⟨55, _⟩ => ⟨S30x2048, .i32⟩
  | .hbm, ⟨56, _⟩ => ⟨S_, .i32⟩
  | .hbm, ⟨57, _⟩ => ⟨S2048, .i32⟩
  | .hbm, ⟨58, _⟩ => ⟨S2048, .f32⟩
  | .hbm, ⟨59, _⟩ => ⟨S_, .f32⟩
  | .hbm, ⟨60, _⟩ => ⟨S30x2048, .f32⟩
  | .hbm, ⟨61, _⟩ => ⟨S30x2048, .f32⟩
  | .hbm, ⟨62, _⟩ => ⟨S_, .f32⟩
  | .hbm, ⟨63, _⟩ => ⟨S30x2048, .f32⟩
  | .hbm, ⟨64, _⟩ => ⟨S30x2048, .f32⟩
  | .hbm, ⟨65, _⟩ => ⟨S30x2048, .f32⟩
  | .hbm, ⟨66, _⟩ => ⟨S_, .i32⟩
  | .hbm, ⟨67, _⟩ => ⟨S8192x2048, .i32⟩
  | .hbm, ⟨68, _⟩ => ⟨S8192x2048, .i1⟩
  | .hbm, ⟨69, _⟩ => ⟨S_, .i32⟩
  | .hbm, ⟨70, _⟩ => ⟨S8192x2048, .i32⟩
  | .hbm, ⟨71, _⟩ => ⟨S8192x2048, .i32⟩
  | .hbm, ⟨72, _⟩ => ⟨S8192x2048, .i32⟩
  | .hbm, ⟨73, _⟩ => ⟨S_, .i32⟩
  | .hbm, ⟨74, _⟩ => ⟨S8192x2048, .i32⟩
  | .hbm, ⟨75, _⟩ => ⟨S8192x2048, .i1⟩
  | .hbm, ⟨76, _⟩ => ⟨S_, .i32⟩
  | .hbm, ⟨77, _⟩ => ⟨S8192x2048, .i32⟩
  | .hbm, ⟨78, _⟩ => ⟨S8192x2048, .i32⟩
  | .hbm, ⟨79, _⟩ => ⟨S8192x2048, .i32⟩
  | .hbm, ⟨80, _⟩ => ⟨S8192x2048x1, .i32⟩
  | .hbm, ⟨81, _⟩ => ⟨S8192x2048x1, .i32⟩
  | .hbm, ⟨82, _⟩ => ⟨S8192x2048x2, .i32⟩
  | .hbm, ⟨83, _⟩ => ⟨S8192x2048, .f32⟩
  | .hbm, ⟨84, _⟩ => ⟨S_, .f32⟩
  | .hbm, ⟨85, _⟩ => ⟨S8192x2048, .f32⟩
  | .hbm, ⟨86, _⟩ => ⟨S8192x2048, .f32⟩
  | .hbm, ⟨87, _⟩ => ⟨S_, .f32⟩
  | .hbm, ⟨88, _⟩ => ⟨S2048, .f32⟩
  | .hbm, ⟨89, _⟩ => ⟨S2048, .f32⟩
  | .hbm, ⟨90, _⟩ => ⟨S1x2048, .f32⟩
  | .hbm, ⟨91, _⟩ => ⟨S8192x2048, .f32⟩
  | .hbm, ⟨92, _⟩ => ⟨S8192x2048, .f32⟩
  | .hbm, ⟨93, _⟩ => ⟨S_, .f32⟩
  | .hbm, ⟨94, _⟩ => ⟨S8192x2048, .f32⟩
  | .hbm, ⟨95, _⟩ => ⟨S8192x2048, .f32⟩
  | .hbm, ⟨96, _⟩ => ⟨S8192x2048, .f32⟩
  | .hbm, ⟨97, _⟩ => ⟨S8192x2048, .f32⟩
  | .hbm, ⟨98, _⟩ => ⟨S8192x2048, .i1⟩
  | .hbm, ⟨99, _⟩ => ⟨S8192x2048, .f32⟩
  | .hbm, ⟨100, _⟩ => ⟨S8192x2048, .f32⟩
  | .hbm, ⟨101, _⟩ => ⟨S8192x2048, .f32⟩
  | .hbm, ⟨102, _⟩ => ⟨S8192x2048, .f32⟩
  | .hbm, ⟨103, _⟩ => ⟨S8192x2048, .f32⟩
  | .hbm, ⟨104, _⟩ => ⟨S8192x2048, .f32⟩
  | .hbm, ⟨105, _⟩ => ⟨S8192x2048, .f32⟩
  | .hbm, ⟨106, _⟩ => ⟨S8192x2048, .f32⟩
  | .hbm, ⟨107, _⟩ => ⟨S8192x2048, .f32⟩
  | .hbm, ⟨108, _⟩ => ⟨S8192x2048, .f32⟩
  | .hbm, ⟨109, _⟩ => ⟨S8192x2048, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_10 : Ref sig .tc := ⟨.hbm, 56, rfl⟩
abbrev main_v36 : Ref sig .tc := ⟨.hbm, 57, rfl⟩
abbrev main_v37 : Ref sig .tc := ⟨.hbm, 58, rfl⟩
abbrev main_cst_11 : Ref sig .tc := ⟨.hbm, 59, rfl⟩
abbrev main_v38 : Ref sig .tc := ⟨.hbm, 60, rfl⟩
abbrev main_v39 : Ref sig .tc := ⟨.hbm, 61, rfl⟩
abbrev main_cst_12 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_13 : Ref sig .tc := ⟨.hbm, 66, rfl⟩
abbrev main_v43 : Ref sig .tc := ⟨.hbm, 67, rfl⟩
abbrev main_v44 : Ref sig .tc := ⟨.hbm, 68, rfl⟩
abbrev main_c_14 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_15 : Ref sig .tc := ⟨.hbm, 73, rfl⟩
abbrev main_v48 : Ref sig .tc := ⟨.hbm, 74, rfl⟩
abbrev main_v49 : Ref sig .tc := ⟨.hbm, 75, rfl⟩
abbrev main_c_16 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_17 : Ref sig .tc := ⟨.hbm, 84, rfl⟩
abbrev main_v57 : Ref sig .tc := ⟨.hbm, 85, rfl⟩
abbrev main_v58 : Ref sig .tc := ⟨.hbm, 86, rfl⟩
abbrev main_cst_18 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_19 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_20 : Ref sig .tc := ⟨.hbm, 110, rfl⟩
abbrev main_v80 : Ref sig .tc := ⟨.hbm, 111, rfl⟩
abbrev main_cst_21 : Ref sig .tc := ⟨.hbm, 112, rfl⟩
abbrev main_v81 : Ref sig .tc := ⟨.hbm, 113, rfl⟩
abbrev main_cst_22 : Ref sig .tc := ⟨.hbm, 114, rfl⟩
abbrev main_v82 : Ref sig .tc := ⟨.hbm, 115, rfl⟩

abbrev nD : Nat := 1
abbrev τ : Topo := Topo.v7x

variable {F : FTy → Type} [FloatOps F]

class Facts₀ : Prop where
  bcast_S_S8192x2048 : S_.BroadcastsInDim S8192x2048 (![] : Fin 0 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S30x2048 : S_.BroadcastsInDim S30x2048 (![] : Fin 0 → Fin S30x2048.rank)
  bcast_S8192x2048_S8192x2048x1_0_1 : S8192x2048.BroadcastsInDim S8192x2048x1 (![0, 1] : Fin 2 → Fin S8192x2048x1.rank)
  concatenates_S8192x2048x1_S8192x2048x1_S8192x2048x2_d2 : Shape.Concatenates [S8192x2048x1, S8192x2048x1] S8192x2048x2 2
  natLt_1_32 : 1 < 32
  reducesTo_S30x2048_S2048_d0 : S30x2048.ReducesTo [0] S2048
  h_S_ : 0 < S_.numel
  bcast_S_S2048 : S_.BroadcastsInDim S2048 (![] : Fin 0 → Fin S2048.rank)
  reducesTo_S8192x2048_S_d0_1 : S8192x2048.ReducesTo [0, 1] S_
  scatter_S30x2048_S8192x2048x2_S8192x2048_n_01_01_2_wf : ScatterDims.WF S30x2048 S8192x2048x2 S8192x2048 [] [0, 1] [0, 1] 2
  gather_S30x2048_S8192x2048x2_S8192x2048_n_01_n_n_01_2_11_wf : GatherDims.WF S30x2048 S8192x2048x2 S8192x2048 [] [0, 1] [] [0, 1] [] 2 ![1, 1]

variable [Facts₀]

def scatter_S30x2048_S8192x2048x2_S8192x2048_n_01_01_2 : ScatterDims S30x2048 S8192x2048x2 S8192x2048 where
  updateWindowDims := []
  insertedWindowDims := [0, 1]
  scatterDimsToOperandDims := [0, 1]
  indexVectorDim := 2
  wf := scatter_S30x2048_S8192x2048x2_S8192x2048_n_01_01_2_wf
def gather_S30x2048_S8192x2048x2_S8192x2048_n_01_n_n_01_2_11 : GatherDims S30x2048 S8192x2048x2 S8192x2048 where
  offsetDims := []
  collapsedSliceDims := [0, 1]
  operandBatchingDims := []
  startIndicesBatchingDims := []
  startIndexMap := [0, 1]
  indexVectorDim := 2
  sliceSizes := ![1, 1]
  wf := gather_S30x2048_S8192x2048x2_S8192x2048_n_01_n_n_01_2_11_wf

class Facts : Prop extends Facts₀ where

variable [Facts]
-- ==== Proof.RefRunHand.lean ====
/-
  The reference program's run, read stage by stage: every weakly fair execution of its straight line of 113 host
  operations terminates with the result buffer at the last stage of the operation-by-operation reading (the composition
  of the operations' functions, each stage a function of the three arguments) and the arguments unchanged.  The line is
  cut before each of its two concatenations into three stretches; each stretch is evaluated once over an arbitrary
  valuation of the buffers it reads, and the stretches are chained through the few buffers that cross a cut.
-/
import proofs.«415593_j11123965296942_3_alg».proof.Proof.RefRead
import proofs.«415593_j11123965296942_3_alg».proof.Proof.RefOps
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

/-- The three stretches of the line: operations 1-45, 46-79 and 80-113; a concatenation opens the second and the third. -/
abbrev ops1 : List (HloOp τ sig (Elt Ideal)) := (OpsP.ops (F := Ideal)).take 45
abbrev ops2 : List (HloOp τ sig (Elt Ideal)) := ((OpsP.ops (F := Ideal)).drop 45).take 34
abbrev ops3 : List (HloOp τ sig (Elt Ideal)) := ((OpsP.ops (F := Ideal)).drop 45).drop 34

/-- Running a line made of two stretches is running the second from where the first ends. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-- The whole line is the three stretches one after the other. -/
theorem after_split (V : Valuation τ sig (Elt Ideal)) :
    after (OpsP.ops (F := Ideal)) V = after ops3 (after ops2 (after ops1 V)) := by
  rw [← after_app, ← after_app]
  show _ = after (List.take 45 _ ++ (List.take 34 (List.drop 45 _) ++ List.drop 34 (List.drop 45 _))) V
  rw [List.take_append_drop, List.take_append_drop]

/-! ### The first stretch, from any contents `W`: what it hands on, as stages of the reading of the arguments in `W` -/

set_option maxRecDepth 8192 in
theorem s1_v0 (W : Valuation τ sig (Elt Ideal)) :
    after ops1 W (Proc.devRef .tc main_v0) = ReadP.val_main_v0 (F := Ideal) (W (Proc.devRef .tc main_arg1)) := by
  simp only [ops1, OpsP.ops, List.take_succ_cons, List.take_zero]
  after_results_simp <;> rfl

set_option maxRecDepth 8192 in
theorem s1_v13 (W : Valuation τ sig (Elt Ideal)) :
    after ops1 W (Proc.devRef .tc main_v13) = ReadP.val_main_v13 (F := Ideal) (W (Proc.devRef .tc main_arg0)) (W (Proc.devRef .tc main_arg1)) := by
  simp only [ops1, OpsP.ops, List.take_succ_cons, List.take_zero]
  after_results_simp <;> rfl

set_option maxRecDepth 8192 in
theorem s1_v16 (W : Valuation τ sig (Elt Ideal)) :
    after ops1 W (Proc.devRef .tc main_v16) = ReadP.val_main_v16 (F := Ideal) := by
  simp only [ops1, OpsP.ops, List.take_succ_cons, List.take_zero]
  after_results_simp <;> rfl

set_option maxRecDepth 8192 in
theorem s1_v17 (W : Valuation τ sig (Elt Ideal)) :
    after ops1 W (Proc.devRef .tc main_v17) = ReadP.val_main_v17 (F := Ideal) := by
  simp only [ops1, OpsP.ops, List.take_succ_cons, List.take_zero]
  after_results_simp <;> rfl

set_option maxRecDepth 8192 in
theorem s1_v28 (W : Valuation τ sig (Elt Ideal)) :
    after ops1 W (Proc.devRef .tc main_v28) = ReadP.val_main_v28 (F := Ideal) (W (Proc.devRef .tc main_arg0)) (W (Proc.devRef .tc main_arg1)) := by
  simp only [ops1, OpsP.ops, List.take_succ_cons, List.take_zero]
  after_results_simp <;> rfl

set_option maxRecDepth 8192 in
theorem s1_v29 (W : Valuation τ sig (Elt Ideal)) :
    after ops1 W (Proc.devRef .tc main_v29) = ReadP.val_main_v29 (F := Ideal) := by
  simp only [ops1, OpsP.ops, List.take_succ_cons, List.take_zero]
  after_results_simp <;> rfl

set_option maxRecDepth 8192 in
theorem s1_arg0 (W : Valuation τ sig (Elt Ideal)) :
    after ops1 W (Proc.devRef .tc main_arg0) = W (Proc.devRef .tc main_arg0) := by
  simp only [ops1, OpsP.ops, List.take_succ_cons, List.take_zero]
  after_results_simp <;> rfl

set_option maxRecDepth 8192 in
theorem s1_arg1 (W : Valuation τ sig (Elt Ideal)) :
    after ops1 W (Proc.devRef .tc main_arg1) = W (Proc.devRef .tc main_arg1) := by
  simp only [ops1, OpsP.ops, List.take_succ_cons, List.take_zero]
  after_results_simp <;> rfl

set_option maxRecDepth 8192 in
theorem s1_arg2 (W : Valuation τ sig (Elt Ideal)) :
    after ops1 W (Proc.devRef .tc main_arg2) = W (Proc.devRef .tc main_arg2) := by
  simp only [ops1, OpsP.ops, List.take_succ_cons, List.take_zero]
  after_results_simp <;> rfl

/-! ### The second stretch, from contents `W` that hold the first stretch's stages -/

set_option maxRecDepth 8192 in
theorem s2_v42 (W : Valuation τ sig (Elt Ideal)) (x0 : (⟨S8192x2048, .f32⟩ : BufTy).Contents (Elt Ideal)) (x1 : (⟨S8192x2048, .i32⟩ : BufTy).Contents (Elt Ideal)) (x2 : (⟨S30x2048, .f32⟩ : BufTy).Contents (Elt Ideal))
    (h2 : W (Proc.devRef .tc main_arg2) = x2)
    (h17 : W (Proc.devRef .tc main_v17) = ReadP.val_main_v17 (F := Ideal))
    (h28 : W (Proc.devRef .tc main_v28) = ReadP.val_main_v28 (F := Ideal) x0 x1)
    (h29 : W (Proc.devRef .tc main_v29) = ReadP.val_main_v29 (F := Ideal)) :
    after ops2 W (Proc.devRef .tc main_v42) = ReadP.val_main_v42 (F := Ideal) x0 x1 x2 := by
  simp only [ops2, OpsP.ops, List.drop_succ_cons, List.drop_zero, List.take_succ_cons, List.take_zero]
  after_results_simp
  rw [h2, h17, h28, h29]
  rfl

set_option maxRecDepth 8192 in
theorem s2_v37 (W : Valuation τ sig (Elt Ideal)) (x0 : (⟨S8192x2048, .f32⟩ : BufTy).Contents (Elt Ideal)) (x1 : (⟨S8192x2048, .i32⟩ : BufTy).Contents (Elt Ideal))
    (h17 : W (Proc.devRef .tc main_v17) = ReadP.val_main_v17 (F := Ideal))
    (h28 : W (Proc.devRef .tc main_v28) = ReadP.val_main_v28 (F := Ideal) x0 x1)
    (h29 : W (Proc.devRef .tc main_v29) = ReadP.val_main_v29 (F := Ideal)) :
    after ops2 W (Proc.devRef .tc main_v37) = ReadP.val_main_v37 (F := Ideal) x0 x1 := by
  simp only [ops2, OpsP.ops, List.drop_succ_cons, List.drop_zero, List.take_succ_cons, List.take_zero]
  after_results_simp
  rw [h17, h28, h29]
  rfl

set_option maxRecDepth 8192 in
theorem s2_v53 (W : Valuation τ sig (Elt Ideal)) (x0 : (⟨S8192x2048, .f32⟩ : BufTy).Contents (Elt Ideal)) (x1 : (⟨S8192x2048, .i32⟩ : BufTy).Contents (Elt Ideal))
    (h13 : W (Proc.devRef .tc main_v13) = ReadP.val_main_v13 (F := Ideal) x0 x1) :
    after ops2 W (Proc.devRef .tc main_v53) = ReadP.val_main_v53 (F := Ideal) x0 x1 := by
  simp only [ops2, OpsP.ops, List.drop_succ_cons, List.drop_zero, List.take_succ_cons, List.take_zero]
  after_results_simp
  rw [h13]
  rfl

set_option maxRecDepth 8192 in
theorem s2_v54 (W : Valuation τ sig (Elt Ideal))
    (h16 : W (Proc.devRef .tc main_v16) = ReadP.val_main_v16 (F := Ideal)) :
    after ops2 W (Proc.devRef .tc main_v54) = ReadP.val_main_v54 (F := Ideal) := by
  simp only [ops2, OpsP.ops, List.drop_succ_cons, List.drop_zero, List.take_succ_cons, List.take_zero]
  after_results_simp
  rw [h16]
  rfl

set_option maxRecDepth 8192 in
theorem s2_v0 (W : Valuation τ sig (Elt Ideal)) :
    after ops2 W (Proc.devRef .tc main_v0) = W (Proc.devRef .tc main_v0) := by
  simp only [ops2, OpsP.ops, List.drop_succ_cons, List.drop_zero, List.take_succ_cons, List.take_zero]
  after_results_simp <;> rfl

set_option maxRecDepth 8192 in
theorem s2_arg0 (W : Valuation τ sig (Elt Ideal)) :
    after ops2 W (Proc.devRef .tc main_arg0) = W (Proc.devRef .tc main_arg0) := by
  simp only [ops2, OpsP.ops, List.drop_succ_cons, List.drop_zero, List.take_succ_cons, List.take_zero]
  after_results_simp <;> rfl

set_option maxRecDepth 8192 in
theorem s2_arg1 (W : Valuation τ sig (Elt Ideal)) :
    after ops2 W (Proc.devRef .tc main_arg1) = W (Proc.devRef .tc main_arg1) := by
  simp only [ops2, OpsP.ops, List.drop_succ_cons, List.drop_zero, List.take_succ_cons, List.take_zero]
  after_results_simp <;> rfl

set_option maxRecDepth 8192 in
theorem s2_arg2 (W : Valuation τ sig (Elt Ideal)) :
    after ops2 W (Proc.devRef .tc main_arg2) = W (Proc.devRef .tc main_arg2) := by
  simp only [ops2, OpsP.ops, List.drop_succ_cons, List.drop_zero, List.take_succ_cons, List.take_zero]
  after_results_simp <;> rfl

/-! ### The third stretch, from contents `W` that hold the earlier stretches' stages -/

set_option maxRecDepth 8192 in
theorem s3_v82 (W : Valuation τ sig (Elt Ideal)) (x0 : (⟨S8192x2048, .f32⟩ : BufTy).Contents (Elt Ideal)) (x1 : (⟨S8192x2048, .i32⟩ : BufTy).Contents (Elt Ideal)) (x2 : (⟨S30x2048, .f32⟩ : BufTy).Contents (Elt Ideal))
    (h53 : W (Proc.devRef .tc main_v53) = ReadP.val_main_v53 (F := Ideal) x0 x1)
    (h54 : W (Proc.devRef .tc main_v54) = ReadP.val_main_v54 (F := Ideal))
    (h42 : W (Proc.devRef .tc main_v42) = ReadP.val_main_v42 (F := Ideal) x0 x1 x2)
    (h37 : W (Proc.devRef .tc main_v37) = ReadP.val_main_v37 (F := Ideal) x0 x1)
    (ha0 : W (Proc.devRef .tc main_arg0) = x0)
    (h0 : W (Proc.devRef .tc main_v0) = ReadP.val_main_v0 (F := Ideal) x1) :
    after ops3 W (Proc.devRef .tc main_v82) = ReadP.val_main_v82 (F := Ideal) x0 x1 x2 := by
  simp only [ops3, OpsP.ops, List.drop_succ_cons, List.drop_zero]
  after_results_simp
  rw [h53, h54, h42, h37, ha0, h0]
  rfl

set_option maxRecDepth 8192 in
theorem s3_arg0 (W : Valuation τ sig (Elt Ideal)) :
    after ops3 W (Proc.devRef .tc main_arg0) = W (Proc.devRef .tc main_arg0) := by
  simp only [ops3, OpsP.ops, List.drop_succ_cons, List.drop_zero]
  after_results_simp <;> rfl

set_option maxRecDepth 8192 in
theorem s3_arg1 (W : Valuation τ sig (Elt Ideal)) :
    after ops3 W (Proc.devRef .tc main_arg1) = W (Proc.devRef .tc main_arg1) := by
  simp only [ops3, OpsP.ops, List.drop_succ_cons, List.drop_zero]
  after_results_simp <;> rfl

set_option maxRecDepth 8192 in
theorem s3_arg2 (W : Valuation τ sig (Elt Ideal)) :
    after ops3 W (Proc.devRef .tc main_arg2) = W (Proc.devRef .tc main_arg2) := by
  simp only [ops3, OpsP.ops, List.drop_succ_cons, List.drop_zero]
  after_results_simp <;> rfl

/-! ### The whole line -/

/-- The line from any contents `V`: the result buffer ends at the last stage of the reading of the arguments in `V`,
    and the arguments are where they were.  Each stretch takes over the buffers that cross the cut before it. -/
theorem line (V : Valuation τ sig (Elt Ideal)) :
    after (OpsP.ops (F := Ideal)) V (Proc.devRef .tc main_v82)
        = ReadP.val_main_v82 (F := Ideal) (V (Proc.devRef .tc main_arg0)) (V (Proc.devRef .tc main_arg1)) (V (Proc.devRef .tc main_arg2))
      ∧ after (OpsP.ops (F := Ideal)) V (Proc.devRef .tc main_arg0) = V (Proc.devRef .tc main_arg0)
      ∧ after (OpsP.ops (F := Ideal)) V (Proc.devRef .tc main_arg1) = V (Proc.devRef .tc main_arg1)
      ∧ after (OpsP.ops (F := Ideal)) V (Proc.devRef .tc main_arg2) = V (Proc.devRef .tc main_arg2) := by
  rw [after_split]
  have e0 : after ops2 (after ops1 V) (Proc.devRef .tc main_arg0) = V (Proc.devRef .tc main_arg0) := (s2_arg0 _).trans (s1_arg0 V)
  have e1 : after ops2 (after ops1 V) (Proc.devRef .tc main_arg1) = V (Proc.devRef .tc main_arg1) := (s2_arg1 _).trans (s1_arg1 V)
  have e2 : after ops2 (after ops1 V) (Proc.devRef .tc main_arg2) = V (Proc.devRef .tc main_arg2) := (s2_arg2 _).trans (s1_arg2 V)
  exact ⟨s3_v82 _ _ _ _
      (s2_v53 _ _ _ (s1_v13 V)) (s2_v54 _ (s1_v16 V))
      (s2_v42 _ _ _ _ (s1_arg2 V) (s1_v17 V) (s1_v28 V) (s1_v29 V))
      (s2_v37 _ _ _ (s1_v17 V) (s1_v28 V) (s1_v29 V))
      e0 ((s2_v0 _).trans (s1_v0 V)),
    (s3_arg0 _).trans e0, (s3_arg1 _).trans e1, (s3_arg2 _).trans e2⟩

/-- The run: the result is the last stage of the reading, the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v82)
        = Cert.ReferenceIdeal.ReadP.val_main_v82 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v82).trans (line (launchContents m c)).1,
       (h c main_arg0).trans (line (launchContents m c)).2.1,
       (h c main_arg1).trans (line (launchContents m c)).2.2.1,
       (h c main_arg2).trans (line (launchContents m c)).2.2.2⟩)
    (run_seq OpsP.scopedRefs_eq OpsP.scopedSems_eq defs (main (F := Ideal)) (fun _ => OpsP.ops (F := Ideal))
      (OpsP.main_eq (F := Ideal)) (fun _ => OpsP.ops_sub (F := Ideal)) m ρ)

end Cert.ReferenceIdeal.RunH

end
-- ==== Proof.Spec.lean ====
/-
  The mathematics both programs compute, stated once over the three argument arrays
  (logits `P`, integer labels `T`, running histogram `A`), with every float an extended real.

  Elementwise:  t = the label as a number,  g = |σ(p) − t|,  bin = clip(⌊30·g⌋, 0, 29),
                bce = max(0,p) + log(1 + e^{−|0−p|}) − p·t.
  Per column c: cnt[b,c] = #{i : bin(i,c) = b},  sacc[b,c] = Σ_{i : bin(i,c) = b} bce(i,c),
                acc'[b,c] = ¾·A[b,c] + ¼·cnt[b,c],  nne[c] = #{b : cnt[b,c] ≥ 1}.
  One program weights each element by (8192 / acc'[bin,c]) / max(nne[c],1) and sums over all
  elements; the other forms, per column, Σ_b w[b,c]·sacc[b,c] with
  w[b,c] = 8192 / (acc'[b,c]·max(nne[c],1)) on populated bins and 0 elsewhere, writes an eighth of
  it into eight rows, and sums those.  Both then divide by 2^24.
-/
import Idealize.ShloMosaic.PureOps.Ideal
import Idealize.ShloMosaic.Lib.ValueIdx

noncomputable section

namespace Cert.GHM

open Idealize.ShloMosaic Idealize.ShloMosaic.ValueIdx

/-- The extended reals, as the value type of an f32 at the ideal instance. -/
abbrev E : Type := Ideal .f32

abbrev SNC : Shape := ⟨2, ![8192, 2048]⟩
abbrev SBC : Shape := ⟨2, ![30, 2048]⟩
abbrev STile : Shape := ⟨2, ![1024, 1024]⟩
abbrev SOut : Shape := ⟨2, ![16, 1024]⟩

/-- The literals, as the programs print them. -/
abbrev c0 : E := FloatOps.ofBits (F := Ideal) .f32 0x00000000#32
abbrev c1 : E := FloatOps.ofBits (F := Ideal) .f32 0x3F800000#32
abbrev c30 : E := FloatOps.ofBits (F := Ideal) .f32 0x41F00000#32
abbrev c34 : E := FloatOps.ofBits (F := Ideal) .f32 0x3F400000#32
abbrev c14 : E := FloatOps.ofBits (F := Ideal) .f32 0x3E800000#32
abbrev c8 : E := FloatOps.ofBits (F := Ideal) .f32 0x41000000#32
abbrev c8192 : E := FloatOps.ofBits (F := Ideal) .f32 0x46000000#32
abbrev c2p24 : E := FloatOps.ofBits (F := Ideal) .f32 0x4B800000#32

/-- The label read as a number. -/
def tOf (w : BitVec 32) : E := FloatOps.sitofp (F := Ideal) .f32 w

/-- The bin word of one element: clip(⌊30·|σ(p) − t|⌋, 0, 29). -/
def binOf (p : E) (w : BitVec 32) : BitVec 32 :=
  IntOp.minsi 29#32 (IntOp.maxsi 0#32 (FloatOps.fptosi (F := Ideal) (φ := .f32) 32
    (FloatOps.floor (FloatOps.mulf (FloatOps.absf (FloatOps.subf (FloatOps.logistic p) (tOf w))) c30))))

/-- The cross-entropy term of one element: max(0,p) + log1p(exp(0 − |0 − p|)) − p·t. -/
def bceOf (p : E) (w : BitVec 32) : E :=
  FloatOps.subf
    (FloatOps.addf (FloatOps.maximumf c0 p)
      (FloatOps.log1p (FloatOps.exp (FloatOps.subf c0 (FloatOps.absf (FloatOps.subf c0 p))))))
    (FloatOps.mulf p (tOf w))

/-- Bin number `b` as the word the programs compare with. -/
abbrev binWord (b : Fin 30) : BitVec 32 := BitVec.ofNat 32 b.val

/-- The number of populated bins of one column, from its 30 counts. -/
def nneOf (cntc : Fin 30 → E) : E := ∑ b : Fin 30, if c1 ≤ cntc b then (1 : E) else 0

/-- The per-bin weight of one column: 8192 / (acc'·max(nne,1)) on a populated bin, 0 on an empty one,
    with acc' = ¾·acc + ¼·cnt. -/
def wBinOf (acc cntc : Fin 30 → E) (b : Fin 30) : E :=
  if c1 ≤ cntc b then Ideal.div c8192 ((c34 * acc b + c14 * cntc b) * max (nneOf cntc) c1) else c0

/-- One column's weighted mass Σ_b w[b]·s[b], from its 30 running-histogram entries, counts and masses. -/
def colMassOf (acc cntc sc : Fin 30 → E) : E := ∑ b : Fin 30, wBinOf acc cntc b * sc b

section tables

variable (P : SNC.Idx → E) (T : SNC.Idx → BitVec 32) (A : SBC.Idx → E)

def bin (i : Fin 8192) (c : Fin 2048) : BitVec 32 := binOf (P (ix2 i c)) (T (ix2 i c))
def bce (i : Fin 8192) (c : Fin 2048) : E := bceOf (P (ix2 i c)) (T (ix2 i c))

/-- The histogram: how many rows of column `c` fall in bin `b`. -/
def cnt (b : Fin 30) (c : Fin 2048) : E := ∑ i : Fin 8192, if bin P T i c = binWord b then (1 : E) else 0
/-- The cross-entropy mass of bin `b` in column `c`. -/
def sacc (b : Fin 30) (c : Fin 2048) : E := ∑ i : Fin 8192, if bin P T i c = binWord b then bce P T i c else 0
/-- The updated running histogram. -/
def accNew (b : Fin 30) (c : Fin 2048) : E := c34 * A (ix2 b c) + c14 * cnt P T b c
/-- The number of populated bins of column `c`. -/
def nne (c : Fin 2048) : E := nneOf (fun b => cnt P T b c)

/-- One column's weighted mass. -/
def colMass (c : Fin 2048) : E :=
  colMassOf (fun b => A (ix2 b c)) (fun b => cnt P T b c) (fun b => sacc P T b c)

/-- The [16, 1024] array of partial sums: rows 8k … 8k+7 hold an eighth of the masses of columns 1024k … 1024k+1023. -/
def outArr : SOut.Idx → E := fun y =>
  Ideal.div (colMass P T A ⟨1024 * ((y 0).val / 8) + (y 1).val, by
    have h0 : (y 0).val < 16 := (y 0).isLt
    have h1 : (y 1).val < 1024 := (y 1).isLt
    omega⟩) c8

/-- The loss as the bin-table program forms it. -/
def kernelLoss : E := Ideal.div (c1 * (c0 + ∑ y : SOut.Idx, outArr P T A y)) c2p24

/-- The bin of an element as a row of the table (the bin word is always in 0 … 29). -/
def binRow (i : Fin 8192) (c : Fin 2048) : Fin 30 :=
  ⟨(bin P T i c).toNat % 30, Nat.mod_lt _ (by decide)⟩

/-- The per-element weight: (8192 / acc'[bin,c]) / max(nne[c],1). -/
def wElem (i : Fin 8192) (c : Fin 2048) : E :=
  Ideal.div (Ideal.div c8192 (accNew P T A (binRow P T i c) c)) (max (nne P T c) c1)

/-- The loss as the per-element program forms it. -/
def refLoss : E :=
  Ideal.div (c0 + ∑ x : SNC.Idx, wElem P T A (x 0) (x 1) * bce P T (x 0) (x 1)) c2p24 * c1

end tables

end Cert.GHM

end
-- ==== Proof.LibElemGS.lean ====
/-
  jax's two-index element access on a matrix, read at an index.

  `x.at[r, c].add(u)` with index arrays r, c of one shape [N, C] lowers to a scatter whose index vectors are the
  pairs (r[n,k], c[n,k]) stacked on a last axis of size 2, with no window axes: element (b, c') of the result is the
  operand's element plus the sum of the updates u[n,k] whose pair reads (b, c') (pairs outside the matrix are dropped).
  `x[r, c]` lowers to a gather of 1×1 slices with both axes collapsed: element (n, k) of the result is the operand's
  element at the pair (r[n,k], c[n,k]), each component read signed and clamped into range.
-/
import Idealize.ShloMosaic.PureOps.Ideal
import Idealize.ShloMosaic.Lib.ValueIdx
import Mathlib.Algebra.BigOperators.Fin

noncomputable section

namespace Cert.Lib.ElemGS

open Idealize.ShloMosaic Idealize.ShloMosaic.ValueIdx

/-! ## Elements scattered and added -/

/-- The dimension numbers of an element scatter: operand `[B, C]`, scatter indices `[N, K, 2]`, updates `[N, K]`;
    no update axis is a window axis, both operand axes are inserted, and the two components of the index vector (the
    last axis of the scatter indices) name the operand's row and column in that order. -/
abbrev elemScatterDims (B C N K : ℕ)
    (wf : ScatterDims.WF ⟨2, ![B, C]⟩ ⟨3, ![N, K, 2]⟩ ⟨2, ![N, K]⟩ [] [0, 1] [0, 1] 2) :
    ScatterDims ⟨2, ![B, C]⟩ ⟨3, ![N, K, 2]⟩ ⟨2, ![N, K]⟩ where
  updateWindowDims := []
  insertedWindowDims := [0, 1]
  scatterDimsToOperandDims := [0, 1]
  indexVectorDim := 2
  wf := wf

section ElemScatter
variable {B C N K w : ℕ} (wf : ScatterDims.WF ⟨2, ![B, C]⟩ ⟨3, ![N, K, 2]⟩ ⟨2, ![N, K]⟩ [] [0, 1] [0, 1] 2)
  (idx : IVec ⟨3, ![N, K, 2]⟩ w) (n : Fin N) (k : Fin K)

/-- On the row axis the window of update `(n, k)` starts at component 0 of its index pair, read signed. -/
theorem elemScatter_start_row :
    (elemScatterDims B C N K wf).start (ix2 n k) idx 0 = (idx (ix3 n k (0 : Fin 2))).toInt := by
  unfold ScatterDims.start
  rw [dif_pos (show (0 : Fin 2) ∈ (elemScatterDims B C N K wf).scatterDimsToOperandDims from
    List.mem_cons_self)]
  congr 2
  funext a
  refine Fin.ext ?_
  match a with
  | ⟨0, _⟩ => rfl
  | ⟨1, _⟩ => rfl
  | ⟨2, _⟩ => rfl

/-- On the column axis the window of update `(n, k)` starts at component 1 of its index pair, read signed. -/
theorem elemScatter_start_col :
    (elemScatterDims B C N K wf).start (ix2 n k) idx 1 = (idx (ix3 n k (1 : Fin 2))).toInt := by
  unfold ScatterDims.start
  rw [dif_pos (show (1 : Fin 2) ∈ (elemScatterDims B C N K wf).scatterDimsToOperandDims from
    List.mem_cons_of_mem _ List.mem_cons_self)]
  congr 2
  funext a
  refine Fin.ext ?_
  match a with
  | ⟨0, _⟩ => rfl
  | ⟨1, _⟩ => rfl
  | ⟨2, _⟩ => rfl

/-- Both operand axes are inserted: none is kept for a window. -/
theorem elemScatter_sKept : (elemScatterDims B C N K wf).sKept = [] :=
  (by decide : (List.finRange 2).filter (fun a : Fin 2 => decide (a ∉ ([0, 1] : List (Fin 2)))) = [])

/-- An inserted axis has window coordinate `0`. -/
theorem elemScatter_window (a : Fin 2) : (elemScatterDims B C N K wf).window (ix2 n k) a = 0 := by
  unfold ScatterDims.window
  rw [dif_neg]
  intro hmem
  rw [elemScatter_sKept] at hmem
  exact absurd hmem List.not_mem_nil

/-- Update `(n, k)` of an element scatter lands at `(b, c)` exactly when its index pair, read signed, is `(b, c)`;
    a pair outside the matrix lands nowhere. -/
theorem resultIdx?_elemDims_eq_some_iff (b : Fin B) (c : Fin C) :
    (elemScatterDims B C N K wf).resultIdx? (ix2 n k) idx = some (ix2 b c)
      ↔ (idx (ix3 n k (0 : Fin 2))).toInt = (b.val : ℤ) ∧ (idx (ix3 n k (1 : Fin 2))).toInt = (c.val : ℤ) := by
  have hs0 := elemScatter_start_row wf idx n k
  have hs1 := elemScatter_start_col wf idx n k
  have hw0 := elemScatter_window wf n k 0
  have hw1 := elemScatter_window wf n k 1
  have hb := b.isLt
  have hc := c.isLt
  unfold ScatterDims.resultIdx?
  by_cases hin : (0 ≤ (idx (ix3 n k (0 : Fin 2))).toInt ∧ (idx (ix3 n k (0 : Fin 2))).toInt < (B : ℤ))
      ∧ (0 ≤ (idx (ix3 n k (1 : Fin 2))).toInt ∧ (idx (ix3 n k (1 : Fin 2))).toInt < (C : ℤ))
  · rw [dif_pos (by
      intro a
      match a with
      | ⟨0, _⟩ =>
        show 0 ≤ (elemScatterDims B C N K wf).start (ix2 n k) idx 0
            + (((elemScatterDims B C N K wf).window (ix2 n k) 0 : ℕ) : ℤ)
          ∧ (elemScatterDims B C N K wf).start (ix2 n k) idx 0
            + (((elemScatterDims B C N K wf).window (ix2 n k) 0 : ℕ) : ℤ) < (B : ℤ)
        rw [hs0, hw0]
        omega
      | ⟨1, _⟩ =>
        show 0 ≤ (elemScatterDims B C N K wf).start (ix2 n k) idx 1
            + (((elemScatterDims B C N K wf).window (ix2 n k) 1 : ℕ) : ℤ)
          ∧ (elemScatterDims B C N K wf).start (ix2 n k) idx 1
            + (((elemScatterDims B C N K wf).window (ix2 n k) 1 : ℕ) : ℤ) < (C : ℤ)
        rw [hs1, hw1]
        omega)]
    rw [Option.some_inj]
    constructor
    · intro hf
      have h0 : ((elemScatterDims B C N K wf).start (ix2 n k) idx 0
          + (((elemScatterDims B C N K wf).window (ix2 n k) 0 : ℕ) : ℤ)).toNat = b.val :=
        congrArg (fun f => (f 0).val) hf
      have h1 : ((elemScatterDims B C N K wf).start (ix2 n k) idx 1
          + (((elemScatterDims B C N K wf).window (ix2 n k) 1 : ℕ) : ℤ)).toNat = c.val :=
        congrArg (fun f => (f 1).val) hf
      rw [hs0, hw0] at h0
      rw [hs1, hw1] at h1
      exact ⟨by omega, by omega⟩
    · rintro ⟨ht0, ht1⟩
      funext a
      apply Fin.ext
      match a with
      | ⟨0, _⟩ =>
        show ((elemScatterDims B C N K wf).start (ix2 n k) idx 0
          + (((elemScatterDims B C N K wf).window (ix2 n k) 0 : ℕ) : ℤ)).toNat = b.val
        rw [hs0, hw0]
        omega
      | ⟨1, _⟩ =>
        show ((elemScatterDims B C N K wf).start (ix2 n k) idx 1
          + (((elemScatterDims B C N K wf).window (ix2 n k) 1 : ℕ) : ℤ)).toNat = c.val
        rw [hs1, hw1]
        omega
  · rw [dif_neg (by
      intro hall
      apply hin
      have h0 : 0 ≤ (elemScatterDims B C N K wf).start (ix2 n k) idx 0
            + (((elemScatterDims B C N K wf).window (ix2 n k) 0 : ℕ) : ℤ)
          ∧ (elemScatterDims B C N K wf).start (ix2 n k) idx 0
            + (((elemScatterDims B C N K wf).window (ix2 n k) 0 : ℕ) : ℤ) < (B : ℤ) := hall 0
      have h1 : 0 ≤ (elemScatterDims B C N K wf).start (ix2 n k) idx 1
            + (((elemScatterDims B C N K wf).window (ix2 n k) 1 : ℕ) : ℤ)
          ∧ (elemScatterDims B C N K wf).start (ix2 n k) idx 1
            + (((elemScatterDims B C N K wf).window (ix2 n k) 1 : ℕ) : ℤ) < (C : ℤ) := hall 1
      rw [hs0, hw0] at h0
      rw [hs1, hw1] at h1
      exact ⟨by omega, by omega⟩)]
    constructor
    · intro hf
      cases hf
    · rintro ⟨ht0, ht1⟩
      exfalso
      apply hin
      omega

end ElemScatter

/-- Where an element update lands, for any record with those dimension numbers: update `(n, k)` lands at `(b, c)`
    exactly when its index pair, read signed and not clamped, is `(b, c)`. -/
theorem resultIdx?_elem_eq_some_iff {B C N K w : ℕ} (d : ScatterDims ⟨2, ![B, C]⟩ ⟨3, ![N, K, 2]⟩ ⟨2, ![N, K]⟩)
    (hu : d.updateWindowDims = []) (hi : d.insertedWindowDims = [0, 1]) (hs : d.scatterDimsToOperandDims = [0, 1])
    (hv : d.indexVectorDim = 2) (idx : IVec ⟨3, ![N, K, 2]⟩ w) (n : Fin N) (k : Fin K) (b : Fin B) (c : Fin C) :
    d.resultIdx? (ix2 n k) idx = some (ix2 b c)
      ↔ (idx (ix3 n k (0 : Fin 2))).toInt = (b.val : ℤ) ∧ (idx (ix3 n k (1 : Fin 2))).toInt = (c.val : ℤ) := by
  obtain ⟨uw, iw, sd, iv, wf⟩ := d
  simp only at hu hi hs hv
  subst hu hi hs hv
  exact resultIdx?_elemDims_eq_some_iff wf idx n k b c

/-- The accumulating scatter of jax's `x.at[r, c].add(u)` read at an index: the operand's element plus the updates whose
    index pair, read signed, is that index. -/
theorem scatterAdd_elem_apply {B C N K w : ℕ} (d : ScatterDims ⟨2, ![B, C]⟩ ⟨3, ![N, K, 2]⟩ ⟨2, ![N, K]⟩)
    (hu : d.updateWindowDims = []) (hi : d.insertedWindowDims = [0, 1]) (hs : d.scatterDimsToOperandDims = [0, 1])
    (hv : d.indexVectorDim = 2)
    (x : FVec Ideal ⟨2, ![B, C]⟩ .f32) (idx : IVec ⟨3, ![N, K, 2]⟩ w) (upd : FVec Ideal ⟨2, ![N, K]⟩ .f32)
    (b : Fin B) (c : Fin C) :
    Host.scatterAdd (F := Ideal) d x idx upd (ix2 b c)
      = x (ix2 b c) + ∑ n : Fin N, ∑ k : Fin K,
          if (idx (ix3 n k (0 : Fin 2))).toInt = (b.val : ℤ) ∧ (idx (ix3 n k (1 : Fin 2))).toInt = (c.val : ℤ)
          then upd (ix2 n k) else 0 := by
  show Ideal.hostScatterAdd d x idx upd (ix2 b c) = _
  unfold Ideal.hostScatterAdd
  congr 1
  rw [Finset.sum_filter, sum_idx2]
  refine Finset.sum_congr rfl (fun n _ => Finset.sum_congr rfl (fun k _ => ?_))
  simp only [resultIdx?_elem_eq_some_iff d hu hi hs hv idx n k b c]

/-! ## Elements gathered -/

/-- The dimension numbers of an element gather: operand `[B, C]`, start indices `[N, K, 2]`, result `[N, K]`;
    the result has no offset axis, both operand axes are collapsed, the two components of the index vector (the last
    axis of the start indices) name the operand's row and column in that order, and the slices are `1 × 1`. -/
abbrev elemGatherDims (B C N K : ℕ)
    (wf : GatherDims.WF ⟨2, ![B, C]⟩ ⟨3, ![N, K, 2]⟩ ⟨2, ![N, K]⟩ [] [0, 1] [] [0, 1] [] 2 ![1, 1]) :
    GatherDims ⟨2, ![B, C]⟩ ⟨3, ![N, K, 2]⟩ ⟨2, ![N, K]⟩ where
  offsetDims := []
  collapsedSliceDims := [0, 1]
  operandBatchingDims := []
  startIndicesBatchingDims := []
  startIndexMap := [0, 1]
  indexVectorDim := 2
  sliceSizes := ![1, 1]
  wf := wf

/-- The element gather at those dimension numbers, read at `(n, k)` whose index pair reads `(b, c)` inside the matrix:
    on each operand axis the start is the pair's component for it (the clamp into `[0, size − 1]` does nothing to a
    component already in range), and neither a batching nor an offset coordinate is added (no batching axis, both axes
    collapsed). -/
theorem gather_elemDims_apply {α : Type} {B C N K w : ℕ}
    (wf : GatherDims.WF ⟨2, ![B, C]⟩ ⟨3, ![N, K, 2]⟩ ⟨2, ![N, K]⟩ [] [0, 1] [] [0, 1] [] 2 ![1, 1])
    (x : (⟨2, ![B, C]⟩ : Shape).Idx → α) (idx : IVec ⟨3, ![N, K, 2]⟩ w) (n : Fin N) (k : Fin K) (b : Fin B) (c : Fin C)
    (h0 : (idx (ix3 n k (0 : Fin 2))).toInt = (b.val : ℤ)) (h1 : (idx (ix3 n k (1 : Fin 2))).toInt = (c.val : ℤ)) :
    Host.gather (elemGatherDims B C N K wf) x idx (ix2 n k) = x (ix2 b c) := by
  unfold Host.gather
  congr 1
  funext a
  refine Fin.ext ?_
  match a with
  | ⟨0, _⟩ =>
    show (elemGatherDims B C N K wf).start (ix2 n k) idx 0 + (elemGatherDims B C N K wf).batchCoord (ix2 n k) 0
      + (elemGatherDims B C N K wf).offCoord (ix2 n k) 0 = b.val
    rw [GatherDims.batchCoord_eq_zero _ _ _ List.not_mem_nil,
      GatherDims.offCoord_eq_zero _ _ _
        (fun h => ((GatherDims.mem_sKept _ _).mp h).1 List.mem_cons_self)]
    simp only [Nat.add_zero]
    unfold GatherDims.start
    rw [dif_pos (show (0 : Fin 2) ∈ (elemGatherDims B C N K wf).startIndexMap from List.mem_cons_self)]
    have hsi : (elemGatherDims B C N K wf).siIdx (ix2 n k)
        ⟨List.idxOf (0 : Fin 2) (elemGatherDims B C N K wf).startIndexMap,
          List.idxOf_lt_length_iff.2 List.mem_cons_self⟩ = ix3 n k (0 : Fin 2) := by
      funext a'
      refine Fin.ext ?_
      match a' with
      | ⟨0, _⟩ => rfl
      | ⟨1, _⟩ => rfl
      | ⟨2, _⟩ => rfl
    rw [hsi, h0]
    show min ((b.val : ℤ)).toNat (B - 1) = b.val
    have := b.isLt
    omega
  | ⟨1, _⟩ =>
    show (elemGatherDims B C N K wf).start (ix2 n k) idx 1 + (elemGatherDims B C N K wf).batchCoord (ix2 n k) 1
      + (elemGatherDims B C N K wf).offCoord (ix2 n k) 1 = c.val
    rw [GatherDims.batchCoord_eq_zero _ _ _ List.not_mem_nil,
      GatherDims.offCoord_eq_zero _ _ _
        (fun h => ((GatherDims.mem_sKept _ _).mp h).1 (List.mem_cons_of_mem _ List.mem_cons_self))]
    simp only [Nat.add_zero]
    unfold GatherDims.start
    rw [dif_pos (show (1 : Fin 2) ∈ (elemGatherDims B C N K wf).startIndexMap from
      List.mem_cons_of_mem _ List.mem_cons_self)]
    have hsi : (elemGatherDims B C N K wf).siIdx (ix2 n k)
        ⟨List.idxOf (1 : Fin 2) (elemGatherDims B C N K wf).startIndexMap,
          List.idxOf_lt_length_iff.2 (List.mem_cons_of_mem _ List.mem_cons_self)⟩ = ix3 n k (1 : Fin 2) := by
      funext a'
      refine Fin.ext ?_
      match a' with
      | ⟨0, _⟩ => rfl
      | ⟨1, _⟩ => rfl
      | ⟨2, _⟩ => rfl
    rw [hsi, h1]
    show min ((c.val : ℤ)).toNat (C - 1) = c.val
    have := c.isLt
    omega

/-- The gather of jax's `x[r, c]` read at an index whose pair is in range: the operand's element at that pair. -/
theorem gather_elem_apply_of_inRange {α : Type} {B C N K w : ℕ} (d : GatherDims ⟨2, ![B, C]⟩ ⟨3, ![N, K, 2]⟩ ⟨2, ![N, K]⟩)
    (ho : d.offsetDims = []) (hc : d.collapsedSliceDims = [0, 1]) (hb : d.operandBatchingDims = [])
    (hsb : d.startIndicesBatchingDims = []) (hm : d.startIndexMap = [0, 1]) (hv : d.indexVectorDim = 2)
    (hsz : d.sliceSizes = ![1, 1])
    (x : (⟨2, ![B, C]⟩ : Shape).Idx → α) (idx : IVec ⟨3, ![N, K, 2]⟩ w) (n : Fin N) (k : Fin K) (b : Fin B) (c : Fin C)
    (h0 : (idx (ix3 n k (0 : Fin 2))).toInt = (b.val : ℤ)) (h1 : (idx (ix3 n k (1 : Fin 2))).toInt = (c.val : ℤ)) :
    Host.gather d x idx (ix2 n k) = x (ix2 b c) := by
  obtain ⟨od, cd, ob, sb, sm, iv, ss, wf⟩ := d
  simp only at ho hc hb hsb hm hv hsz
  subst ho hc hb hsb hm hv hsz
  exact gather_elemDims_apply wf x idx n k b c h0 h1

end Cert.Lib.ElemGS

end
-- ==== Proof.RefStageElem.lean ====
/-
  The reference's elementwise stages, read at an element (i, c): the clipped bin word and the cross-entropy term are
  the specification's scalar functions of the logit and the label there.  σ(p) is spelt 1/(1+e^{−p}), the negation
  of |0 − p| as a negate rather than a subtraction from 0, and the guard on an undefined difference never fires:
  over the extended reals "x ≠ x" is false.  The bin word, a clip to [0, 29], is a number below 30.
-/
import proofs.«415593_j11123965296942_3_alg».proof.Proof.RefRead
import proofs.«415593_j11123965296942_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.ReadP Cert.GHM

/-! ## The scalar chains -/

/-- A word clipped from below at 0 and then from above at 29, both read signed, is a number in 0 … 29: each clip
    returns either its bound or its argument, and the signed comparison is the comparison of the signed readings. -/
theorem clip_range (v : BitVec 32) :
    0 ≤ (IntOp.minsi 29#32 (IntOp.maxsi 0#32 v)).toInt ∧ (IntOp.minsi 29#32 (IntOp.maxsi 0#32 v)).toInt ≤ 29 := by
  have h29 : (29#32 : BitVec 32).toInt = 29 := by decide
  have h0 : (0#32 : BitVec 32).toInt = 0 := by decide
  unfold IntOp.minsi IntOp.maxsi
  split_ifs with h1 h2 h2
  all_goals simp only [BitVec.slt_iff_toInt_lt, h29, h0] at *
  all_goals omega

/-- The bin chain on one logit and one label: the quotient 1/(1 + e^{−p}), with the literal one read as the number 1,
    is σ(p); the remaining operations are the specification's, one for one. -/
theorem bin_scalar (p : E) (w : BitVec 32) :
    IntOp.minsi 29#32 (IntOp.maxsi 0#32 (FloatOps.fptosi (F := Ideal) 32 (FloatOps.hostUnary .floor
      (FloatOps.mulf (FloatOps.hostAbsf (FloatOps.subf
        (FloatOps.hostDivf (FloatOps.ofBits (F := Ideal) .f32 0x3F800000#32)
          (FloatOps.addf (FloatOps.ofBits (F := Ideal) .f32 0x3F800000#32) (FloatOps.hostUnary .exp (FloatOps.hostNegf p))))
        (FloatOps.sitofp (F := Ideal) .f32 w))) (FloatOps.ofBits (F := Ideal) .f32 0x41F00000#32)))))
      = binOf p w := by
  unfold binOf tOf
  simp only [Ideal.ofBits_def, Ideal.ofBits_one_f32, Ideal.hostDivf_def, Ideal.addf_def, Ideal.hostUnary_exp_def,
    Ideal.hostNegf_def, Ideal.negf_def, Ideal.logistic_def, Ideal.logistic, Ideal.hostAbsf_def,
    Ideal.hostUnary_floor_def, Ideal.floor_def]

/-- The cross-entropy chain on one logit and one label: the guard compares d = 0 − p with itself for inequality, which
    is false, so the guarded branch max(0,p) + log(1 + e^{−|d|}) is taken; and −|d| = 0 − |d|. -/
theorem bce_scalar (p : E) (w : BitVec 32) :
    FloatOps.subf
      (Scalar.select
        (FloatOps.cmpf (F := Ideal) .une (FloatOps.subf (FloatOps.ofBits (F := Ideal) .f32 0x00000000#32) p)
          (FloatOps.subf (FloatOps.ofBits (F := Ideal) .f32 0x00000000#32) p))
        (FloatOps.addf (FloatOps.ofBits (F := Ideal) .f32 0x00000000#32) p)
        (FloatOps.addf (FloatOps.maximumf (FloatOps.ofBits (F := Ideal) .f32 0x00000000#32) p)
          (FloatOps.hostUnary .log1p (FloatOps.hostUnary .exp (FloatOps.hostNegf (FloatOps.hostAbsf
            (FloatOps.subf (FloatOps.ofBits (F := Ideal) .f32 0x00000000#32) p)))))))
      (FloatOps.mulf p (FloatOps.sitofp (F := Ideal) .f32 w))
      = bceOf p w := by
  unfold bceOf tOf
  have hsel : FloatOps.cmpf (F := Ideal) .une (FloatOps.subf (FloatOps.ofBits (F := Ideal) .f32 0x00000000#32) p)
      (FloatOps.subf (FloatOps.ofBits (F := Ideal) .f32 0x00000000#32) p) = 0#1 := by
    show BitVec.ofBool (decide (_ ≠ _)) = 0#1
    simp
  rw [hsel]
  unfold Scalar.select
  rw [if_neg (by decide)]
  simp only [Ideal.ofBits_def, Ideal.ofBits_zero_f32, Ideal.hostUnary_log1p_def, Ideal.log1p_def, Ideal.hostUnary_exp_def,
    Ideal.exp_def, Ideal.hostNegf_def, Ideal.negf_def, Ideal.hostAbsf_def, Ideal.subf_def]
  rw [sub_eq_add_neg (0 : EReal) (FloatOps.absf (0 - p)), zero_add]

/-! ## The stages read at an element -/

/-- The clip's result read as a signed number lies in 0 … 29. -/
theorem binOf_range (p : E) (w : BitVec 32) : 0 ≤ (binOf p w).toInt ∧ (binOf p w).toInt ≤ 29 := by
  unfold binOf
  exact clip_range _

/-- The clipped bin word of element (i, c). -/
theorem bin_stage (x0 : (⟨S8192x2048, .f32⟩ : BufTy).Contents (Elt Ideal)) (x1 : (⟨S8192x2048, .i32⟩ : BufTy).Contents (Elt Ideal)) (i : Fin 8192) (c : Fin 2048) :
    val_main_v13 (F := Ideal) x0 x1 (ix2 i c) = binOf (x0 (ix2 i c)) (x1 (ix2 i c)) := by
  simp only [val_main_v13_apply, val_main_call0_v4_apply, val_main_call0_v3_apply, val_main_c_2_apply,
    val_main_call0_v2_apply, val_main_call0_v1_apply, val_main_call0_v0_apply, val_main_c_apply,
    val_main_v12_apply, val_main_v11_apply, val_main_v10_apply, val_main_v9_apply, val_main_cst_1_apply,
    val_main_v8_apply, val_main_v7_apply, val_main_v6_apply, val_main_v5_apply, val_main_cst_0_apply,
    val_main_v4_apply, val_main_v3_apply, val_main_cst_apply, val_main_v2_apply, val_main_v1_apply,
    val_main_v0_apply]
  exact bin_scalar _ _

/-- The cross-entropy term of element (i, c). -/
theorem bce_stage (x0 : (⟨S8192x2048, .f32⟩ : BufTy).Contents (Elt Ideal)) (x1 : (⟨S8192x2048, .i32⟩ : BufTy).Contents (Elt Ideal)) (i : Fin 8192) (c : Fin 2048) :
    val_main_v78 (F := Ideal) x0 x1 (ix2 i c) = bceOf (x0 (ix2 i c)) (x1 (ix2 i c)) := by
  simp only [val_main_v78_apply, val_main_v77_apply, val_main_v76_apply, val_main_v75_apply, val_main_v74_apply,
    val_main_v73_apply, val_main_v72_apply, val_main_v71_apply, val_main_v70_apply, val_main_v69_apply,
    val_main_v68_apply, val_main_v67_apply, val_main_v66_apply, val_main_v65_apply, val_main_v64_apply,
    val_main_cst_19_apply, val_main_v0_apply]
  exact bce_scalar _ _

end Cert.ReferenceIdeal.RefValue

end
-- ==== Proof.RefStageHist.lean ====
/-
  The reference's histogram and its number of populated bins.  The scatter adds a one at the pair (bin word, column)
  of every element into a table of zeros: the pair's first component is the bin word (in 0 … 29, so the wrap-around
  select "index < 0 ↦ index + 30" leaves it alone), its second the column's own number; entry (b, c) therefore counts
  the rows of column c whose bin is b.  Comparing each entry with 1, widening the answers and summing the 30 of a column
  as integers counts the populated bins, and the convert reads that count as a real.
-/
import proofs.«415593_j11123965296942_3_alg».proof.Proof.RefRead
import proofs.«415593_j11123965296942_3_alg».proof.Proof.Spec
import proofs.«415593_j11123965296942_3_alg».proof.Proof.RefStageElem
import proofs.«415593_j11123965296942_3_alg».proof.Proof.LibElemGS
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.ReadP Cert.GHM

/-- A 32-bit word read signed is the number b < 30 exactly when it is b's word (reading signed is injective). -/
private theorem toInt_eq_bin_iff (w : BitVec 32) (b : Fin 30) : w.toInt = (b.val : ℤ) ↔ w = binWord b := by
  have hb : (binWord b).toInt = (b.val : ℤ) :=
    StableHlo.Predicate.toInt_ofNat_small _ (by have := b.isLt; omega)
  constructor
  · intro h; exact BitVec.eq_of_toInt_eq (by rw [h, hb])
  · intro h; rw [h, hb]

/-- The word of a column number k < 2048 read signed is the column number c exactly when k = c. -/
private theorem toInt_col_eq_iff (k c : Fin 2048) : (BitVec.ofNat 32 k.val).toInt = (c.val : ℤ) ↔ k = c := by
  rw [StableHlo.Predicate.toInt_ofNat_small _ (by have := k.isLt; omega)]
  constructor
  · intro h; exact Fin.ext (by exact_mod_cast h)
  · intro h; rw [h]

/-- The wrap-around select "w < 0 ↦ a, else w" leaves a non-negative word alone. -/
private theorem select_slt_zero_of_nonneg (w a : BitVec 32) (h0 : 0 ≤ w.toInt) :
    Scalar.select (IntOp.cmpi .slt w 0#32) a w = w := by
  have hc : IntOp.cmpi .slt w 0#32 = 0#1 := by
    have z : (0#32 : BitVec 32).toInt = 0 := by decide
    unfold IntOp.cmpi
    simp only [BitVec.slt, z]
    rw [decide_eq_false (by omega)]; rfl
  rw [hc, select_zero]

/-- Two [N, K, 1] arrays joined on the last axis: component 0 of the pair at (n, k) is the first array's element. -/
private theorem concat_pair_fst {α : Type} {N K : ℕ} (x₁ x₂ : (⟨3, ![N, K, 1]⟩ : Shape).Idx → α)
    (h : Shape.Concatenates [(⟨3, ![N, K, 1]⟩ : Shape), ⟨3, ![N, K, 1]⟩] ⟨3, ![N, K, 2]⟩ 2) (n : Fin N) (k : Fin K) :
    concatenate ⟨3, ![N, K, 2]⟩ 2 [⟨⟨3, ![N, K, 1]⟩, x₁⟩, ⟨⟨3, ![N, K, 1]⟩, x₂⟩] h (ix3 n k (0 : Fin 2))
      = x₁ (ix3 n k (0 : Fin 1)) :=
  concatenate_pair_apply_left (2 : Fin 3) x₁ x₂ h (ix3 n k (0 : Fin 2)) rfl (ix3 n k (0 : Fin 1))
    (fun b => match b with | ⟨0, _⟩ => rfl | ⟨1, _⟩ => rfl | ⟨2, _⟩ => rfl)

/-- … and component 1 is the second array's element. -/
private theorem concat_pair_snd {α : Type} {N K : ℕ} (x₁ x₂ : (⟨3, ![N, K, 1]⟩ : Shape).Idx → α)
    (h : Shape.Concatenates [(⟨3, ![N, K, 1]⟩ : Shape), ⟨3, ![N, K, 1]⟩] ⟨3, ![N, K, 2]⟩ 2) (n : Fin N) (k : Fin K) :
    concatenate ⟨3, ![N, K, 2]⟩ 2 [⟨⟨3, ![N, K, 1]⟩, x₁⟩, ⟨⟨3, ![N, K, 1]⟩, x₂⟩] h (ix3 n k (1 : Fin 2))
      = x₂ (ix3 n k (0 : Fin 1)) :=
  concatenate_pair_apply_right (2 : Fin 3) x₁ x₂ h (ix3 n k (1 : Fin 2)) rfl rfl (ix3 n k (0 : Fin 1))
    (fun b => match b with
      | ⟨0, _⟩ => fun _ => rfl
      | ⟨1, _⟩ => fun _ => rfl
      | ⟨2, _⟩ => fun hne => absurd rfl hne)
    rfl

/-- The word 0x3F800000 is the extended real one. -/
private theorem ofBits_one : Ideal.ofBits .f32 0x3F800000#32 = (1 : EReal) := by
  rw [show (1 : EReal) = ((1 : ℝ) : EReal) by norm_cast]
  simp [Ideal.ofBits, Ideal.ieee, -EReal.coe_mul]; norm_num

/-- A sum of ones over the indices with a property is the number of such indices. -/
private theorem sum_ones_eq_card {n : ℕ} (p : Fin n → Prop) [DecidablePred p] :
    (∑ b : Fin n, if p b then (1 : E) else 0) = (((Finset.univ.filter p).card : ℕ) : EReal) :=
  Finset.sum_boole p Finset.univ

/-- A word below 2³¹ that counts m things, read signed and then as a real, is m. -/
private theorem count_word_real (w : BitVec 32) (m : ℕ) (hm : m < 2 ^ 31) (h : w.toNat = m) :
    (((w.toInt : ℤ) : ℝ) : EReal) = ((m : ℕ) : EReal) := by
  rw [StableHlo.Predicate.toInt_eq_toNat_of_lt (by omega), h]
  rfl

/-- Row p, column q as the two spellings of a rank-2 index. -/
private theorem ij_eq_ix2 {n m : ℕ} (p : Fin n) (q : Fin m) : StableHlo.Predicate.ij p q = ix2 p q := by
  funext a; match a with | ⟨0, _⟩ => rfl | ⟨1, _⟩ => rfl

section stages
variable (x0 : (⟨S8192x2048, .f32⟩ : BufTy).Contents (Elt Ideal)) (x1 : (⟨S8192x2048, .i32⟩ : BufTy).Contents (Elt Ideal))

/-- Component 0 of the index pair of element (n, k) is its bin word: the wrap-around select leaves it alone. -/
private theorem pair_fst (n : Fin 8192) (k : Fin 2048) :
    val_main_v30 (F := Ideal) x0 x1 (ix3 n k (0 : Fin 2)) = binOf (x0 (ix2 n k)) (x1 (ix2 n k)) := by
  unfold val_main_v30
  rw [concat_pair_fst, val_main_v28_apply,
    show idx_main_v28 (ix3 n k (0 : Fin 1)) = ix2 n k from by
      funext a; match a with | ⟨0, _⟩ => rfl | ⟨1, _⟩ => rfl,
    val_main_v22_apply, val_main_v19_apply, val_main_v18_apply, val_main_c_4_apply, bin_stage]
  exact select_slt_zero_of_nonneg _ _ (binOf_range _ _).1

/-- Component 1 of the index pair of element (n, k) is the word of the column number k. -/
private theorem pair_snd (n : Fin 8192) (k : Fin 2048) :
    val_main_v30 (F := Ideal) x0 x1 (ix3 n k (1 : Fin 2)) = BitVec.ofNat 32 k.val := by
  unfold val_main_v30
  rw [concat_pair_snd, val_main_v29_apply,
    show idx_main_v29 (ix3 n k (0 : Fin 1)) = ix2 n k from by
      funext a; match a with | ⟨0, _⟩ => rfl | ⟨1, _⟩ => rfl,
    val_main_v27_apply, val_main_v24_apply, val_main_v23_apply, val_main_c_6_apply,
    val_main_v16_apply, val_main_v15_apply, val_main_v14_apply]
  show Scalar.select (IntOp.cmpi .slt (BitVec.ofNat 32 k.val) 0#32) _ (BitVec.ofNat 32 k.val) = _
  refine select_slt_zero_of_nonneg _ _ ?_
  rw [StableHlo.Predicate.toInt_ofNat_small _ (by have := k.isLt; omega)]
  exact Int.natCast_nonneg _

end stages

/-- Entry (b, c) of the scattered table is the number of rows of column c in bin b. -/
theorem cnt_stage (x0 : (⟨S8192x2048, .f32⟩ : BufTy).Contents (Elt Ideal)) (x1 : (⟨S8192x2048, .i32⟩ : BufTy).Contents (Elt Ideal)) (b : Fin 30) (c : Fin 2048) :
    val_main_v32 (F := Ideal) x0 x1 (ix2 b c) = cnt x0 x1 b c := by
  unfold val_main_v32
  rw [Cert.Lib.ElemGS.scatterAdd_elem_apply _ rfl rfl rfl rfl]
  -- the table started from is zero
  rw [val_main_v17_apply, val_main_cst_3_apply, Ideal.ofBits_def, Ideal.ofBits_zero_f32, zero_add]
  unfold cnt
  refine Finset.sum_congr rfl fun n _ => ?_
  -- among the columns k only k = c can carry the pair (·, c)
  rw [Finset.sum_eq_single c]
  · rw [pair_fst, pair_snd, val_main_v31_apply, val_main_cst_8_apply, Ideal.ofBits_def, ofBits_one]
    simp only [toInt_eq_bin_iff, toInt_col_eq_iff, and_true]
    rfl
  · intro k _ hk
    rw [if_neg]
    rw [pair_snd]
    exact fun h => hk ((toInt_col_eq_iff k c).1 h.2)
  · intro h; exact absurd (Finset.mem_univ c) h

/-- Entry c of the converted integer sum is the number of populated bins of column c. -/
theorem nne_stage (x0 : (⟨S8192x2048, .f32⟩ : BufTy).Contents (Elt Ideal)) (x1 : (⟨S8192x2048, .i32⟩ : BufTy).Contents (Elt Ideal)) (c : Fin 2048) :
    val_main_v37 (F := Ideal) x0 x1 (ix1 c) = nne x0 x1 c := by
  -- bit (p, c) of the comparison says whether bin p of column c is populated
  have hmask : ∀ p : Fin 30, val_main_v34 (F := Ideal) x0 x1 (StableHlo.Predicate.ij p c) = 1#1 ↔ c1 ≤ cnt x0 x1 p c := by
    intro p
    rw [ij_eq_ix2, val_main_v34_apply, cnt_stage, val_main_v33_apply, val_main_cst_9_apply]
    show Ideal.cmp .oge _ _ = 1#1 ↔ _
    unfold Ideal.cmp
    rw [StableHlo.Predicate.ofBool_eq_one_iff]
    exact decide_eq_true_iff
  -- the integer sum down a column of the widened bits is the number of set bits
  have hcount : (val_main_v36 (F := Ideal) x0 x1 (ix1 c)).toNat
      = (Finset.univ.filter (fun p : Fin 30 => c1 ≤ cnt x0 x1 p c)).card := by
    unfold val_main_v36 val_main_v35 val_main_c_10
    rw [StableHlo.Predicate.toNat_reduce_count_rows (by decide)]
    exact congrArg Finset.card (Finset.filter_congr fun p _ => hmask p)
  have hle : (Finset.univ.filter (fun p : Fin 30 => c1 ≤ cnt x0 x1 p c)).card ≤ 30 := by
    simpa using Finset.card_le_univ (Finset.univ.filter (fun p : Fin 30 => c1 ≤ cnt x0 x1 p c))
  rw [val_main_v37_apply]
  show (((val_main_v36 (F := Ideal) x0 x1 (ix1 c)).toInt : ℝ) : EReal) = nne x0 x1 c
  rw [count_word_real _ _ (by omega) hcount]
  unfold nne nneOf
  exact (sum_ones_eq_card _).symm

end Cert.ReferenceIdeal.RefValue

end
-- ==== Proof.RefValue.lean ====
/-
  The reference program's result is the per-element loss of the specification.

  Stage by stage: the label convert, σ(p) as 1/(1+e^{−p}), |·|, ·30, ⌊·⌋, the convert to a word and the clip give the bin
  word; the scatter-add of ones at (bin, column) pairs gives the histogram; the comparison with 1, widened and summed
  over the 30 bins, the number of populated bins; ¾·A + ¼·cnt the updated histogram, gathered back at (bin, column);
  8192 over it, over max(n,1), times the cross-entropy term, summed over all elements, over 2^24, times 1.
  The bin word lies in 0 … 29 and the column word is the column, so the wrap-around selects (index < 0 ↦ index + size)
  never fire and both the scatter and the gather land in range.
-/
import proofs.«415593_j11123965296942_3_alg».proof.Proof.RefRead
import proofs.«415593_j11123965296942_3_alg».proof.Proof.Spec
import proofs.«415593_j11123965296942_3_alg».proof.Proof.LibElemGS
import proofs.«415593_j11123965296942_3_alg».proof.Proof.RefStageElem
import proofs.«415593_j11123965296942_3_alg».proof.Proof.RefStageHist
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.ReadP Cert.GHM

namespace Tail

/-- A 32-bit word whose signed reading is between 0 and 29 has the same reading unsigned, a number below 30. -/
theorem toNat_of_range {x : BitVec 32} (h0 : 0 ≤ x.toInt) (h1 : x.toInt ≤ 29) :
    x.toNat < 30 ∧ x.toInt = (x.toNat : ℤ) := by
  have hlt : x.toNat < 2 ^ 32 := x.isLt
  rw [BitVec.toInt_eq_toNat_cond] at h0 h1 ⊢
  split_ifs at h0 h1 ⊢ <;> omega

/-- A word that is not negative is not below zero in the signed comparison. -/
theorem cmpi_slt_zero_of_nonneg {x : BitVec 32} (h : 0 ≤ x.toInt) : IntOp.cmpi .slt x 0#32 = 0#1 := by
  have h0 : (0#32 : BitVec 32).toInt = 0 := by decide
  unfold IntOp.cmpi
  simp only [BitVec.slt, h0]
  rw [decide_eq_false (by omega)]; rfl

/-- A column number below 2048, as a word, reads signed as itself. -/
theorem col_toInt (k : Fin 2048) : (BitVec.ofNat 32 k.val).toInt = (k.val : ℤ) :=
  StableHlo.Predicate.toInt_ofNat_small k.val (by have := k.isLt; omega)

section stages

variable (x0 : (⟨S8192x2048, .f32⟩ : BufTy).Contents (Elt Ideal)) (x1 : (⟨S8192x2048, .i32⟩ : BufTy).Contents (Elt Ideal))
  (x2 : (⟨S30x2048, .f32⟩ : BufTy).Contents (Elt Ideal))

/-- The bin word, read signed, is the row of the table it names. -/
theorem bin_toInt (i : Fin 8192) (c : Fin 2048) : (bin x0 x1 i c).toInt = ((binRow x0 x1 i c).val : ℤ) := by
  have h := binOf_range (x0 (ix2 i c)) (x1 (ix2 i c))
  have h2 := toNat_of_range h.1 h.2
  show (binOf (x0 (ix2 i c)) (x1 (ix2 i c))).toInt = (((binOf (x0 (ix2 i c)) (x1 (ix2 i c))).toNat % 30 : ℕ) : ℤ)
  rw [Nat.mod_eq_of_lt h2.1]; exact h2.2

/-- The updated histogram: ¾ of the running entry plus ¼ of the count. -/
theorem v42_at (b : Fin 30) (c : Fin 2048) :
    val_main_v42 (F := Ideal) x0 x1 x2 (ix2 b c) = accNew x0 x1 x2 b c := by
  rw [val_main_v42_apply, val_main_v39_apply, val_main_v38_apply, val_main_cst_11_apply, val_main_v41_apply,
    val_main_v40_apply, val_main_cst_12_apply, cnt_stage]
  rfl

/-- The row component of the gather's pairs: the bin word is not negative, so "index < 0 ↦ index + 30" leaves it. -/
theorem v47_at (i : Fin 8192) (c : Fin 2048) :
    val_main_v47 (F := Ideal) x0 x1 (ix2 i c) = bin x0 x1 i c := by
  have h := binOf_range (x0 (ix2 i c)) (x1 (ix2 i c))
  rw [val_main_v47_apply, val_main_v44_apply, val_main_v43_apply, val_main_c_13_apply, bin_stage,
    cmpi_slt_zero_of_nonneg h.1, select_zero]
  rfl

/-- The column iota, broadcast down the rows, is the column's number as a word. -/
theorem v16_at (i : S8192x2048.Idx) : val_main_v16 (F := Ideal) i = BitVec.ofNat 32 (i 1).val := by
  rw [val_main_v16_apply, val_main_v15_apply, val_main_v14_apply]

/-- The column component of the gather's pairs: a column number is not negative, so "index < 0 ↦ index + 2048"
    leaves it. -/
theorem v52_at (i : S8192x2048.Idx) : val_main_v52 (F := Ideal) i = BitVec.ofNat 32 (i 1).val := by
  have hk : (i 1).val < 2048 := idx2_lt1 i
  have h0 : 0 ≤ (BitVec.ofNat 32 (i 1).val).toInt := by
    rw [StableHlo.Predicate.toInt_ofNat_small _ (by omega)]; omega
  rw [val_main_v52_apply, val_main_v49_apply, val_main_v48_apply, val_main_c_15_apply, v16_at,
    cmpi_slt_zero_of_nonneg h0, select_zero]

/-- The pair array's first component at element (n, k) is the bin word. -/
theorem v55_at0 (n : Fin 8192) (k : Fin 2048) :
    val_main_v55 (F := Ideal) x0 x1 (ix3 n k (0 : Fin 2)) = bin x0 x1 n k := by
  have e : idx_main_v53 (ix3 n k (0 : Fin 1)) = ix2 n k := by
    funext a; match a with | ⟨0, _⟩ => rfl | ⟨1, _⟩ => rfl
  unfold val_main_v55
  rw [concatenate_pair_apply_left (t := S8192x2048x2) (s₁ := S8192x2048x1) (s₂ := S8192x2048x1) (2 : Fin 3)
      (val_main_v53 (F := Ideal) x0 x1) (val_main_v54 (F := Ideal))
      concatenates_S8192x2048x1_S8192x2048x1_S8192x2048x2_d2 (ix3 n k (0 : Fin 2)) rfl (ix3 n k (0 : Fin 1))
      (fun b => match b with | ⟨0, _⟩ => rfl | ⟨1, _⟩ => rfl | ⟨2, _⟩ => rfl)]
  rw [val_main_v53_apply, e]
  exact v47_at x0 x1 n k

/-- The pair array's second component at element (n, k) is the column's number. -/
theorem v55_at1 (n : Fin 8192) (k : Fin 2048) :
    val_main_v55 (F := Ideal) x0 x1 (ix3 n k (1 : Fin 2)) = BitVec.ofNat 32 k.val := by
  unfold val_main_v55
  rw [concatenate_pair_apply_right (t := S8192x2048x2) (s₁ := S8192x2048x1) (s₂ := S8192x2048x1) (2 : Fin 3)
      (val_main_v53 (F := Ideal) x0 x1) (val_main_v54 (F := Ideal))
      concatenates_S8192x2048x1_S8192x2048x1_S8192x2048x2_d2 (ix3 n k (1 : Fin 2)) rfl rfl (ix3 n k (0 : Fin 1))
      (fun b hb => match b, hb with
        | ⟨0, _⟩, _ => rfl
        | ⟨1, _⟩, _ => rfl
        | ⟨2, _⟩, hb => absurd rfl hb)
      rfl]
  rw [val_main_v54_apply, v52_at]

/-- The gather reads the updated histogram at (the element's bin, the element's column): both components of the pair
    are in range. -/
theorem v56_at (n : Fin 8192) (k : Fin 2048) :
    val_main_v56 (F := Ideal) x0 x1 x2 (ix2 n k) = accNew x0 x1 x2 (binRow x0 x1 n k) k := by
  unfold val_main_v56
  rw [Cert.Lib.ElemGS.gather_elem_apply_of_inRange (B := 30) (C := 2048) (N := 8192) (K := 2048)
      gather_S30x2048_S8192x2048x2_S8192x2048_n_01_n_n_01_2_11 rfl rfl rfl rfl rfl rfl rfl
      (val_main_v42 (F := Ideal) x0 x1 x2) (val_main_v55 (F := Ideal) x0 x1) n k (binRow x0 x1 n k) k
      (by rw [v55_at0]; exact bin_toInt x0 x1 n k) (by rw [v55_at1]; exact col_toInt k)]
  exact v42_at x0 x1 x2 (binRow x0 x1 n k) k

/-- The per-element weight: 8192 over the gathered entry, over max(number of populated bins, 1). -/
theorem v63_at (n : Fin 8192) (k : Fin 2048) :
    val_main_v63 (F := Ideal) x0 x1 x2 (ix2 n k) = wElem x0 x1 x2 n k := by
  have e1 : idx_main_v61 (idx_main_v62 (ix2 n k)) = ix1 k := by
    funext a; match a with | ⟨0, _⟩ => rfl
  rw [val_main_v63_apply, val_main_v58_apply, val_main_v57_apply, val_main_cst_17_apply, v56_at,
    val_main_v62_apply, val_main_v61_apply, e1, val_main_v60_apply, nne_stage, val_main_v59_apply,
    val_main_cst_18_apply]
  rfl

/-- The summand: the weight times the cross-entropy term. -/
theorem v79_at (n : Fin 8192) (k : Fin 2048) :
    val_main_v79 (F := Ideal) x0 x1 x2 (ix2 n k) = wElem x0 x1 x2 n k * bce x0 x1 n k := by
  rw [val_main_v79_apply, v63_at, bce_stage]
  rfl

end stages

end Tail

open Tail

/-- The last stage of the reference, as a function of the three arguments, is the per-element loss. -/
theorem ref_value (x0 : (⟨S8192x2048, .f32⟩ : BufTy).Contents (Elt Ideal)) (x1 : (⟨S8192x2048, .i32⟩ : BufTy).Contents (Elt Ideal))
    (x2 : (⟨S30x2048, .f32⟩ : BufTy).Contents (Elt Ideal)) :
    val_main_v82 (F := Ideal) x0 x1 x2 = fun _ => refLoss x0 x1 x2 := by
  funext i
  -- the total sum runs over every element (n, k) of the summand
  have hs : (∑ j : S8192x2048.Idx, val_main_v79 (F := Ideal) x0 x1 x2 j)
      = ∑ x : SNC.Idx, wElem x0 x1 x2 (x 0) (x 1) * bce x0 x1 (x 0) (x 1) := by
    refine Finset.sum_congr rfl (fun j _ => ?_)
    exact (congrArg (val_main_v79 (F := Ideal) x0 x1 x2) (eq_ix2 j)).trans (v79_at x0 x1 x2 (j 0) (j 1))
  rw [val_main_v82_apply, val_main_v81_apply, val_main_v80_apply, val_main_cst_22_apply, val_main_cst_21_apply,
    val_main_cst_20_apply, hs]
  rfl

end Cert.ReferenceIdeal.RefValue

end
-- ==== Proof.KTile.lean ====
/-
  What one grid point leaves in the two carried tables and, at a column tile's last point, in the output block.

  A grid point sees a [1024, 1024] tile of logits `x0` and of labels `x1`.  For bin b and tile column j it forms
    tileCnt b j = #{r : bin(x0[r,j], x1[r,j]) = b}        tileS b j = Σ_{r : bin = b} bce(x0[r,j], x1[r,j])
  and adds them to the two [30, 1024] tables it carries (first resetting the tables at a column tile's first point).
  At the column tile's last point it also writes, in each of the 8 rows of its output block and for each tile column j,
  an eighth of the column's weighted mass computed from the finished tables and the running histogram block `x2`.
-/
import proofs.«415593_j11123965296942_3_alg».proof.Proof.Gen.KernelIdeal.Frame
import proofs.«415593_j11123965296942_3_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Tile

open Idealize.ShloMosaic Idealize.ShloMosaic.TcCoe Idealize.SL.Sem Idealize.ShloMosaic.ValueIdx
open Cert.KernelIdeal Cert.KernelIdeal.Gen Cert.GHM

/-- How many rows of tile column `j` fall in bin `b`. -/
def tileCnt (x0 : Vec Ideal S1024x1024 .f32) (x1 : Vec Ideal S1024x1024 .i32) (b : Fin 30) (j : Fin 1024) : E :=
  ∑ r : Fin 1024, if binOf (x0 (ix2 r j)) (x1 (ix2 r j)) = binWord b then (1 : E) else 0

/-- The cross-entropy mass of bin `b` in tile column `j`. -/
def tileS (x0 : Vec Ideal S1024x1024 .f32) (x1 : Vec Ideal S1024x1024 .i32) (b : Fin 30) (j : Fin 1024) : E :=
  ∑ r : Fin 1024, if binOf (x0 (ix2 r j)) (x1 (ix2 r j)) = binWord b then bceOf (x0 (ix2 r j)) (x1 (ix2 r j)) else 0

end Cert.KernelIdeal.Tile

end
-- ==== Proof.KElem.lean ====
/-
  The kernel body's elementwise prologue and its per-bin rows, read at an element, at the ideal instance.

  The bin words and the cross-entropy terms the body forms from its two input tiles are the specification's scalar
  functions of the logit and the label at each element.  For a bin word k, the row the body forms by comparing every
  bin word of a tile column with k, reading the answers as 0/1 numbers and summing the column, is the number of rows of
  the column whose bin is k; the row it forms by selecting the cross-entropy term where the comparison holds (zero
  elsewhere) and summing is the cross-entropy mass of those rows.
-/
import proofs.«415593_j11123965296942_3_alg».proof.Proof.Gen.KernelIdeal.Frame
import proofs.«415593_j11123965296942_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Tile

open Idealize.ShloMosaic Idealize.ShloMosaic.TcCoe Idealize.ShloMosaic.ValueIdx
open Cert.KernelIdeal Cert.KernelIdeal.Gen Cert.GHM

/-- The body's bin words are the specification's bin function, element by element. -/
theorem pay7_apply (x0 : Vec Ideal S1024x1024 .f32) (x1 : Vec Ideal S1024x1024 .i32) (r j : Fin 1024) :
    k0_pay7 (F := Ideal) x0 x1 (ix2 r j) = binOf (x0 (ix2 r j)) (x1 (ix2 r j)) := by
  rfl

/-- The body's cross-entropy terms are the specification's, element by element. -/
theorem pay8_apply (x0 : Vec Ideal S1024x1024 .f32) (x1 : Vec Ideal S1024x1024 .i32) (r j : Fin 1024) :
    (k0_pay8 (F := Ideal) x0 x1 (ix2 r j) : E) = bceOf (x0 (ix2 r j)) (x1 (ix2 r j)) := by
  -- the comparison "d ≠ d" is false on the extended reals, so the selection takes its second operand
  have hsel : ∀ (d a b : E), Scalar.select (FloatOps.cmpf (F := Ideal) .one d d) a b = b := by
    intro d a b
    have hc : FloatOps.cmpf (F := Ideal) .one d d = 0#1 := by
      show BitVec.ofBool (decide (d ≠ d)) = 0#1
      simp
    rw [hc]
    rfl
  show FloatOps.subf (Scalar.select (FloatOps.cmpf (F := Ideal) .one (FloatOps.subf c0 (x0 (ix2 r j))) (FloatOps.subf c0 (x0 (ix2 r j)))) _ _) _ = _
  rw [hsel]
  rfl

/-- A count row: the column sum of the 0/1 reading of "bin word = k". -/
theorem cnt_row (v16 : IVec S1024x1024 32) (k : BitVec 32) (j : Fin 1024) :
    ((shapeCast S1x1024 (multiReduction (F := Ideal) .add [0] S1024
        (sitofp .f32 (extui 32 (cmpi .eq v16 (broadcast S1024x1024 k)) natLt_1_32)) 0x00000000#32
        reduces_S1024x1024_S1024 (.inl rfl) rfl) shapeCasts_S1024_S1x1024 : FVec Ideal S1x1024 .f32) (ix2 0 j) : E)
      = ∑ r : Fin 1024, if v16 (ix2 r j) = k then (1 : E) else 0 := by
  refine (shapeCast_a_1a_apply _ _ 0 j).trans ?_
  refine (Ideal.multiReduction_add_single _ _ reduces_S1024x1024_S1024 _ _ (ix1 j)).trans ?_
  refine Finset.sum_congr rfl fun r _ => ?_
  -- the reduced index with the row put back is the element (r, j)
  have hl : reduces_S1024x1024_S1024.lift (ix1 j) r = ix2 r j := by
    funext a
    match a with
    | ⟨0, _⟩ => exact Fin.ext rfl
    | ⟨1, _⟩ => exact Fin.ext rfl
  rw [hl]
  show ((((IntOp.cmpi .eq (v16 (ix2 r j)) k).setWidth 32).toInt : ℝ) : EReal) = _
  by_cases h : v16 (ix2 r j) = k
  · have hc : IntOp.cmpi .eq (v16 (ix2 r j)) k = 1#1 := by simp [IntOp.cmpi, h]
    have e1 : ((1#1 : BitVec 1).setWidth 32).toInt = 1 := by decide
    rw [if_pos h, hc, e1, Int.cast_one, EReal.coe_one]
  · have hb : (v16 (ix2 r j) == k) = false := beq_eq_false_iff_ne.mpr h
    have hc : IntOp.cmpi .eq (v16 (ix2 r j)) k = 0#1 := by
      show BitVec.ofBool (v16 (ix2 r j) == k) = 0#1
      rw [hb]; rfl
    have e0 : ((0#1 : BitVec 1).setWidth 32).toInt = 0 := by decide
    rw [if_neg h, hc, e0, Int.cast_zero, EReal.coe_zero]

/-- A mass row: the column sum of the terms selected where "bin word = k", zero elsewhere. -/
theorem mass_row (v16 : IVec S1024x1024 32) (v32 : FVec Ideal S1024x1024 .f32) (k : BitVec 32) (j : Fin 1024) :
    ((shapeCast S1x1024 (multiReduction (F := Ideal) .add [0] S1024
        (select (cmpi .eq v16 (broadcast S1024x1024 k)) v32 (broadcast S1024x1024 (Scalar.ofBits .f32 0x00000000#32))) 0x00000000#32
        reduces_S1024x1024_S1024 (.inl rfl) rfl) shapeCasts_S1024_S1x1024 : FVec Ideal S1x1024 .f32) (ix2 0 j) : E)
      = ∑ r : Fin 1024, if v16 (ix2 r j) = k then (v32 (ix2 r j) : E) else 0 := by
  refine (shapeCast_a_1a_apply _ _ 0 j).trans ?_
  refine (Ideal.multiReduction_add_single _ _ reduces_S1024x1024_S1024 _ _ (ix1 j)).trans ?_
  refine Finset.sum_congr rfl fun r _ => ?_
  -- the reduced index with the row put back is the element (r, j)
  have hl : reduces_S1024x1024_S1024.lift (ix1 j) r = ix2 r j := by
    funext a
    match a with
    | ⟨0, _⟩ => exact Fin.ext rfl
    | ⟨1, _⟩ => exact Fin.ext rfl
  rw [hl]
  show Scalar.select (IntOp.cmpi .eq (v16 (ix2 r j)) k) (v32 (ix2 r j)) (Ideal.ofBits .f32 0x00000000#32) = _
  by_cases h : v16 (ix2 r j) = k
  · have hc : IntOp.cmpi .eq (v16 (ix2 r j)) k = 1#1 := by simp [IntOp.cmpi, h]
    rw [if_pos h, hc]
    rfl
  · have hb : (v16 (ix2 r j) == k) = false := beq_eq_false_iff_ne.mpr h
    have hc : IntOp.cmpi .eq (v16 (ix2 r j)) k = 0#1 := by
      show BitVec.ofBool (v16 (ix2 r j) == k) = 0#1
      rw [hb]; rfl
    rw [if_neg h, hc, Ideal.ofBits_zero_f32]
    rfl

end Cert.KernelIdeal.Tile

end
-- ==== Proof.KTileCnt.lean ====
/-
  The carried count table after one grid point.  The point adds, to row b and tile column j of the [30, 1024] table,
  the number of rows r of its tile whose element (r, j) falls in bin b; at a column tile's first point the table is
  first reset to zero, so it then holds exactly that number.
-/
import proofs.«415593_j11123965296942_3_alg».proof.Proof.KTile
import proofs.«415593_j11123965296942_3_alg».proof.Proof.KElem
import Idealize.ShloMosaic.Lib.Pipeline.CanonAppend

set_option maxRecDepth 16384

noncomputable section

namespace Cert.KernelIdeal.Tile

open Idealize.ShloMosaic Idealize.ShloMosaic.TcCoe Idealize.SL.Sem Idealize.ShloMosaic.ValueIdx
open Cert.KernelIdeal Cert.KernelIdeal.Gen Cert.GHM

/-! The auxiliary facts live in a namespace of their own: a stack of one-row pieces read at a row; where a row group
    sits in the table; the table read at an entry as the canonical contents of its four row-group stores (alone, or
    over an earlier store of the whole table); each row group's payload at an entry. -/
namespace Cnt

/-! ## Rows stacked into a group -/

/-- Eight one-row pieces stacked along the rows: row p of the stack is piece p. -/
theorem concat8_apply (r0 r1 r2 r3 r4 r5 r6 r7 : FVec Ideal S1x1024 .f32)
    (h : Shape.Concatenates [S1x1024, S1x1024, S1x1024, S1x1024, S1x1024, S1x1024, S1x1024, S1x1024] S8x1024 0)
    (p : Fin 8) (j : Fin 1024) :
    concatenate S8x1024 0 [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] h (ix2 p j)
      = (![r0, r1, r2, r3, r4, r5, r6, r7] p) (ix2 (0 : Fin 1) j) := by
  have hi : ∀ b : Fin S1x1024.rank, b.cast (rfl : S1x1024.rank = S8x1024.rank) ≠ (0 : Fin 2) →
      ((ix2 (0 : Fin 1) j : S1x1024.Idx) b).val = ((ix2 p j : S8x1024.Idx) (b.cast rfl)).val := by
    intro b hb
    match b with
    | ⟨0, _⟩ => exact absurd rfl hb
    | ⟨1, _⟩ => rfl
  fin_cases p
  · apply concatenate_apply_piece (t := S8x1024) (k := 0) (s₁ := S1x1024) (x₁ := r0) (hr := (rfl : S1x1024.rank = S8x1024.rank)) (pre := 0) (i := ix2 (0 : Fin 1) j)
    all_goals first | exact hi | rfl | (show _ < 8; omega)
  · apply concatenate_apply_piece (t := S8x1024) (k := 1) (s₁ := S1x1024) (x₁ := r1) (hr := (rfl : S1x1024.rank = S8x1024.rank)) (pre := 1) (i := ix2 (0 : Fin 1) j)
    all_goals first | exact hi | rfl | (show _ < 8; omega)
  · apply concatenate_apply_piece (t := S8x1024) (k := 2) (s₁ := S1x1024) (x₁ := r2) (hr := (rfl : S1x1024.rank = S8x1024.rank)) (pre := 2) (i := ix2 (0 : Fin 1) j)
    all_goals first | exact hi | rfl | (show _ < 8; omega)
  · apply concatenate_apply_piece (t := S8x1024) (k := 3) (s₁ := S1x1024) (x₁ := r3) (hr := (rfl : S1x1024.rank = S8x1024.rank)) (pre := 3) (i := ix2 (0 : Fin 1) j)
    all_goals first | exact hi | rfl | (show _ < 8; omega)
  · apply concatenate_apply_piece (t := S8x1024) (k := 4) (s₁ := S1x1024) (x₁ := r4) (hr := (rfl : S1x1024.rank = S8x1024.rank)) (pre := 4) (i := ix2 (0 : Fin 1) j)
    all_goals first | exact hi | rfl | (show _ < 8; omega)
  · apply concatenate_apply_piece (t := S8x1024) (k := 5) (s₁ := S1x1024) (x₁ := r5) (hr := (rfl : S1x1024.rank = S8x1024.rank)) (pre := 5) (i := ix2 (0 : Fin 1) j)
    all_goals first | exact hi | rfl | (show _ < 8; omega)
  · apply concatenate_apply_piece (t := S8x1024) (k := 6) (s₁ := S1x1024) (x₁ := r6) (hr := (rfl : S1x1024.rank = S8x1024.rank)) (pre := 6) (i := ix2 (0 : Fin 1) j)
    all_goals first | exact hi | rfl | (show _ < 8; omega)
  · apply concatenate_apply_piece (t := S8x1024) (k := 7) (s₁ := S1x1024) (x₁ := r7) (hr := (rfl : S1x1024.rank = S8x1024.rank)) (pre := 7) (i := ix2 (0 : Fin 1) j)
    all_goals first | exact hi | rfl | (show _ < 8; omega)

/-- Six one-row pieces stacked along the rows: row p of the stack is piece p. -/
theorem concat6_apply (r0 r1 r2 r3 r4 r5 : FVec Ideal S1x1024 .f32)
    (h : Shape.Concatenates [S1x1024, S1x1024, S1x1024, S1x1024, S1x1024, S1x1024] S6x1024 0)
    (p : Fin 6) (j : Fin 1024) :
    concatenate S6x1024 0 [⟨S1x1024, r0⟩, ⟨S1x1024, r1⟩, ⟨S1x1024, r2⟩, ⟨S1x1024, r3⟩, ⟨S1x1024, r4⟩, ⟨S1x1024, r5⟩] h (ix2 p j)
      = (![r0, r1, r2, r3, r4, r5] p) (ix2 (0 : Fin 1) j) := by
  have hi : ∀ b : Fin S1x1024.rank, b.cast (rfl : S1x1024.rank = S6x1024.rank) ≠ (0 : Fin 2) →
      ((ix2 (0 : Fin 1) j : S1x1024.Idx) b).val = ((ix2 p j : S6x1024.Idx) (b.cast rfl)).val := by
    intro b hb
    match b with
    | ⟨0, _⟩ => exact absurd rfl hb
    | ⟨1, _⟩ => rfl
  fin_cases p
  · apply concatenate_apply_piece (t := S6x1024) (k := 0) (s₁ := S1x1024) (x₁ := r0) (hr := (rfl : S1x1024.rank = S6x1024.rank)) (pre := 0) (i := ix2 (0 : Fin 1) j)
    all_goals first | exact hi | rfl | (show _ < 6; omega)
  · apply concatenate_apply_piece (t := S6x1024) (k := 1) (s₁ := S1x1024) (x₁ := r1) (hr := (rfl : S1x1024.rank = S6x1024.rank)) (pre := 1) (i := ix2 (0 : Fin 1) j)
    all_goals first | exact hi | rfl | (show _ < 6; omega)
  · apply concatenate_apply_piece (t := S6x1024) (k := 2) (s₁ := S1x1024) (x₁ := r2) (hr := (rfl : S1x1024.rank = S6x1024.rank)) (pre := 2) (i := ix2 (0 : Fin 1) j)
    all_goals first | exact hi | rfl | (show _ < 6; omega)
  · apply concatenate_apply_piece (t := S6x1024) (k := 3) (s₁ := S1x1024) (x₁ := r3) (hr := (rfl : S1x1024.rank = S6x1024.rank)) (pre := 3) (i := ix2 (0 : Fin 1) j)
    all_goals first | exact hi | rfl | (show _ < 6; omega)
  · apply concatenate_apply_piece (t := S6x1024) (k := 4) (s₁ := S1x1024) (x₁ := r4) (hr := (rfl : S1x1024.rank = S6x1024.rank)) (pre := 4) (i := ix2 (0 : Fin 1) j)
    all_goals first | exact hi | rfl | (show _ < 6; omega)
  · apply concatenate_apply_piece (t := S6x1024) (k := 5) (s₁ := S1x1024) (x₁ := r5) (hr := (rfl : S1x1024.rank = S6x1024.rank)) (pre := 5) (i := ix2 (0 : Fin 1) j)
    all_goals first | exact hi | rfl | (show _ < 6; omega)

/-! ## A [30, 1024] table written as four row groups (rows 0-7, 8-15, 16-23, 24-29) -/

/-- Where a group of n rows starting at row o sits in the table. -/
theorem idx_rows (o n : Nat) (inb : ∀ a, (![o, 0] : Fin 2 → Nat) a + (![n, 1024] : Fin 2 → Nat) a ≤ S30x1024.size a)
    (p : Fin n) (j : Fin 1024) (h : o + p.val < 30) :
    (Rect.unit (s := S30x1024) ![o, 0] ![n, 1024] inb).toLoadRect.idx (ix2 p j) = ix2 (⟨o + p.val, h⟩ : Fin 30) j := by
  funext a
  match a with
  | ⟨0, _⟩ => exact Fin.ext (by show o + 1 * p.val = o + p.val; omega)
  | ⟨1, _⟩ => exact Fin.ext (by show 0 + 1 * j.val = j.val; omega)

/-- Four pieces that each agree with one function of the table index. -/
theorem pieces4 {Val : EltTy → Type} {s : Shape} {e : EltTy} (G : s.Idx → Val e)
    (p3 p2 p1 p0 : Σ r : Rect s, (r.shape.Idx → Val e))
    (h3 : ∀ x, p3.2 x = G (p3.1.emb x)) (h2 : ∀ x, p2.2 x = G (p2.1.emb x))
    (h1 : ∀ x, p1.2 x = G (p1.1.emb x)) (h0 : ∀ x, p0.2 x = G (p0.1.emb x)) :
    ∀ p ∈ [p3, p2, p1, p0], ∀ x : p.1.shape.Idx, p.2 x = G (p.1.emb x) := by
  intro p hp
  simp only [List.mem_cons, List.mem_nil_iff, or_false] at hp
  rcases hp with rfl | rfl | rfl | rfl
  · exact h3
  · exact h2
  · exact h1
  · exact h0

/-- One row group's store, read at its place in the table. If at row p and column j the store holds what the
    group's load found there plus the tile's contribution T to table row o + p, and the load found the table
    base there, then at the table index the store covers it holds base plus T. -/
theorem grp_piece (T : Fin 30 → Fin 1024 → E) (base : S30x1024.Idx → E)
    (o n : Nat) (inb : ∀ a, (![o, 0] : Fin 2 → Nat) a + (![n, 1024] : Fin 2 → Nat) a ≤ S30x1024.size a) (hn : o + n ≤ 30)
    (w ld : (⟨2, ![n, 1024]⟩ : Shape).Idx → E)
    (hw : ∀ (p : Fin n) (j : Fin 1024) (h : o + p.val < 30), w (ix2 p j) = ld (ix2 p j) + T ⟨o + p.val, h⟩ j)
    (hld : ∀ (p : Fin n) (j : Fin 1024) (h : o + p.val < 30), ld (ix2 p j) = base (ix2 (⟨o + p.val, h⟩ : Fin 30) j))
    (x : (Rect.unit (s := S30x1024) ![o, 0] ![n, 1024] inb).shape.Idx) :
    w x = base ((Rect.unit (s := S30x1024) ![o, 0] ![n, 1024] inb).emb x)
      + T ((Rect.unit (s := S30x1024) ![o, 0] ![n, 1024] inb).emb x 0) ((Rect.unit (s := S30x1024) ![o, 0] ![n, 1024] inb).emb x 1) := by
  obtain ⟨p, j, rfl⟩ : ∃ (p : Fin n) (j : Fin 1024), x = ix2 p j := ⟨x 0, x 1, eq_ix2 x⟩
  have hp : o + p.val < 30 := by have := p.isLt; omega
  have he : (Rect.unit (s := S30x1024) ![o, 0] ![n, 1024] inb).emb (ix2 p j) = ix2 (⟨o + p.val, hp⟩ : Fin 30) j :=
    idx_rows o n inb p j hp
  rw [hw p j hp, he, hld p j hp]

/-- Row groups one wholly above the other share no table entry. -/
theorem rows_disjoint (o n o' n' : Nat)
    (inb : ∀ a, (![o, 0] : Fin 2 → Nat) a + (![n, 1024] : Fin 2 → Nat) a ≤ S30x1024.size a)
    (inb' : ∀ a, (![o', 0] : Fin 2 → Nat) a + (![n', 1024] : Fin 2 → Nat) a ≤ S30x1024.size a) (h : o + n ≤ o') :
    Disjoint (Rect.unit (s := S30x1024) ![o, 0] ![n, 1024] inb).set
      (Rect.unit (s := S30x1024) ![o', 0] ![n', 1024] inb').toLoadRect.set :=
  Rect.unit_disjoint (s := S30x1024) (off := ![o, 0]) (size := ![n, 1024]) (off' := ![o', 0]) (size' := ![n', 1024])
    (0 : Fin 2) (Or.inl h)

/-- A load of any box after a store of zeros to the whole table alone reads zeros. -/
theorem readCov_reset {sg : RefSig} {κ : Kind} {sp : Space} (v : View sg κ sp S30x1024 .f32)
    (z : S30x1024.Idx → E) (hz0 : ∀ y, z y = 0)
    (inbw : ∀ a, (![0, 0] : Fin 2 → Nat) a + S30x1024.size a ≤ S30x1024.size a) (B : LoadRect S30x1024) :
    v.readCov [(⟨Rect.unit ![0, 0] S30x1024.size inbw, z⟩ : View.Piece (Elt Ideal) S30x1024 .f32)] B
      = fun _ => (0 : E) := by
  have hz : (![0, 0] : Fin 2 → Nat) = fun _ => 0 := by funext a; fin_cases a <;> rfl
  rw [View.readCov_eq_canon', View.canon_unit_zero hz]
  funext x
  exact hz0 _

/-- After the reset and the stores of the row groups before it, a row group's load still reads zeros:
    the earlier groups' rows lie wholly above the loaded rows. -/
theorem ldA0 {sg : RefSig} {κ : Kind} {sp : Space} (v : View sg κ sp S30x1024 .f32)
    (z : S30x1024.Idx → E) (hz0 : ∀ y, z y = 0)
    (inbw : ∀ a, (![0, 0] : Fin 2 → Nat) a + S30x1024.size a ≤ S30x1024.size a)
    (inb : ∀ a, (![0, 0] : Fin 2 → Nat) a + (![8, 1024] : Fin 2 → Nat) a ≤ S30x1024.size a) :
    v.readCov [(⟨Rect.unit ![0, 0] S30x1024.size inbw, z⟩ : View.Piece (Elt Ideal) S30x1024 .f32)]
      (Rect.unit (s := S30x1024) ![0, 0] ![8, 1024] inb).toLoadRect = fun _ => (0 : E) :=
  readCov_reset v z hz0 inbw _

theorem ldA1 {sg : RefSig} {κ : Kind} {sp : Space} (v : View sg κ sp S30x1024 .f32)
    (z : S30x1024.Idx → E) (hz0 : ∀ y, z y = 0)
    (inbw : ∀ a, (![0, 0] : Fin 2 → Nat) a + S30x1024.size a ≤ S30x1024.size a)
    (inb0 : ∀ a, (![0, 0] : Fin 2 → Nat) a + (![8, 1024] : Fin 2 → Nat) a ≤ S30x1024.size a)
    (inb : ∀ a, (![8, 0] : Fin 2 → Nat) a + (![8, 1024] : Fin 2 → Nat) a ≤ S30x1024.size a)
    (w0 : (⟨2, ![8, 1024]⟩ : Shape).Idx → E) :
    v.readCov [(⟨Rect.unit (s := S30x1024) ![0, 0] ![8, 1024] inb0, w0⟩ : View.Piece (Elt Ideal) S30x1024 .f32),
        ⟨Rect.unit ![0, 0] S30x1024.size inbw, z⟩]
      (Rect.unit (s := S30x1024) ![8, 0] ![8, 1024] inb).toLoadRect = fun _ => (0 : E) := by
  rw [View.readCov_cons_of_disjoint]
  · exact readCov_reset v z hz0 inbw _
  · exact rows_disjoint 0 8 8 8 inb0 inb (by omega)

theorem ldA2 {sg : RefSig} {κ : Kind} {sp : Space} (v : View sg κ sp S30x1024 .f32)
    (z : S30x1024.Idx → E) (hz0 : ∀ y, z y = 0)
    (inbw : ∀ a, (![0, 0] : Fin 2 → Nat) a + S30x1024.size a ≤ S30x1024.size a)
    (inb0 : ∀ a, (![0, 0] : Fin 2 → Nat) a + (![8, 1024] : Fin 2 → Nat) a ≤ S30x1024.size a)
    (inb1 : ∀ a, (![8, 0] : Fin 2 → Nat) a + (![8, 1024] : Fin 2 → Nat) a ≤ S30x1024.size a)
    (inb : ∀ a, (![16, 0] : Fin 2 → Nat) a + (![8, 1024] : Fin 2 → Nat) a ≤ S30x1024.size a)
    (w0 w1 : (⟨2, ![8, 1024]⟩ : Shape).Idx → E) :
    v.readCov [(⟨Rect.unit (s := S30x1024) ![8, 0] ![8, 1024] inb1, w1⟩ : View.Piece (Elt Ideal) S30x1024 .f32),
        ⟨Rect.unit (s := S30x1024) ![0, 0] ![8, 1024] inb0, w0⟩,
        ⟨Rect.unit ![0, 0] S30x1024.size inbw, z⟩]
      (Rect.unit (s := S30x1024) ![16, 0] ![8, 1024] inb).toLoadRect = fun _ => (0 : E) := by
  rw [View.readCov_cons_of_disjoint, View.readCov_cons_of_disjoint]
  · exact readCov_reset v z hz0 inbw _
  · exact rows_disjoint 0 8 16 8 inb0 inb (by omega)
  · exact rows_disjoint 8 8 16 8 inb1 inb (by omega)

theorem ldA3 {sg : RefSig} {κ : Kind} {sp : Space} (v : View sg κ sp S30x1024 .f32)
    (z : S30x1024.Idx → E) (hz0 : ∀ y, z y = 0)
    (inbw : ∀ a, (![0, 0] : Fin 2 → Nat) a + S30x1024.size a ≤ S30x1024.size a)
    (inb0 : ∀ a, (![0, 0] : Fin 2 → Nat) a + (![8, 1024] : Fin 2 → Nat) a ≤ S30x1024.size a)
    (inb1 : ∀ a, (![8, 0] : Fin 2 → Nat) a + (![8, 1024] : Fin 2 → Nat) a ≤ S30x1024.size a)
    (inb2 : ∀ a, (![16, 0] : Fin 2 → Nat) a + (![8, 1024] : Fin 2 → Nat) a ≤ S30x1024.size a)
    (inb : ∀ a, (![24, 0] : Fin 2 → Nat) a + (![6, 1024] : Fin 2 → Nat) a ≤ S30x1024.size a)
    (w0 w1 w2 : (⟨2, ![8, 1024]⟩ : Shape).Idx → E) :
    v.readCov [(⟨Rect.unit (s := S30x1024) ![16, 0] ![8, 1024] inb2, w2⟩ : View.Piece (Elt Ideal) S30x1024 .f32),
        ⟨Rect.unit (s := S30x1024) ![8, 0] ![8, 1024] inb1, w1⟩,
        ⟨Rect.unit (s := S30x1024) ![0, 0] ![8, 1024] inb0, w0⟩,
        ⟨Rect.unit ![0, 0] S30x1024.size inbw, z⟩]
      (Rect.unit (s := S30x1024) ![24, 0] ![6, 1024] inb).toLoadRect = fun _ => (0 : E) := by
  rw [View.readCov_cons_of_disjoint, View.readCov_cons_of_disjoint, View.readCov_cons_of_disjoint]
  · exact readCov_reset v z hz0 inbw _
  · exact rows_disjoint 0 8 24 6 inb0 inb (by omega)
  · exact rows_disjoint 8 8 24 6 inb1 inb (by omega)
  · exact rows_disjoint 16 8 24 6 inb2 inb (by omega)

/-- Four leading stores that each agree with one function of the table index, over any earlier store:
    where one of the four covers, the table reads that function. -/
theorem canon5_apply {Val : EltTy → Type} [∀ e, Nonempty (Val e)] {S : Shape} {e : EltTy} (G : S.Idx → Val e)
    (p3 p2 p1 p0 q : View.Piece Val S e)
    (h : ∀ p ∈ [p3, p2, p1, p0], ∀ x : p.1.shape.Idx, p.2 x = G (p.1.emb x)) (y : S.Idx)
    (hy : ∃ p ∈ [p3, p2, p1, p0], y ∈ p.1.set) : View.canon [p3, p2, p1, p0, q] y = G y :=
  View.canon_append_of_pieces G [q] [p3, p2, p1, p0] h y hy

/-- The four row groups cover the table. -/
theorem cover_rows {Val : EltTy → Type}
    (inb3 : ∀ a, (![24, 0] : Fin 2 → Nat) a + (![6, 1024] : Fin 2 → Nat) a ≤ S30x1024.size a)
    (inb2 : ∀ a, (![16, 0] : Fin 2 → Nat) a + (![8, 1024] : Fin 2 → Nat) a ≤ S30x1024.size a)
    (inb1 : ∀ a, (![8, 0] : Fin 2 → Nat) a + (![8, 1024] : Fin 2 → Nat) a ≤ S30x1024.size a)
    (inb0 : ∀ a, (![0, 0] : Fin 2 → Nat) a + (![8, 1024] : Fin 2 → Nat) a ≤ S30x1024.size a)
    (w3 : (⟨2, ![6, 1024]⟩ : Shape).Idx → Val .f32) (w2 w1 w0 : (⟨2, ![8, 1024]⟩ : Shape).Idx → Val .f32)
    (b : Fin 30) (j : Fin 1024) :
    ∃ p ∈ ([⟨Rect.unit (s := S30x1024) ![24, 0] ![6, 1024] inb3, w3⟩, ⟨Rect.unit (s := S30x1024) ![16, 0] ![8, 1024] inb2, w2⟩,
        ⟨Rect.unit (s := S30x1024) ![8, 0] ![8, 1024] inb1, w1⟩, ⟨Rect.unit (s := S30x1024) ![0, 0] ![8, 1024] inb0, w0⟩] :
        List (View.Piece Val S30x1024 .f32)), (ix2 b j : S30x1024.Idx) ∈ p.1.set := by
  have mem : ∀ (o n : Nat) (inb : ∀ a, (![o, 0] : Fin 2 → Nat) a + (![n, 1024] : Fin 2 → Nat) a ≤ S30x1024.size a),
      o ≤ b.val → b.val < o + n → (ix2 b j : S30x1024.Idx) ∈ (Rect.unit (s := S30x1024) ![o, 0] ![n, 1024] inb).set := by
    intro o n inb h1 h2
    rw [Rect.mem_set_unit]
    intro a
    match a with
    | ⟨0, _⟩ => exact ⟨h1, h2⟩
    | ⟨1, _⟩ => exact ⟨Nat.zero_le _, by show j.val < 0 + 1024; omega⟩
  by_cases h8 : b.val < 8
  · exact ⟨⟨Rect.unit (s := S30x1024) ![0, 0] ![8, 1024] inb0, w0⟩, by simp, mem 0 8 inb0 (Nat.zero_le _) (by omega)⟩
  by_cases h16 : b.val < 16
  · exact ⟨⟨Rect.unit (s := S30x1024) ![8, 0] ![8, 1024] inb1, w1⟩, by simp, mem 8 8 inb1 (by omega) (by omega)⟩
  by_cases h24 : b.val < 24
  · exact ⟨⟨Rect.unit (s := S30x1024) ![16, 0] ![8, 1024] inb2, w2⟩, by simp, mem 16 8 inb2 (by omega) (by omega)⟩
  · exact ⟨⟨Rect.unit (s := S30x1024) ![24, 0] ![6, 1024] inb3, w3⟩, by simp, mem 24 6 inb3 (by omega) (by have := b.isLt; omega)⟩

/-! ## The count row of one bin, and the four row groups' payloads at an entry -/

/-- The count row of the bin word k: for each tile column, how many rows of the tile carry the word k. -/
def cntRow (v16 : IVec S1024x1024 32) (k : BitVec 32) : FVec Ideal S1x1024 .f32 :=
  shapeCast S1x1024 (multiReduction .add [0] S1024 (sitofp .f32 (extui 32 (cmpi .eq v16 (broadcast S1024x1024 k)) natLt_1_32))
    0x00000000#32 reduces_S1024x1024_S1024 (.inl rfl) rfl) shapeCasts_S1024_S1x1024

/-- At column j it is the sum over the tile's rows of the indicator of "the bin word is k". -/
theorem cntRow_apply (v16 : IVec S1024x1024 32) (k : BitVec 32) (j : Fin 1024) :
    (cntRow v16 k (ix2 (0 : Fin 1) j) : E) = ∑ r : Fin 1024, if v16 (ix2 r j) = k then (1 : E) else 0 :=
  cnt_row v16 k j

/-- Rows 0 to 7 of the table: the loaded rows plus the eight count rows of bins 0 to 7. The first row is formed
    from the tile directly, so it enters with the fact that it is the count row of bin 0. -/
theorem grp0_apply (v16 : IVec S1024x1024 32) (r0 : FVec Ideal S1x1024 .f32)
    (h0 : ∀ j : Fin 1024, (r0 (ix2 (0 : Fin 1) j) : E) = ∑ r : Fin 1024, if v16 (ix2 r j) = 0#32 then (1 : E) else 0)
    (ld : Vec Ideal S8x1024 .f32) (p : Fin 8) (j : Fin 1024) :
    (k0_pay28 (F := Ideal) v16 r0 (k0_pay14 v16) (k0_pay17 v16) (k0_pay20 v16) (k0_pay23 v16) (k0_pay25 v16) ld (ix2 p j) : E)
      = (ld (ix2 p j) : E) + ∑ r : Fin 1024, if v16 (ix2 r j) = BitVec.ofNat 32 (0 + p.val) then (1 : E) else 0 := by
  have e : k0_pay28 (F := Ideal) v16 r0 (k0_pay14 v16) (k0_pay17 v16) (k0_pay20 v16) (k0_pay23 v16) (k0_pay25 v16) ld
      = addf (F := Ideal) ld (concatenate S8x1024 0 [⟨S1x1024, r0⟩, ⟨S1x1024, cntRow v16 1#32⟩, ⟨S1x1024, cntRow v16 2#32⟩,
          ⟨S1x1024, cntRow v16 3#32⟩, ⟨S1x1024, cntRow v16 4#32⟩, ⟨S1x1024, cntRow v16 5#32⟩, ⟨S1x1024, cntRow v16 6#32⟩,
          ⟨S1x1024, cntRow v16 7#32⟩] concatenates_S1x1024_S1x1024_S1x1024_S1x1024_S1x1024_S1x1024_S1x1024_S1x1024_S8x1024_d0) :=
    shapeCast_self _ _
  rw [e]
  refine congrArg (fun t : E => (ld (ix2 p j) : E) + t) ?_
  rw [concat8_apply]
  fin_cases p
  · exact h0 j
  · exact cntRow_apply v16 1#32 j
  · exact cntRow_apply v16 2#32 j
  · exact cntRow_apply v16 3#32 j
  · exact cntRow_apply v16 4#32 j
  · exact cntRow_apply v16 5#32 j
  · exact cntRow_apply v16 6#32 j
  · exact cntRow_apply v16 7#32 j

/-- Rows 8 to 15: the loaded rows plus the count rows of bins 8 to 15. -/
theorem grp1_apply (v16 : IVec S1024x1024 32) (ld : Vec Ideal S8x1024 .f32) (p : Fin 8) (j : Fin 1024) :
    (k0_pay51 (F := Ideal) (k0_pay50 v16 (k0_pay31 v16) (k0_pay34 v16) (k0_pay37 v16) (k0_pay40 v16) (k0_pay42 v16) ld) (ix2 p j) : E)
      = (ld (ix2 p j) : E) + ∑ r : Fin 1024, if v16 (ix2 r j) = BitVec.ofNat 32 (8 + p.val) then (1 : E) else 0 := by
  have e : k0_pay51 (F := Ideal) (k0_pay50 v16 (k0_pay31 v16) (k0_pay34 v16) (k0_pay37 v16) (k0_pay40 v16) (k0_pay42 v16) ld)
      = addf (F := Ideal) ld (concatenate S8x1024 0 [⟨S1x1024, cntRow v16 8#32⟩, ⟨S1x1024, cntRow v16 9#32⟩, ⟨S1x1024, cntRow v16 10#32⟩,
          ⟨S1x1024, cntRow v16 11#32⟩, ⟨S1x1024, cntRow v16 12#32⟩, ⟨S1x1024, cntRow v16 13#32⟩, ⟨S1x1024, cntRow v16 14#32⟩,
          ⟨S1x1024, cntRow v16 15#32⟩] concatenates_S1x1024_S1x1024_S1x1024_S1x1024_S1x1024_S1x1024_S1x1024_S1x1024_S8x1024_d0) :=
    shapeCast_self _ _
  rw [e]
  refine congrArg (fun t : E => (ld (ix2 p j) : E) + t) ?_
  rw [concat8_apply]
  fin_cases p
  · exact cntRow_apply v16 8#32 j
  · exact cntRow_apply v16 9#32 j
  · exact cntRow_apply v16 10#32 j
  · exact cntRow_apply v16 11#32 j
  · exact cntRow_apply v16 12#32 j
  · exact cntRow_apply v16 13#32 j
  · exact cntRow_apply v16 14#32 j
  · exact cntRow_apply v16 15#32 j

/-- Rows 16 to 23: the loaded rows plus the count rows of bins 16 to 23. -/
theorem grp2_apply (v16 : IVec S1024x1024 32) (ld : Vec Ideal S8x1024 .f32) (p : Fin 8) (j : Fin 1024) :
    (k0_pay76 (F := Ideal) (k0_pay54 v16) (k0_pay57 v16) (k0_pay60 v16) (k0_pay63 (k0_pay62 v16)) (k0_pay66 v16) (k0_pay69 v16)
        (k0_pay72 v16) (k0_pay75 v16) ld (ix2 p j) : E)
      = (ld (ix2 p j) : E) + ∑ r : Fin 1024, if v16 (ix2 r j) = BitVec.ofNat 32 (16 + p.val) then (1 : E) else 0 := by
  have e : k0_pay76 (F := Ideal) (k0_pay54 v16) (k0_pay57 v16) (k0_pay60 v16) (k0_pay63 (k0_pay62 v16)) (k0_pay66 v16) (k0_pay69 v16)
        (k0_pay72 v16) (k0_pay75 v16) ld
      = addf (F := Ideal) ld (concatenate S8x1024 0 [⟨S1x1024, cntRow v16 16#32⟩, ⟨S1x1024, cntRow v16 17#32⟩, ⟨S1x1024, cntRow v16 18#32⟩,
          ⟨S1x1024, cntRow v16 19#32⟩, ⟨S1x1024, cntRow v16 20#32⟩, ⟨S1x1024, cntRow v16 21#32⟩, ⟨S1x1024, cntRow v16 22#32⟩,
          ⟨S1x1024, cntRow v16 23#32⟩] concatenates_S1x1024_S1x1024_S1x1024_S1x1024_S1x1024_S1x1024_S1x1024_S1x1024_S8x1024_d0) :=
    shapeCast_self _ _
  rw [e]
  refine congrArg (fun t : E => (ld (ix2 p j) : E) + t) ?_
  rw [concat8_apply]
  fin_cases p
  · exact cntRow_apply v16 16#32 j
  · exact cntRow_apply v16 17#32 j
  · exact cntRow_apply v16 18#32 j
  · exact cntRow_apply v16 19#32 j
  · exact cntRow_apply v16 20#32 j
  · exact cntRow_apply v16 21#32 j
  · exact cntRow_apply v16 22#32 j
  · exact cntRow_apply v16 23#32 j

/-- Rows 24 to 29: the loaded rows plus the count rows of bins 24 to 29. -/
theorem grp3_apply (v16 : IVec S1024x1024 32) (ld : Vec Ideal S6x1024 .f32) (p : Fin 6) (j : Fin 1024) :
    (k0_pay1 (F := Ideal) (k0_pay92 v16 (k0_pay79 v16) (k0_pay82 v16) (k0_pay84 v16) ld) (ix2 p j) : E)
      = (ld (ix2 p j) : E) + ∑ r : Fin 1024, if v16 (ix2 r j) = BitVec.ofNat 32 (24 + p.val) then (1 : E) else 0 := by
  have e : k0_pay1 (F := Ideal) (k0_pay92 v16 (k0_pay79 v16) (k0_pay82 v16) (k0_pay84 v16) ld)
      = addf (F := Ideal) ld (concatenate S6x1024 0 [⟨S1x1024, cntRow v16 24#32⟩, ⟨S1x1024, cntRow v16 25#32⟩, ⟨S1x1024, cntRow v16 26#32⟩,
          ⟨S1x1024, cntRow v16 27#32⟩, ⟨S1x1024, cntRow v16 28#32⟩, ⟨S1x1024, cntRow v16 29#32⟩]
          concatenates_S1x1024_S1x1024_S1x1024_S1x1024_S1x1024_S1x1024_S6x1024_d0) :=
    shapeCast_self _ _
  rw [e]
  refine congrArg (fun t : E => (ld (ix2 p j) : E) + t) ?_
  rw [concat6_apply]
  fin_cases p
  · exact cntRow_apply v16 24#32 j
  · exact cntRow_apply v16 25#32 j
  · exact cntRow_apply v16 26#32 j
  · exact cntRow_apply v16 27#32 j
  · exact cntRow_apply v16 28#32 j
  · exact cntRow_apply v16 29#32 j

/-- The sum over the tile's rows of the indicator of "the bin word is m" is the tile's count for bin m:
    the tile's bin words are the specification's. -/
theorem tileCnt_eq (x0 : Vec Ideal S1024x1024 .f32) (x1 : Vec Ideal S1024x1024 .i32) (m : Nat) (h : m < 30) (j : Fin 1024) :
    (∑ r : Fin 1024, if k0_pay7 (F := Ideal) x0 x1 (ix2 r j) = BitVec.ofNat 32 m then (1 : E) else 0)
      = tileCnt x0 x1 ⟨m, h⟩ j := by
  unfold tileCnt
  refine Finset.sum_congr rfl fun r _ => ?_
  rw [pay7_apply]

/-- The reset payload is zero everywhere. -/
theorem pay4_apply (y : S30x1024.Idx) : (k0_pay4 (F := Ideal) y : E) = 0 := by
  have e : k0_pay4 (F := Ideal) = broadcast S30x1024 (Scalar.ofBits (F := Ideal) .f32 0x00000000#32) := shapeCast_self _ _
  rw [e]
  exact Ideal.ofBits_zero_f32

end Cnt

open Cnt

/-! ## The three kinds of grid point -/

/-- First point of a column tile: the table is reset, then holds this tile's counts. -/
theorem first_cnt (c : Dev nD) (i : grid0.Coords) (arg2 : Memref sig .tc .vmem S1024x1024 .f32) (harg2 : arg2.IsWhole) (arg3 : Memref sig .tc .vmem S1024x1024 .i32) (harg3 : arg3.IsWhole) (arg4 : Memref sig .tc .vmem S30x1024 .f32) (harg4 : arg4.IsWhole) (arg5 : Memref sig .tc .vmem S8x1024 .f32) (harg5 : arg5.IsWhole) (arg6 : Memref sig .tc .vmem S30x1024 .f32) (harg6 : arg6.IsWhole) (arg7 : Memref sig .tc .vmem S30x1024 .f32) (harg7 : arg7.IsWhole) (hc0 : cond0_0 i) (hc1 : ¬cond0_1 i)
    (x0 : Vec Ideal S1024x1024 .f32) (x1 : Vec Ideal S1024x1024 .i32) (x2 : Vec Ideal S30x1024 .f32) (b : Fin 30) (j : Fin 1024) :
    (sout0_A_0 (F := Ideal) c i arg2 harg2 arg3 harg3 arg4 harg4 arg5 harg5 arg6 harg6 arg7 harg7 hc0 hc1 x0 x1 x2 (ix2 b j) : E) = tileCnt x0 x1 b j := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  have hz : (![0, 0] : Fin 2 → Nat) = fun _ => 0 := by funext a; fin_cases a <;> rfl
  simp only [View.readAt_eq_ld, harg2.read_unread, harg3.read_unread, View.ld_unit_zero (S := S1024x1024) hz]
  refine (canon5_apply (Val := Elt Ideal) (S := S30x1024) (e := .f32)
    (fun y : S30x1024.Idx => (0 : E) + tileCnt x0 x1 (y 0) (y 1)) _ _ _ _ _ ?_ (ix2 b j) ?_).trans ?_
  rotate_left
  · exact cover_rows (Val := Elt Ideal) _ _ _ _ _ _ _ _ b j
  · exact zero_add _
  refine pieces4 (Val := Elt Ideal) (s := S30x1024) (e := .f32)
    (fun y : S30x1024.Idx => (0 : E) + tileCnt x0 x1 (y 0) (y 1)) _ _ _ _ ?_ ?_ ?_ ?_
  · exact grp_piece (tileCnt x0 x1) (fun _ => 0) 24 6 inb_S30x1024_S6x1024_24_0 (by omega) _ _
      (fun p j h => (grp3_apply _ _ p j).trans (by rw [tileCnt_eq x0 x1 _ h j]))
      (fun p j _ => congrFun (ldA3 arg6.view _ pay4_apply inb_S30x1024_S30x1024_0_0 inb_S30x1024_S8x1024_0_0 inb_S30x1024_S8x1024_8_0
        inb_S30x1024_S8x1024_16_0 inb_S30x1024_S6x1024_24_0 _ _ _) (ix2 p j))
  · exact grp_piece (tileCnt x0 x1) (fun _ => 0) 16 8 inb_S30x1024_S8x1024_16_0 (by omega) _ _
      (fun p j h => (grp2_apply _ _ p j).trans (by rw [tileCnt_eq x0 x1 _ h j]))
      (fun p j _ => congrFun (ldA2 arg6.view _ pay4_apply inb_S30x1024_S30x1024_0_0 inb_S30x1024_S8x1024_0_0 inb_S30x1024_S8x1024_8_0
        inb_S30x1024_S8x1024_16_0 _ _) (ix2 p j))
  · exact grp_piece (tileCnt x0 x1) (fun _ => 0) 8 8 inb_S30x1024_S8x1024_8_0 (by omega) _ _
      (fun p j h => (grp1_apply _ _ p j).trans (by rw [tileCnt_eq x0 x1 _ h j]))
      (fun p j _ => congrFun (ldA1 arg6.view _ pay4_apply inb_S30x1024_S30x1024_0_0 inb_S30x1024_S8x1024_0_0 inb_S30x1024_S8x1024_8_0 _) (ix2 p j))
  · exact grp_piece (tileCnt x0 x1) (fun _ => 0) 0 8 inb_S30x1024_S8x1024_0_0 (by omega) _ _
      (fun p j h => (grp0_apply _ _ (fun j' => cnt_row _ 0#32 j') _ p j).trans (by rw [tileCnt_eq x0 x1 _ h j]))
      (fun p j _ => congrFun (ldA0 arg6.view _ pay4_apply inb_S30x1024_S30x1024_0_0 inb_S30x1024_S8x1024_0_0) (ix2 p j))

/-- A middle point: the table grows by this tile's counts. -/
theorem mid_cnt (c : Dev nD) (i : grid0.Coords) (arg2 : Memref sig .tc .vmem S1024x1024 .f32) (harg2 : arg2.IsWhole) (arg3 : Memref sig .tc .vmem S1024x1024 .i32) (harg3 : arg3.IsWhole) (arg4 : Memref sig .tc .vmem S30x1024 .f32) (harg4 : arg4.IsWhole) (arg5 : Memref sig .tc .vmem S8x1024 .f32) (harg5 : arg5.IsWhole) (arg6 : Memref sig .tc .vmem S30x1024 .f32) (harg6 : arg6.IsWhole) (arg7 : Memref sig .tc .vmem S30x1024 .f32) (harg7 : arg7.IsWhole) (hc0 : ¬cond0_0 i) (hc1 : ¬cond0_1 i)
    (x0 : Vec Ideal S1024x1024 .f32) (x1 : Vec Ideal S1024x1024 .i32) (x2 xs0 xs1 : Vec Ideal S30x1024 .f32) (b : Fin 30) (j : Fin 1024) :
    (sout0_B_0 (F := Ideal) c i arg2 harg2 arg3 harg3 arg4 harg4 arg5 harg5 arg6 harg6 arg7 harg7 hc0 hc1 x0 x1 x2 xs0 xs1 (ix2 b j) : E) = (xs0 (ix2 b j) : E) + tileCnt x0 x1 b j := by
  unfold sout0_B_0
  rw [View.read_writes_eq_canon _ _ _ (scover0_B_0 c i arg2 harg2 arg3 harg3 arg4 harg4 arg5 harg5 arg6 harg6 arg7 harg7 hc0 hc1 x0 x1 x2 xs0 xs1)]
  refine (View.canon_apply_of_pieces (fun y => (xs0 y : E) + tileCnt x0 x1 (y 0) (y 1)) _ ?_ (ix2 b j)
    (scover0_B_0 c i arg2 harg2 arg3 harg3 arg4 harg4 arg5 harg5 arg6 harg6 arg7 harg7 hc0 hc1 x0 x1 x2 xs0 xs1 (ix2 b j))).trans rfl
  unfold kernelRun0_B
  dsimp only
  sl_unfold_words
  have hz : (![0, 0] : Fin 2 → Nat) = fun _ => 0 := by funext a; fin_cases a <;> rfl
  simp only [View.readAt_eq_ld, harg2.read_unread, harg3.read_unread, harg6.read_unread, View.ld_unit_zero (S := S1024x1024) hz]
  refine pieces4 (Val := Elt Ideal) (e := .f32) (fun y => (xs0 y : E) + tileCnt x0 x1 (y 0) (y 1)) _ _ _ _ ?_ ?_ ?_ ?_
  · exact grp_piece (tileCnt x0 x1) xs0 24 6 inb_S30x1024_S6x1024_24_0 (by omega) _ _
      (fun p j h => (grp3_apply _ _ p j).trans (by rw [tileCnt_eq x0 x1 _ h j]))
      (fun p j h => congrArg xs0 (idx_rows 24 6 inb_S30x1024_S6x1024_24_0 p j h))
  · exact grp_piece (tileCnt x0 x1) xs0 16 8 inb_S30x1024_S8x1024_16_0 (by omega) _ _
      (fun p j h => (grp2_apply _ _ p j).trans (by rw [tileCnt_eq x0 x1 _ h j]))
      (fun p j h => congrArg xs0 (idx_rows 16 8 inb_S30x1024_S8x1024_16_0 p j h))
  · exact grp_piece (tileCnt x0 x1) xs0 8 8 inb_S30x1024_S8x1024_8_0 (by omega) _ _
      (fun p j h => (grp1_apply _ _ p j).trans (by rw [tileCnt_eq x0 x1 _ h j]))
      (fun p j h => congrArg xs0 (idx_rows 8 8 inb_S30x1024_S8x1024_8_0 p j h))
  · exact grp_piece (tileCnt x0 x1) xs0 0 8 inb_S30x1024_S8x1024_0_0 (by omega) _ _
      (fun p j h => (grp0_apply _ _ (fun j' => cnt_row _ 0#32 j') _ p j).trans (by rw [tileCnt_eq x0 x1 _ h j]))
      (fun p j h => congrArg xs0 (idx_rows 0 8 inb_S30x1024_S8x1024_0_0 p j h))

/-- The last point of a column tile: the table grows once more. -/
theorem last_cnt (c : Dev nD) (i : grid0.Coords) (arg2 : Memref sig .tc .vmem S1024x1024 .f32) (harg2 : arg2.IsWhole) (arg3 : Memref sig .tc .vmem S1024x1024 .i32) (harg3 : arg3.IsWhole) (arg4 : Memref sig .tc .vmem S30x1024 .f32) (harg4 : arg4.IsWhole) (arg5 : Memref sig .tc .vmem S8x1024 .f32) (harg5 : arg5.IsWhole) (arg6 : Memref sig .tc .vmem S30x1024 .f32) (harg6 : arg6.IsWhole) (arg7 : Memref sig .tc .vmem S30x1024 .f32) (harg7 : arg7.IsWhole) (hc0 : ¬cond0_0 i) (hc1 : cond0_1 i)
    (x0 : Vec Ideal S1024x1024 .f32) (x1 : Vec Ideal S1024x1024 .i32) (x2 xs0 xs1 : Vec Ideal S30x1024 .f32) (b : Fin 30) (j : Fin 1024) :
    (sout0_C_0 (F := Ideal) c i arg2 harg2 arg3 harg3 arg4 harg4 arg5 harg5 arg6 harg6 arg7 harg7 hc0 hc1 x0 x1 x2 xs0 xs1 (ix2 b j) : E) = (xs0 (ix2 b j) : E) + tileCnt x0 x1 b j := by
  unfold sout0_C_0
  rw [View.read_writes_eq_canon _ _ _ (scover0_C_0 c i arg2 harg2 arg3 harg3 arg4 harg4 arg5 harg5 arg6 harg6 arg7 harg7 hc0 hc1 x0 x1 x2 xs0 xs1)]
  refine (View.canon_apply_of_pieces (fun y => (xs0 y : E) + tileCnt x0 x1 (y 0) (y 1)) _ ?_ (ix2 b j)
    (scover0_C_0 c i arg2 harg2 arg3 harg3 arg4 harg4 arg5 harg5 arg6 harg6 arg7 harg7 hc0 hc1 x0 x1 x2 xs0 xs1 (ix2 b j))).trans rfl
  unfold kernelRun0_C
  dsimp only
  sl_unfold_words
  have hz : (![0, 0] : Fin 2 → Nat) = fun _ => 0 := by funext a; fin_cases a <;> rfl
  simp only [View.readAt_eq_ld, harg2.read_unread, harg3.read_unread, harg6.read_unread, View.ld_unit_zero (S := S1024x1024) hz]
  refine pieces4 (Val := Elt Ideal) (e := .f32) (fun y => (xs0 y : E) + tileCnt x0 x1 (y 0) (y 1)) _ _ _ _ ?_ ?_ ?_ ?_
  · exact grp_piece (tileCnt x0 x1) xs0 24 6 inb_S30x1024_S6x1024_24_0 (by omega) _ _
      (fun p j h => (grp3_apply _ _ p j).trans (by rw [tileCnt_eq x0 x1 _ h j]))
      (fun p j h => congrArg xs0 (idx_rows 24 6 inb_S30x1024_S6x1024_24_0 p j h))
  · exact grp_piece (tileCnt x0 x1) xs0 16 8 inb_S30x1024_S8x1024_16_0 (by omega) _ _
      (fun p j h => (grp2_apply _ _ p j).trans (by rw [tileCnt_eq x0 x1 _ h j]))
      (fun p j h => congrArg xs0 (idx_rows 16 8 inb_S30x1024_S8x1024_16_0 p j h))
  · exact grp_piece (tileCnt x0 x1) xs0 8 8 inb_S30x1024_S8x1024_8_0 (by omega) _ _
      (fun p j h => (grp1_apply _ _ p j).trans (by rw [tileCnt_eq x0 x1 _ h j]))
      (fun p j h => congrArg xs0 (idx_rows 8 8 inb_S30x1024_S8x1024_8_0 p j h))
  · exact grp_piece (tileCnt x0 x1) xs0 0 8 inb_S30x1024_S8x1024_0_0 (by omega) _ _
      (fun p j h => (grp0_apply _ _ (fun j' => cnt_row _ 0#32 j') _ p j).trans (by rw [tileCnt_eq x0 x1 _ h j]))
      (fun p j h => congrArg xs0 (idx_rows 0 8 inb_S30x1024_S8x1024_0_0 p j h))

end Cert.KernelIdeal.Tile

end
-- ==== Proof.KTileS.lean ====
/-
  The carried mass table after one grid point.  The point adds, to row b and tile column j of the [30, 1024] table,
  the sum of the cross-entropy terms of the rows r of its tile whose element (r, j) falls in bin b; at a column tile's
  first point the table is first reset to zero, so it then holds exactly that sum.
-/
import proofs.«415593_j11123965296942_3_alg».proof.Proof.KTile

set_option maxRecDepth 16384

noncomputable section

namespace Cert.KernelIdeal.Tile

open Idealize.ShloMosaic Idealize.ShloMosaic.TcCoe Idealize.SL.Sem Idealize.ShloMosaic.ValueIdx
open Cert.KernelIdeal Cert.KernelIdeal.Gen Cert.GHM

namespace MassAux

theorem hz2 : (![0, 0] : Fin 2 → Nat) = fun _ => 0 := funext fun a => by fin_cases a <;> rfl

/-- The bin word of one element of the tile. -/
theorem bins_apply (x0 : Vec Ideal S1024x1024 .f32) (x1 : Vec Ideal S1024x1024 .i32) (r j : Fin 1024) :
    k0_pay7 (F := Ideal) x0 x1 (ix2 r j) = binOf (x0 (ix2 r j)) (x1 (ix2 r j)) := rfl

/-- The cross-entropy term of one element of the tile: the not-a-number guard compares a value with itself, which the
    linear order never finds different. -/
theorem bce_apply (x0 : Vec Ideal S1024x1024 .f32) (x1 : Vec Ideal S1024x1024 .i32) (r j : Fin 1024) :
    k0_pay8 (F := Ideal) x0 x1 (ix2 r j) = bceOf (x0 (ix2 r j)) (x1 (ix2 r j)) := by
  have h : ∀ a : E, FloatOps.cmpf (F := Ideal) .one a a = 0#1 := fun a => by
    show Ideal.cmp .one a a = 0#1
    simp [Ideal.cmp]
  unfold k0_pay8 bceOf
  show FloatOps.subf (Scalar.select (FloatOps.cmpf (F := Ideal) CmpFPredicate.one _ _) _ _) _ = _
  rw [h, select_zero]
  rfl

/-- One row of masses: for each lane, the sum over the tile's rows of the cross-entropy terms of the elements in bin k. -/
def massRow (k : BitVec 32) (bins : IVec S1024x1024 32) (bce : FVec Ideal S1024x1024 .f32) : FVec Ideal S1x1024 .f32 :=
  shapeCast S1x1024 (multiReduction .add [0] S1024
    (select (cmpi .eq bins (broadcast S1024x1024 k)) bce (broadcast S1024x1024 (Scalar.ofBits .f32 0x00000000#32)))
    0x00000000#32 reduces_S1024x1024_S1024 (.inl rfl) rfl) shapeCasts_S1024_S1x1024

theorem massRow_apply (k : BitVec 32) (bins : IVec S1024x1024 32) (bce : FVec Ideal S1024x1024 .f32) (j : Fin 1024) :
    massRow k bins bce (ix2 0 j) = ∑ r : Fin 1024, if bins (ix2 r j) = k then bce (ix2 r j) else 0 := by
  unfold massRow
  refine (shapeCast_apply _ _ (ix2 0 j) (ix1 j) ?_).trans ?_
  · rw [Shape.rowMajor_val_one, Shape.rowMajor_val_two]; simp
  refine (Ideal.multiReduction_add_single _ _ _ _ _ (ix1 j)).trans ?_
  refine Finset.sum_congr rfl fun r _ => ?_
  have hl : reduces_S1024x1024_S1024.lift (ix1 j) r = ix2 r j := by
    funext a; match a with | ⟨0, _⟩ => rfl | ⟨1, _⟩ => rfl
  rw [hl]
  show Scalar.select (IntOp.cmpi .eq (bins (ix2 r j)) k) (bce (ix2 r j)) (Ideal.ofBits .f32 0x00000000#32) = _
  rw [Ideal.ofBits_zero_f32]
  by_cases h : bins (ix2 r j) = k
  · rw [if_pos h, h]; simp [IntOp.cmpi, Scalar.select]
  · have hb : (bins (ix2 r j) == k) = false := by simpa using h
    rw [if_neg h]; simp [IntOp.cmpi, Scalar.select, hb]

/-- A stack of eight one-row vectors read at row p is the p-th of them (at its only row). -/
theorem concat8_apply (r0 r1 r2 r3 r4 r5 r6 r7 : FVec Ideal S1x1024 .f32) (p : Fin 8) (j : Fin 1024) :
    concatenate S8x1024 0 [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩]
      concatenates_S1x1024_S1x1024_S1x1024_S1x1024_S1x1024_S1x1024_S1x1024_S1x1024_S8x1024_d0 (ix2 p j)
      = (![r0, r1, r2, r3, r4, r5, r6, r7] p) (ix2 0 j) := by
  have hi : ∀ (q : Fin 8) (b : Fin S1x1024.rank), b.cast (rfl : S1x1024.rank = S8x1024.rank) ≠ (0 : Fin 2) →
      ((ix2 (0 : Fin 1) j : S1x1024.Idx) b).val = ((ix2 q j : S8x1024.Idx) (b.cast rfl)).val := fun q b hb => by
    match b with
    | ⟨0, _⟩ => exact absurd rfl hb
    | ⟨1, _⟩ => rfl
  have hl : ∀ k : Nat, k < 8 → k < ([⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] : List ((s : Shape) × (s.Idx → E))).length := fun k hk => hk
  fin_cases p
  · exact concatenate_apply_piece (t := S8x1024) (0 : Fin 2) [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] concatenates_S1x1024_S1x1024_S1x1024_S1x1024_S1x1024_S1x1024_S1x1024_S1x1024_S8x1024_d0 (ix2 (0 : Fin 8) j) 0 (hl 0 (by omega)) S1x1024 r0 rfl rfl 0 rfl (ix2 0 j) (hi 0) rfl
  · exact concatenate_apply_piece (t := S8x1024) (0 : Fin 2) [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] concatenates_S1x1024_S1x1024_S1x1024_S1x1024_S1x1024_S1x1024_S1x1024_S1x1024_S8x1024_d0 (ix2 (1 : Fin 8) j) 1 (hl 1 (by omega)) S1x1024 r1 rfl rfl 1 rfl (ix2 0 j) (hi 1) rfl
  · exact concatenate_apply_piece (t := S8x1024) (0 : Fin 2) [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] concatenates_S1x1024_S1x1024_S1x1024_S1x1024_S1x1024_S1x1024_S1x1024_S1x1024_S8x1024_d0 (ix2 (2 : Fin 8) j) 2 (hl 2 (by omega)) S1x1024 r2 rfl rfl 2 rfl (ix2 0 j) (hi 2) rfl
  · exact concatenate_apply_piece (t := S8x1024) (0 : Fin 2) [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] concatenates_S1x1024_S1x1024_S1x1024_S1x1024_S1x1024_S1x1024_S1x1024_S1x1024_S8x1024_d0 (ix2 (3 : Fin 8) j) 3 (hl 3 (by omega)) S1x1024 r3 rfl rfl 3 rfl (ix2 0 j) (hi 3) rfl
  · exact concatenate_apply_piece (t := S8x1024) (0 : Fin 2) [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] concatenates_S1x1024_S1x1024_S1x1024_S1x1024_S1x1024_S1x1024_S1x1024_S1x1024_S8x1024_d0 (ix2 (4 : Fin 8) j) 4 (hl 4 (by omega)) S1x1024 r4 rfl rfl 4 rfl (ix2 0 j) (hi 4) rfl
  · exact concatenate_apply_piece (t := S8x1024) (0 : Fin 2) [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] concatenates_S1x1024_S1x1024_S1x1024_S1x1024_S1x1024_S1x1024_S1x1024_S1x1024_S8x1024_d0 (ix2 (5 : Fin 8) j) 5 (hl 5 (by omega)) S1x1024 r5 rfl rfl 5 rfl (ix2 0 j) (hi 5) rfl
  · exact concatenate_apply_piece (t := S8x1024) (0 : Fin 2) [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] concatenates_S1x1024_S1x1024_S1x1024_S1x1024_S1x1024_S1x1024_S1x1024_S1x1024_S8x1024_d0 (ix2 (6 : Fin 8) j) 6 (hl 6 (by omega)) S1x1024 r6 rfl rfl 6 rfl (ix2 0 j) (hi 6) rfl
  · exact concatenate_apply_piece (t := S8x1024) (0 : Fin 2) [⟨S1x1024, r0⟩, ⟨S1x1024, r1⟩, ⟨S1x1024, r2⟩, ⟨S1x1024, r3⟩, ⟨S1x1024, r4⟩, ⟨S1x1024, r5⟩, ⟨S1x1024, r6⟩, ⟨S1x1024, r7⟩] concatenates_S1x1024_S1x1024_S1x1024_S1x1024_S1x1024_S1x1024_S1x1024_S1x1024_S8x1024_d0 (ix2 (7 : Fin 8) j) 7 (hl 7 (by omega)) S1x1024 r7 rfl rfl 7 rfl (ix2 0 j) (hi 7) rfl

/-- The same for a stack of six. -/
theorem concat6_apply (r0 r1 r2 r3 r4 r5 : FVec Ideal S1x1024 .f32) (p : Fin 6) (j : Fin 1024) :
    concatenate S6x1024 0 [⟨S1x1024, r0⟩, ⟨S1x1024, r1⟩, ⟨S1x1024, r2⟩, ⟨S1x1024, r3⟩, ⟨S1x1024, r4⟩, ⟨S1x1024, r5⟩]
      concatenates_S1x1024_S1x1024_S1x1024_S1x1024_S1x1024_S1x1024_S6x1024_d0 (ix2 p j)
      = (![r0, r1, r2, r3, r4, r5] p) (ix2 0 j) := by
  have hi : ∀ (q : Fin 6) (b : Fin S1x1024.rank), b.cast (rfl : S1x1024.rank = S6x1024.rank) ≠ (0 : Fin 2) →
      ((ix2 (0 : Fin 1) j : S1x1024.Idx) b).val = ((ix2 q j : S6x1024.Idx) (b.cast rfl)).val := fun q b hb => by
    match b with
    | ⟨0, _⟩ => exact absurd rfl hb
    | ⟨1, _⟩ => rfl
  have hl : ∀ k : Nat, k < 6 → k < ([⟨S1x1024, r0⟩, ⟨S1x1024, r1⟩, ⟨S1x1024, r2⟩, ⟨S1x1024, r3⟩, ⟨S1x1024, r4⟩, ⟨S1x1024, r5⟩] : List ((s : Shape) × (s.Idx → E))).length := fun k hk => hk
  fin_cases p
  · exact concatenate_apply_piece (t := S6x1024) (0 : Fin 2) [⟨S1x1024, r0⟩, ⟨S1x1024, r1⟩, ⟨S1x1024, r2⟩, ⟨S1x1024, r3⟩, ⟨S1x1024, r4⟩, ⟨S1x1024, r5⟩] concatenates_S1x1024_S1x1024_S1x1024_S1x1024_S1x1024_S1x1024_S6x1024_d0 (ix2 (0 : Fin 6) j) 0 (hl 0 (by omega)) S1x1024 r0 rfl rfl 0 rfl (ix2 0 j) (hi 0) rfl
  · exact concatenate_apply_piece (t := S6x1024) (0 : Fin 2) [⟨S1x1024, r0⟩, ⟨S1x1024, r1⟩, ⟨S1x1024, r2⟩, ⟨S1x1024, r3⟩, ⟨S1x1024, r4⟩, ⟨S1x1024, r5⟩] concatenates_S1x1024_S1x1024_S1x1024_S1x1024_S1x1024_S1x1024_S6x1024_d0 (ix2 (1 : Fin 6) j) 1 (hl 1 (by omega)) S1x1024 r1 rfl rfl 1 rfl (ix2 0 j) (hi 1) rfl
  · exact concatenate_apply_piece (t := S6x1024) (0 : Fin 2) [⟨S1x1024, r0⟩, ⟨S1x1024, r1⟩, ⟨S1x1024, r2⟩, ⟨S1x1024, r3⟩, ⟨S1x1024, r4⟩, ⟨S1x1024, r5⟩] concatenates_S1x1024_S1x1024_S1x1024_S1x1024_S1x1024_S1x1024_S6x1024_d0 (ix2 (2 : Fin 6) j) 2 (hl 2 (by omega)) S1x1024 r2 rfl rfl 2 rfl (ix2 0 j) (hi 2) rfl
  · exact concatenate_apply_piece (t := S6x1024) (0 : Fin 2) [⟨S1x1024, r0⟩, ⟨S1x1024, r1⟩, ⟨S1x1024, r2⟩, ⟨S1x1024, r3⟩, ⟨S1x1024, r4⟩, ⟨S1x1024, r5⟩] concatenates_S1x1024_S1x1024_S1x1024_S1x1024_S1x1024_S1x1024_S6x1024_d0 (ix2 (3 : Fin 6) j) 3 (hl 3 (by omega)) S1x1024 r3 rfl rfl 3 rfl (ix2 0 j) (hi 3) rfl
  · exact concatenate_apply_piece (t := S6x1024) (0 : Fin 2) [⟨S1x1024, r0⟩, ⟨S1x1024, r1⟩, ⟨S1x1024, r2⟩, ⟨S1x1024, r3⟩, ⟨S1x1024, r4⟩, ⟨S1x1024, r5⟩] concatenates_S1x1024_S1x1024_S1x1024_S1x1024_S1x1024_S1x1024_S6x1024_d0 (ix2 (4 : Fin 6) j) 4 (hl 4 (by omega)) S1x1024 r4 rfl rfl 4 rfl (ix2 0 j) (hi 4) rfl
  · exact concatenate_apply_piece (t := S6x1024) (0 : Fin 2) [⟨S1x1024, r0⟩, ⟨S1x1024, r1⟩, ⟨S1x1024, r2⟩, ⟨S1x1024, r3⟩, ⟨S1x1024, r4⟩, ⟨S1x1024, r5⟩] concatenates_S1x1024_S1x1024_S1x1024_S1x1024_S1x1024_S1x1024_S6x1024_d0 (ix2 (5 : Fin 6) j) 5 (hl 5 (by omega)) S1x1024 r5 rfl rfl 5 rfl (ix2 0 j) (hi 5) rfl

/-- A row of masses of the bin whose word is that of bin b is the tile's mass of bin b. -/
theorem mass_eq (k : BitVec 32) (b : Fin 30) (hb : binWord b = k) (x0 : Vec Ideal S1024x1024 .f32) (x1 : Vec Ideal S1024x1024 .i32)
    (j : Fin 1024) : massRow k (k0_pay7 x0 x1) (k0_pay8 x0 x1) (ix2 0 j) = tileS x0 x1 b j := by
  rw [massRow_apply]
  unfold tileS
  refine Finset.sum_congr rfl fun r _ => ?_
  rw [bins_apply, bce_apply, hb]

/-- The stack of the mass rows of eight bins. -/
def rows8 (k : Fin 8 → BitVec 32) (bins : IVec S1024x1024 32) (bce : FVec Ideal S1024x1024 .f32) : FVec Ideal S8x1024 .f32 :=
  concatenate S8x1024 0 [⟨S1x1024, massRow (k 0) bins bce⟩, ⟨S1x1024, massRow (k 1) bins bce⟩, ⟨S1x1024, massRow (k 2) bins bce⟩,
    ⟨S1x1024, massRow (k 3) bins bce⟩, ⟨S1x1024, massRow (k 4) bins bce⟩, ⟨S1x1024, massRow (k 5) bins bce⟩,
    ⟨S1x1024, massRow (k 6) bins bce⟩, ⟨S1x1024, massRow (k 7) bins bce⟩] concatenates_S1x1024_S1x1024_S1x1024_S1x1024_S1x1024_S1x1024_S1x1024_S1x1024_S8x1024_d0

/-- The stack of the mass rows of six bins. -/
def rows6 (k : Fin 6 → BitVec 32) (bins : IVec S1024x1024 32) (bce : FVec Ideal S1024x1024 .f32) : FVec Ideal S6x1024 .f32 :=
  concatenate S6x1024 0 [⟨S1x1024, massRow (k 0) bins bce⟩, ⟨S1x1024, massRow (k 1) bins bce⟩, ⟨S1x1024, massRow (k 2) bins bce⟩,
    ⟨S1x1024, massRow (k 3) bins bce⟩, ⟨S1x1024, massRow (k 4) bins bce⟩, ⟨S1x1024, massRow (k 5) bins bce⟩] concatenates_S1x1024_S1x1024_S1x1024_S1x1024_S1x1024_S1x1024_S6x1024_d0

/-- Row p of the stack for the bins o, o + 1, … is the tile's mass of bin o + p. -/
theorem rows8_tile (k : Fin 8 → BitVec 32) (o : Nat) (hk : ∀ q : Fin 8, BitVec.ofNat 32 (o + q.val) = k q)
    (x0 : Vec Ideal S1024x1024 .f32) (x1 : Vec Ideal S1024x1024 .i32) (b : Fin 30) (p : Fin 8) (hb : b.val = o + p.val) (j : Fin 1024) :
    rows8 k (k0_pay7 x0 x1) (k0_pay8 x0 x1) (ix2 p j) = tileS x0 x1 b j := by
  unfold rows8
  refine (concat8_apply _ _ _ _ _ _ _ _ p j).trans ?_
  have e : (![massRow (k 0) (k0_pay7 x0 x1) (k0_pay8 x0 x1), massRow (k 1) (k0_pay7 x0 x1) (k0_pay8 x0 x1), massRow (k 2) (k0_pay7 x0 x1) (k0_pay8 x0 x1), massRow (k 3) (k0_pay7 x0 x1) (k0_pay8 x0 x1),
      massRow (k 4) (k0_pay7 x0 x1) (k0_pay8 x0 x1), massRow (k 5) (k0_pay7 x0 x1) (k0_pay8 x0 x1), massRow (k 6) (k0_pay7 x0 x1) (k0_pay8 x0 x1), massRow (k 7) (k0_pay7 x0 x1) (k0_pay8 x0 x1)] p)
      = massRow (k p) (k0_pay7 x0 x1) (k0_pay8 x0 x1) := by fin_cases p <;> rfl
  rw [e]
  exact mass_eq (k p) b (by rw [← hk p]; show BitVec.ofNat 32 b.val = _; rw [hb]) x0 x1 j

theorem rows6_tile (k : Fin 6 → BitVec 32) (o : Nat) (hk : ∀ q : Fin 6, BitVec.ofNat 32 (o + q.val) = k q)
    (x0 : Vec Ideal S1024x1024 .f32) (x1 : Vec Ideal S1024x1024 .i32) (b : Fin 30) (p : Fin 6) (hb : b.val = o + p.val) (j : Fin 1024) :
    rows6 k (k0_pay7 x0 x1) (k0_pay8 x0 x1) (ix2 p j) = tileS x0 x1 b j := by
  unfold rows6
  refine (concat6_apply _ _ _ _ _ _ p j).trans ?_
  have e : (![massRow (k 0) (k0_pay7 x0 x1) (k0_pay8 x0 x1), massRow (k 1) (k0_pay7 x0 x1) (k0_pay8 x0 x1), massRow (k 2) (k0_pay7 x0 x1) (k0_pay8 x0 x1), massRow (k 3) (k0_pay7 x0 x1) (k0_pay8 x0 x1),
      massRow (k 4) (k0_pay7 x0 x1) (k0_pay8 x0 x1), massRow (k 5) (k0_pay7 x0 x1) (k0_pay8 x0 x1)] p)
      = massRow (k p) (k0_pay7 x0 x1) (k0_pay8 x0 x1) := by fin_cases p <;> rfl
  rw [e]
  exact mass_eq (k p) b (by rw [← hk p]; show BitVec.ofNat 32 b.val = _; rw [hb]) x0 x1 j

/-- The four stores' payloads: the loaded rows plus the stack of the mass rows of their bins. -/
theorem grp0_eq (x0 : Vec Ideal S1024x1024 .f32) (x1 : Vec Ideal S1024x1024 .i32) (ld : Vec Ideal S8x1024 .f32) :
    k0_pay29 (F := Ideal) (k0_pay7 x0 x1) (k0_pay8 x0 x1) (k0_pay12 (k0_pay11 x0 x1)) (k0_pay15 (k0_pay7 x0 x1) (k0_pay8 x0 x1))
      (k0_pay18 (k0_pay7 x0 x1) (k0_pay8 x0 x1)) (k0_pay21 (k0_pay7 x0 x1) (k0_pay8 x0 x1)) (k0_pay24 (k0_pay7 x0 x1) (k0_pay8 x0 x1)) (k0_pay25 (k0_pay7 x0 x1)) ld
    = addf ld (rows8 ![0#32, 1#32, 2#32, 3#32, 4#32, 5#32, 6#32, 7#32] (k0_pay7 x0 x1) (k0_pay8 x0 x1)) := by
  unfold k0_pay29
  dsimp only
  rw [shapeCast_self]
  rfl

theorem grp1_eq (x0 : Vec Ideal S1024x1024 .f32) (x1 : Vec Ideal S1024x1024 .i32) (ld : Vec Ideal S8x1024 .f32) :
    k0_pay52 (F := Ideal) (k0_pay32 (k0_pay7 x0 x1) (k0_pay8 x0 x1)) (k0_pay35 (k0_pay7 x0 x1) (k0_pay8 x0 x1)) (k0_pay38 (k0_pay7 x0 x1) (k0_pay8 x0 x1)) (k0_pay41 (k0_pay7 x0 x1) (k0_pay8 x0 x1))
      (k0_pay43 (k0_pay8 x0 x1) (k0_pay42 (k0_pay7 x0 x1))) (k0_pay45 (k0_pay7 x0 x1) (k0_pay8 x0 x1)) (k0_pay47 (k0_pay7 x0 x1) (k0_pay8 x0 x1)) (k0_pay49 (k0_pay7 x0 x1) (k0_pay8 x0 x1)) ld
    = addf ld (rows8 ![8#32, 9#32, 10#32, 11#32, 12#32, 13#32, 14#32, 15#32] (k0_pay7 x0 x1) (k0_pay8 x0 x1)) := by
  unfold k0_pay52
  dsimp only
  rw [shapeCast_self]
  rfl

theorem grp2_eq (x0 : Vec Ideal S1024x1024 .f32) (x1 : Vec Ideal S1024x1024 .i32) (ld : Vec Ideal S8x1024 .f32) :
    k0_pay77 (F := Ideal) (k0_pay8 x0 x1) (k0_pay55 (k0_pay7 x0 x1) (k0_pay8 x0 x1)) (k0_pay58 (k0_pay7 x0 x1) (k0_pay8 x0 x1)) (k0_pay61 (k0_pay7 x0 x1) (k0_pay8 x0 x1))
      (k0_pay64 (k0_pay8 x0 x1) (k0_pay62 (k0_pay7 x0 x1))) (k0_pay67 (k0_pay7 x0 x1) (k0_pay8 x0 x1)) (k0_pay70 (k0_pay7 x0 x1) (k0_pay8 x0 x1)) (k0_pay73 (k0_pay7 x0 x1) (k0_pay8 x0 x1))
      (k0_pay74 (k0_pay7 x0 x1)) ld
    = addf ld (rows8 ![16#32, 17#32, 18#32, 19#32, 20#32, 21#32, 22#32, 23#32] (k0_pay7 x0 x1) (k0_pay8 x0 x1)) := by
  unfold k0_pay77
  dsimp only
  rw [shapeCast_self]
  rfl

theorem grp3_eq (x0 : Vec Ideal S1024x1024 .f32) (x1 : Vec Ideal S1024x1024 .i32) (ld : Vec Ideal S6x1024 .f32) :
    k0_pay2 (F := Ideal) (k0_pay80 (k0_pay7 x0 x1) (k0_pay8 x0 x1)) (k0_pay83 (k0_pay7 x0 x1) (k0_pay8 x0 x1)) (k0_pay85 (k0_pay8 x0 x1) (k0_pay84 (k0_pay7 x0 x1)))
      (k0_pay87 (k0_pay7 x0 x1) (k0_pay8 x0 x1)) (k0_pay89 (k0_pay7 x0 x1) (k0_pay8 x0 x1)) (k0_pay91 (k0_pay7 x0 x1) (k0_pay8 x0 x1)) ld
    = addf ld (rows6 ![24#32, 25#32, 26#32, 27#32, 28#32, 29#32] (k0_pay7 x0 x1) (k0_pay8 x0 x1)) := by
  unfold k0_pay2
  dsimp only
  rw [shapeCast_self]
  rfl

/-- A table index whose row lies outside a block of rows is not in the block's rectangle. -/
theorem not_mem_rows {o n : Nat} (inb : ∀ a, (![o, 0] : Fin 2 → Nat) a + (![n, 1024] : Fin 2 → Nat) a ≤ S30x1024.size a)
    (b : Fin 30) (j : Fin 1024) (h : b.val < o ∨ o + n ≤ b.val) :
    (ix2 b j : S30x1024.Idx) ∉ (Rect.unit (s := S30x1024) ![o, 0] ![n, 1024] inb).set := by
  intro hm
  have h0 := (Rect.mem_set_unit.mp hm) 0
  change o ≤ b.val ∧ b.val < o + n at h0
  omega

/-- Such an index reads what the earlier stores left. -/
theorem canon_skip {o n : Nat} (inb : ∀ a, (![o, 0] : Fin 2 → Nat) a + (![n, 1024] : Fin 2 → Nat) a ≤ S30x1024.size a)
    (w : (⟨2, ![n, 1024]⟩ : Shape).Idx → E) (L : List (View.Piece (Elt Ideal) S30x1024 .f32)) (b : Fin 30) (j : Fin 1024)
    (h : b.val < o ∨ o + n ≤ b.val) :
    View.canon ((⟨Rect.unit ![o, 0] ![n, 1024] inb, w⟩ : View.Piece (Elt Ideal) S30x1024 .f32) :: L) (ix2 b j) = View.canon L (ix2 b j) :=
  View.canon_cons_of_not_mem _ L (not_mem_rows inb b j h)

/-- An index in the last stored block of rows reads that store's payload at its row within the block. -/
theorem canon_hit {o n : Nat} (inb : ∀ a, (![o, 0] : Fin 2 → Nat) a + (![n, 1024] : Fin 2 → Nat) a ≤ S30x1024.size a)
    (w : (⟨2, ![n, 1024]⟩ : Shape).Idx → E) (L : List (View.Piece (Elt Ideal) S30x1024 .f32)) (b : Fin 30) (p : Fin n) (j : Fin 1024)
    (hb : b.val = o + p.val) :
    View.canon ((⟨Rect.unit ![o, 0] ![n, 1024] inb, w⟩ : View.Piece (Elt Ideal) S30x1024 .f32) :: L) (ix2 b j) = w (ix2 p j) := by
  have e : (ix2 b j : S30x1024.Idx) = (Rect.unit (s := S30x1024) ![o, 0] ![n, 1024] inb).emb (ix2 p j) := by
    funext a
    match a with
    | ⟨0, _⟩ => exact Fin.ext (by show b.val = o + 1 * p.val; omega)
    | ⟨1, _⟩ => exact Fin.ext (by show j.val = 0 + 1 * j.val; omega)
  rw [e]
  exact View.canon_cons_emb (Rect.unit (s := S30x1024) ![o, 0] ![n, 1024] inb) w L (ix2 p j)

/-- A load of a block of rows of known contents reads the contents' rows. -/
theorem ld_rows {o n : Nat} (inb : ∀ a, (![o, 0] : Fin 2 → Nat) a + (![n, 1024] : Fin 2 → Nat) a ≤ S30x1024.size a)
    (X : S30x1024.Idx → E) (b : Fin 30) (p : Fin n) (j : Fin 1024) (hb : b.val = o + p.val) :
    View.ld (Val := Elt Ideal) (e' := .f32) X (Rect.unit (s := S30x1024) ![o, 0] ![n, 1024] inb) (ix2 p j) = X (ix2 b j) := by
  show X ((Rect.unit (s := S30x1024) ![o, 0] ![n, 1024] inb).idx (ix2 p j)) = _
  congr 1
  funext a
  match a with
  | ⟨0, _⟩ => exact Fin.ext (by show o + 1 * p.val = b.val; omega)
  | ⟨1, _⟩ => exact Fin.ext (by show 0 + 1 * j.val = j.val; omega)

/-- The table after the four stores of one grid point: at (b, j) what the store of b's block loaded there, plus the
    tile's mass of bin b. -/
theorem canon4 (x0 : Vec Ideal S1024x1024 .f32) (x1 : Vec Ideal S1024x1024 .i32) (old : S30x1024.Idx → E)
    (ld0 ld1 ld2 : Vec Ideal S8x1024 .f32) (ld3 : Vec Ideal S6x1024 .f32) (L : List (View.Piece (Elt Ideal) S30x1024 .f32))
    (h0 : ∀ (b : Fin 30) (p : Fin 8) (j : Fin 1024), b.val = 0 + p.val → (ld0 (ix2 p j) : E) = old (ix2 b j))
    (h1 : ∀ (b : Fin 30) (p : Fin 8) (j : Fin 1024), b.val = 8 + p.val → (ld1 (ix2 p j) : E) = old (ix2 b j))
    (h2 : ∀ (b : Fin 30) (p : Fin 8) (j : Fin 1024), b.val = 16 + p.val → (ld2 (ix2 p j) : E) = old (ix2 b j))
    (h3 : ∀ (b : Fin 30) (p : Fin 6) (j : Fin 1024), b.val = 24 + p.val → (ld3 (ix2 p j) : E) = old (ix2 b j))
    (b : Fin 30) (j : Fin 1024) :
    View.canon ((⟨Rect.unit ![24, 0] S6x1024.size inb_S30x1024_S6x1024_24_0, k0_pay2 (F := Ideal) (k0_pay80 (k0_pay7 x0 x1) (k0_pay8 x0 x1)) (k0_pay83 (k0_pay7 x0 x1) (k0_pay8 x0 x1)) (k0_pay85 (k0_pay8 x0 x1) (k0_pay84 (k0_pay7 x0 x1))) (k0_pay87 (k0_pay7 x0 x1) (k0_pay8 x0 x1)) (k0_pay89 (k0_pay7 x0 x1) (k0_pay8 x0 x1)) (k0_pay91 (k0_pay7 x0 x1) (k0_pay8 x0 x1)) ld3⟩ : View.Piece (Elt Ideal) S30x1024 .f32)
      :: ⟨Rect.unit ![16, 0] S8x1024.size inb_S30x1024_S8x1024_16_0, k0_pay77 (F := Ideal) (k0_pay8 x0 x1) (k0_pay55 (k0_pay7 x0 x1) (k0_pay8 x0 x1)) (k0_pay58 (k0_pay7 x0 x1) (k0_pay8 x0 x1)) (k0_pay61 (k0_pay7 x0 x1) (k0_pay8 x0 x1)) (k0_pay64 (k0_pay8 x0 x1) (k0_pay62 (k0_pay7 x0 x1))) (k0_pay67 (k0_pay7 x0 x1) (k0_pay8 x0 x1)) (k0_pay70 (k0_pay7 x0 x1) (k0_pay8 x0 x1)) (k0_pay73 (k0_pay7 x0 x1) (k0_pay8 x0 x1)) (k0_pay74 (k0_pay7 x0 x1)) ld2⟩
      :: ⟨Rect.unit ![8, 0] S8x1024.size inb_S30x1024_S8x1024_8_0, k0_pay52 (F := Ideal) (k0_pay32 (k0_pay7 x0 x1) (k0_pay8 x0 x1)) (k0_pay35 (k0_pay7 x0 x1) (k0_pay8 x0 x1)) (k0_pay38 (k0_pay7 x0 x1) (k0_pay8 x0 x1)) (k0_pay41 (k0_pay7 x0 x1) (k0_pay8 x0 x1)) (k0_pay43 (k0_pay8 x0 x1) (k0_pay42 (k0_pay7 x0 x1))) (k0_pay45 (k0_pay7 x0 x1) (k0_pay8 x0 x1)) (k0_pay47 (k0_pay7 x0 x1) (k0_pay8 x0 x1)) (k0_pay49 (k0_pay7 x0 x1) (k0_pay8 x0 x1)) ld1⟩
      :: ⟨Rect.unit ![0, 0] S8x1024.size inb_S30x1024_S8x1024_0_0, k0_pay29 (F := Ideal) (k0_pay7 x0 x1) (k0_pay8 x0 x1) (k0_pay12 (k0_pay11 x0 x1)) (k0_pay15 (k0_pay7 x0 x1) (k0_pay8 x0 x1)) (k0_pay18 (k0_pay7 x0 x1) (k0_pay8 x0 x1)) (k0_pay21 (k0_pay7 x0 x1) (k0_pay8 x0 x1)) (k0_pay24 (k0_pay7 x0 x1) (k0_pay8 x0 x1)) (k0_pay25 (k0_pay7 x0 x1)) ld0⟩ :: L) (ix2 b j)
    = old (ix2 b j) + tileS x0 x1 b j := by
  by_cases c3 : 24 ≤ b.val
  · have hp : b.val - 24 < 6 := by have := b.isLt; omega
    have hb : b.val = 24 + (⟨b.val - 24, hp⟩ : Fin 6).val := by show b.val = 24 + (b.val - 24); omega
    refine (canon_hit (o := 24) (n := 6) _ _ _ b ⟨b.val - 24, hp⟩ j hb).trans ?_
    rw [grp3_eq]
    show (ld3 (ix2 ⟨b.val - 24, hp⟩ j) : E) + rows6 _ _ _ (ix2 ⟨b.val - 24, hp⟩ j) = _
    rw [h3 b _ j hb, rows6_tile _ 24 (fun q => by fin_cases q <;> rfl) x0 x1 b _ hb j]
  by_cases c2 : 16 ≤ b.val
  · have hp : b.val - 16 < 8 := by omega
    have hb : b.val = 16 + (⟨b.val - 16, hp⟩ : Fin 8).val := by show b.val = 16 + (b.val - 16); omega
    refine (canon_skip (o := 24) (n := 6) _ _ _ b j (Or.inl (by omega))).trans ?_
    refine (canon_hit (o := 16) (n := 8) _ _ _ b ⟨b.val - 16, hp⟩ j hb).trans ?_
    rw [grp2_eq]
    show (ld2 (ix2 ⟨b.val - 16, hp⟩ j) : E) + rows8 _ _ _ (ix2 ⟨b.val - 16, hp⟩ j) = _
    rw [h2 b _ j hb, rows8_tile _ 16 (fun q => by fin_cases q <;> rfl) x0 x1 b _ hb j]
  by_cases c1 : 8 ≤ b.val
  · have hp : b.val - 8 < 8 := by omega
    have hb : b.val = 8 + (⟨b.val - 8, hp⟩ : Fin 8).val := by show b.val = 8 + (b.val - 8); omega
    refine (canon_skip (o := 24) (n := 6) _ _ _ b j (Or.inl (by omega))).trans ?_
    refine (canon_skip (o := 16) (n := 8) _ _ _ b j (Or.inl (by omega))).trans ?_
    refine (canon_hit (o := 8) (n := 8) _ _ _ b ⟨b.val - 8, hp⟩ j hb).trans ?_
    rw [grp1_eq]
    show (ld1 (ix2 ⟨b.val - 8, hp⟩ j) : E) + rows8 _ _ _ (ix2 ⟨b.val - 8, hp⟩ j) = _
    rw [h1 b _ j hb, rows8_tile _ 8 (fun q => by fin_cases q <;> rfl) x0 x1 b _ hb j]
  · have hp : b.val < 8 := by omega
    have hb : b.val = 0 + (⟨b.val, hp⟩ : Fin 8).val := by show b.val = 0 + b.val; omega
    refine (canon_skip (o := 24) (n := 6) _ _ _ b j (Or.inl (by omega))).trans ?_
    refine (canon_skip (o := 16) (n := 8) _ _ _ b j (Or.inl (by omega))).trans ?_
    refine (canon_skip (o := 8) (n := 8) _ _ _ b j (Or.inl (by omega))).trans ?_
    refine (canon_hit (o := 0) (n := 8) _ _ _ b ⟨b.val, hp⟩ j hb).trans ?_
    rw [grp0_eq]
    show (ld0 (ix2 ⟨b.val, hp⟩ j) : E) + rows8 _ _ _ (ix2 ⟨b.val, hp⟩ j) = _
    rw [h0 b _ j hb, rows8_tile _ 0 (fun q => by fin_cases q <;> rfl) x0 x1 b _ hb j]

/-- A load of a block of rows after a list of stores reads what the stores left at those rows. -/
theorem readCov_rows {κ : Kind} {sp : Space} (v : View sig κ sp S30x1024 .f32) {o n : Nat}
    (inb : ∀ a, (![o, 0] : Fin 2 → Nat) a + (![n, 1024] : Fin 2 → Nat) a ≤ S30x1024.size a)
    (L : List (View.Piece (Elt Ideal) S30x1024 .f32)) (b : Fin 30) (p : Fin n) (j : Fin 1024) (hb : b.val = o + p.val) :
    v.readCov L (Rect.unit (s := S30x1024) ![o, 0] ![n, 1024] inb).toLoadRect (ix2 p j) = View.canon L (ix2 b j) := by
  rw [View.readCov_eq_canon']
  show View.canon L ((Rect.unit (s := S30x1024) ![o, 0] ![n, 1024] inb).idx (ix2 p j)) = _
  congr 1
  funext a
  match a with
  | ⟨0, _⟩ => exact Fin.ext (by show o + 1 * p.val = b.val; omega)
  | ⟨1, _⟩ => exact Fin.ext (by show 0 + 1 * j.val = j.val; omega)

/-- The reset store leaves zero everywhere. -/
theorem canon_reset (b : Fin 30) (j : Fin 1024) :
    View.canon [(⟨Rect.unit ![0, 0] S30x1024.size inb_S30x1024_S30x1024_0_0, k0_pay5 (F := Ideal)⟩ : View.Piece (Elt Ideal) S30x1024 .f32)] (ix2 b j)
      = (0 : E) := by
  rw [View.canon_unit_zero hz2]
  unfold k0_pay5
  refine (congrFun (shapeCast_self _ _) (ix2 b j)).trans ?_
  exact Ideal.ofBits_zero_f32

end MassAux

open MassAux

/-- First point of a column tile: the table is reset, then holds this tile's masses. -/
theorem first_s (c : Dev nD) (i : grid0.Coords) (arg2 : Memref sig .tc .vmem S1024x1024 .f32) (harg2 : arg2.IsWhole) (arg3 : Memref sig .tc .vmem S1024x1024 .i32) (harg3 : arg3.IsWhole) (arg4 : Memref sig .tc .vmem S30x1024 .f32) (harg4 : arg4.IsWhole) (arg5 : Memref sig .tc .vmem S8x1024 .f32) (harg5 : arg5.IsWhole) (arg6 : Memref sig .tc .vmem S30x1024 .f32) (harg6 : arg6.IsWhole) (arg7 : Memref sig .tc .vmem S30x1024 .f32) (harg7 : arg7.IsWhole) (hc0 : cond0_0 i) (hc1 : ¬cond0_1 i)
    (x0 : Vec Ideal S1024x1024 .f32) (x1 : Vec Ideal S1024x1024 .i32) (x2 : Vec Ideal S30x1024 .f32) (b : Fin 30) (j : Fin 1024) :
    (sout0_A_1 (F := Ideal) c i arg2 harg2 arg3 harg3 arg4 harg4 arg5 harg5 arg6 harg6 arg7 harg7 hc0 hc1 x0 x1 x2 (ix2 b j) : E) = tileS x0 x1 b j := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  simp only [View.readAt_eq_ld, harg2.read_unread, harg3.read_unread, View.ld_unit_zero (S := S1024x1024) hz2]
  refine (canon4 x0 x1 (fun _ => (0 : E)) _ _ _ _ _ ?_ ?_ ?_ ?_ b j).trans (zero_add _)
  · intro b p j hb
    refine (readCov_rows _ _ _ b p j hb).trans ?_
    exact canon_reset b j
  · intro b p j hb
    refine (readCov_rows _ _ _ b p j hb).trans ?_
    refine (canon_skip (o := 0) (n := 8) _ _ _ b j (Or.inr (by omega))).trans ?_
    exact canon_reset b j
  · intro b p j hb
    refine (readCov_rows _ _ _ b p j hb).trans ?_
    refine (canon_skip (o := 8) (n := 8) _ _ _ b j (Or.inr (by omega))).trans ?_
    refine (canon_skip (o := 0) (n := 8) _ _ _ b j (Or.inr (by omega))).trans ?_
    exact canon_reset b j
  · intro b p j hb
    refine (readCov_rows _ _ _ b p j hb).trans ?_
    refine (canon_skip (o := 16) (n := 8) _ _ _ b j (Or.inr (by omega))).trans ?_
    refine (canon_skip (o := 8) (n := 8) _ _ _ b j (Or.inr (by omega))).trans ?_
    refine (canon_skip (o := 0) (n := 8) _ _ _ b j (Or.inr (by omega))).trans ?_
    exact canon_reset b j

/-- A middle point: the table grows by this tile's masses. -/
theorem mid_s (c : Dev nD) (i : grid0.Coords) (arg2 : Memref sig .tc .vmem S1024x1024 .f32) (harg2 : arg2.IsWhole) (arg3 : Memref sig .tc .vmem S1024x1024 .i32) (harg3 : arg3.IsWhole) (arg4 : Memref sig .tc .vmem S30x1024 .f32) (harg4 : arg4.IsWhole) (arg5 : Memref sig .tc .vmem S8x1024 .f32) (harg5 : arg5.IsWhole) (arg6 : Memref sig .tc .vmem S30x1024 .f32) (harg6 : arg6.IsWhole) (arg7 : Memref sig .tc .vmem S30x1024 .f32) (harg7 : arg7.IsWhole) (hc0 : ¬cond0_0 i) (hc1 : ¬cond0_1 i)
    (x0 : Vec Ideal S1024x1024 .f32) (x1 : Vec Ideal S1024x1024 .i32) (x2 xs0 xs1 : Vec Ideal S30x1024 .f32) (b : Fin 30) (j : Fin 1024) :
    (sout0_B_1 (F := Ideal) c i arg2 harg2 arg3 harg3 arg4 harg4 arg5 harg5 arg6 harg6 arg7 harg7 hc0 hc1 x0 x1 x2 xs0 xs1 (ix2 b j) : E) = (xs1 (ix2 b j) : E) + tileS x0 x1 b j := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  simp only [View.readAt_eq_ld, harg2.read_unread, harg3.read_unread, harg7.read_unread, View.ld_unit_zero (S := S1024x1024) hz2]
  exact canon4 x0 x1 xs1 _ _ _ _ [] (fun b p j hb => ld_rows _ xs1 b p j hb) (fun b p j hb => ld_rows _ xs1 b p j hb)
    (fun b p j hb => ld_rows _ xs1 b p j hb) (fun b p j hb => ld_rows _ xs1 b p j hb) b j

/-- The last point of a column tile: the table grows once more. -/
theorem last_s (c : Dev nD) (i : grid0.Coords) (arg2 : Memref sig .tc .vmem S1024x1024 .f32) (harg2 : arg2.IsWhole) (arg3 : Memref sig .tc .vmem S1024x1024 .i32) (harg3 : arg3.IsWhole) (arg4 : Memref sig .tc .vmem S30x1024 .f32) (harg4 : arg4.IsWhole) (arg5 : Memref sig .tc .vmem S8x1024 .f32) (harg5 : arg5.IsWhole) (arg6 : Memref sig .tc .vmem S30x1024 .f32) (harg6 : arg6.IsWhole) (arg7 : Memref sig .tc .vmem S30x1024 .f32) (harg7 : arg7.IsWhole) (hc0 : ¬cond0_0 i) (hc1 : cond0_1 i)
    (x0 : Vec Ideal S1024x1024 .f32) (x1 : Vec Ideal S1024x1024 .i32) (x2 xs0 xs1 : Vec Ideal S30x1024 .f32) (b : Fin 30) (j : Fin 1024) :
    (sout0_C_1 (F := Ideal) c i arg2 harg2 arg3 harg3 arg4 harg4 arg5 harg5 arg6 harg6 arg7 harg7 hc0 hc1 x0 x1 x2 xs0 xs1 (ix2 b j) : E) = (xs1 (ix2 b j) : E) + tileS x0 x1 b j := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  simp only [View.readAt_eq_ld, harg2.read_unread, harg3.read_unread, harg7.read_unread, View.ld_unit_zero (S := S1024x1024) hz2]
  exact canon4 x0 x1 xs1 _ _ _ _ [] (fun b p j hb => ld_rows _ xs1 b p j hb) (fun b p j hb => ld_rows _ xs1 b p j hb)
    (fun b p j hb => ld_rows _ xs1 b p j hb) (fun b p j hb => ld_rows _ xs1 b p j hb) b j

end Cert.KernelIdeal.Tile

end
-- ==== Proof.KTileOut.lean ====
/-
  The output block written at a column tile's last point: each of its 8 rows holds, for tile column j, an eighth of
  the column's weighted mass Σ_b w[b]·s[b], formed from the finished count and mass tables (what the point before
  left plus this tile's share) and the running-histogram block.
-/
import proofs.«415593_j11123965296942_3_alg».proof.Proof.KTile
import proofs.«415593_j11123965296942_3_alg».proof.Proof.KTileCnt
import proofs.«415593_j11123965296942_3_alg».proof.Proof.KTileS
import Idealize.ShloMosaic.Lib.ValueLayout

set_option maxRecDepth 16384

noncomputable section

namespace Cert.KernelIdeal.Tile

open Idealize.ShloMosaic Idealize.ShloMosaic.TcCoe Idealize.SL.Sem Idealize.ShloMosaic.ValueIdx
open Cert.KernelIdeal Cert.KernelIdeal.Gen Cert.GHM

/-! Auxiliary facts: the output block as the weighted-mass payload of the two finished tables, and that payload
    read at an index. -/
namespace Out

/-- Both offsets of a whole-buffer rectangle are zero. -/
theorem hz2 : (![0, 0] : Fin 2 → Nat) = fun _ => 0 := funext fun a => by fin_cases a <;> rfl

section
variable {Val : EltTy → Type} [∀ e, Nonempty (Val e)] {sig' : RefSig} {κ : Kind} {sp : Space} {S : Shape} {e : EltTy}
/-- A load through the whole-shape rectangle, after a list of stores, reads the contents those stores left. -/
theorem readCov_whole (v : View sig' κ sp S e) (L : List (View.Piece Val S e)) {off : Fin S.rank → Nat} (h : off = fun _ => 0)
    (inb : ∀ a, off a + S.size a ≤ S.size a) :
    v.readCov L (Rect.unit off S.size inb).toLoadRect = View.canon L := by
  rw [View.readCov_eq_canon']
  exact View.ld_unit_zero h inb (View.canon L)
end

section
variable {F : FTy → Type} [FloatOps F]
/-- At the last point of a column tile the output block is the weighted-mass payload applied to the two finished
    tables (the count table and the mass table as this point leaves them) and the running-histogram block: the
    output's one store covers the block, and its two table operands are loads of the whole tables after this
    point's stores into them. -/
theorem out_eq_pay3 (c : Dev nD) (i : grid0.Coords) (arg2 : Memref sig .tc .vmem S1024x1024 .f32) (harg2 : arg2.IsWhole) (arg3 : Memref sig .tc .vmem S1024x1024 .i32) (harg3 : arg3.IsWhole) (arg4 : Memref sig .tc .vmem S30x1024 .f32) (harg4 : arg4.IsWhole) (arg5 : Memref sig .tc .vmem S8x1024 .f32) (harg5 : arg5.IsWhole) (arg6 : Memref sig .tc .vmem S30x1024 .f32) (harg6 : arg6.IsWhole) (arg7 : Memref sig .tc .vmem S30x1024 .f32) (harg7 : arg7.IsWhole) (hc0 : ¬cond0_0 i) (hc1 : cond0_1 i)
    (x0 : Vec F S1024x1024 .f32) (x1 : Vec F S1024x1024 .i32) (x2 : Vec F S30x1024 .f32) (xs0 : Vec F S30x1024 .f32) (xs1 : Vec F S30x1024 .f32) :
    out0_C_3 c i arg2 harg2 arg3 harg3 arg4 harg4 arg5 harg5 arg6 harg6 arg7 harg7 hc0 hc1 x0 x1 x2 xs0 xs1 = k0_pay3 (sout0_C_0 c i arg2 harg2 arg3 harg3 arg4 harg4 arg5 harg5 arg6 harg6 arg7 harg7 hc0 hc1 x0 x1 x2 xs0 xs1) (sout0_C_1 c i arg2 harg2 arg3 harg3 arg4 harg4 arg5 harg5 arg6 harg6 arg7 harg7 hc0 hc1 x0 x1 x2 xs0 xs1) x2 := by
  unfold out0_C_3 sout0_C_0 sout0_C_1
  rw [View.read_writes_junk_eq_canon, View.read_writes_junk_eq_canon, View.read_writes_junk_eq_canon]
  unfold kernelRun0_C
  dsimp only
  sl_unfold_words
  rw [View.canon_unit_zero hz2]
  rw [readCov_whole _ _ hz2, readCov_whole _ _ hz2]
  simp only [View.readAt_eq_ld, harg4.read_unread, View.ld_unit_zero (S := S30x1024) hz2]
end

/-- The index a sum over the 30 bins visits: bin `k` of column `j`. -/
theorem lift_bins (j : Fin 1024) (k : Fin 30) :
    reduces_S30x1024_S1024.lift (ix1 j) k = ix2 k j := by
  funext c
  match c with
  | ⟨0, _⟩ => rfl
  | ⟨1, _⟩ => rfl

/-- A sum-reduction of a [30, 1024] table over its bins, at column `j`, is the sum over the 30 bins. -/
theorem sum_bins (v : FVec Ideal S30x1024 .f32) (acc : BitVec FTy.f32.bits) (hφ : FKind.Formats .f32)
    (hacc : acc = FKind.add.neutral .f32 hφ) (j : Fin 1024) :
    (multiReduction .add [0] S1024 v acc reduces_S30x1024_S1024 hφ hacc (ix1 j) : E)
      = ∑ k : Fin 30, (v (ix2 k j) : E) :=
  (Ideal.multiReduction_add_single v _ reduces_S30x1024_S1024 hφ hacc (ix1 j)).trans
    (Finset.sum_congr rfl fun k _ => congrArg v (lift_bins j k))

/-- A select on the comparison "x ≥ y" chooses by the order. -/
theorem select_oge (x y : E) (a b : E) :
    Scalar.select (FloatOps.cmpf (F := Ideal) .oge x y) a b = if y ≤ x then a else b := by
  show Scalar.select (Ideal.cmp .oge x y) a b = _
  unfold Ideal.cmp Scalar.select
  by_cases h : y ≤ x
  · simp [h]
  · simp [h]

/-- The comparison "x ≥ y", widened to a word and read as a number, is the indicator of the order. -/
theorem sitofp_oge (x y : E) :
    (FloatOps.sitofp (F := Ideal) .f32 ((FloatOps.cmpf (F := Ideal) .oge x y).setWidth 32) : E)
      = if y ≤ x then (1 : E) else 0 := by
  show (((((Ideal.cmp .oge x y).setWidth 32).toInt : ℝ)) : EReal) = _
  unfold Ideal.cmp
  by_cases h : y ≤ x
  · simp [h]
  · simp [h]

/-- The number of populated bins of column `j`, as the reduction of the widened comparisons forms it. -/
theorem nne_row (cntT : Vec Ideal S30x1024 .f32) (acc : BitVec FTy.f32.bits) (hφ : FKind.Formats .f32)
    (hacc : acc = FKind.add.neutral .f32 hφ) (j : Fin 1024) :
    (multiReduction .add [0] S1024
        (sitofp .f32 (extui 32 (cmpf .oge cntT (broadcast S30x1024 c1)) natLt_1_32) : FVec Ideal S30x1024 .f32)
        acc reduces_S30x1024_S1024 hφ hacc (ix1 j) : E)
      = nneOf (fun b => (cntT (ix2 b j) : E)) :=
  (sum_bins _ acc hφ hacc j).trans (Finset.sum_congr rfl fun b _ => by
    rw [sitofp_apply, extui_apply, cmpf_apply, broadcast_apply, sitofp_oge])

/-- The weighted-mass payload at row `r`, column `j`: an eighth of Σ_b w[b]·s[b], with the weights formed from the
    running-histogram column, the count column and the number of populated bins (a sum over the 30 bins of the
    indicator cnt ≥ 1), the mass column multiplied in, summed over the 30 bins and broadcast to the 8 rows. -/
theorem pay3_apply (cntT sT accT : Vec Ideal S30x1024 .f32) (r : Fin 8) (j : Fin 1024) :
    (k0_pay3 (F := Ideal) cntT sT accT (ix2 r j) : E) =
      Ideal.div (colMassOf (fun b => (accT (ix2 b j) : E)) (fun b => (cntT (ix2 b j) : E)) (fun b => (sT (ix2 b j) : E))) c8 := by
  unfold k0_pay3
  dsimp only
  rw [divf_apply, broadcastTo_1b_ab_apply, shapeCast_self, shapeCast_a_1a_apply]
  unfold colMassOf
  refine congrArg₂ Ideal.div ((sum_bins _ _ _ _ j).trans (Finset.sum_congr rfl fun b _ => ?_)) rfl
  rw [mulf_apply, select_apply, cmpf_apply, broadcast_apply, select_oge, divf_apply, select_apply, cmpf_apply, broadcast_apply, select_oge]
  simp only [broadcast_apply, mulf_apply, addf_apply, maximumf_apply, broadcastTo_1b_ab_apply, shapeCast_a_1a_apply]
  unfold wBinOf
  by_cases h : c1 ≤ (cntT (ix2 b j) : E)
  · rw [if_pos h, if_pos h, if_pos h]
    exact congrArg (fun n : E => Ideal.div c8192 ((c34 * (accT (ix2 b j) : E) + c14 * (cntT (ix2 b j) : E)) * max n c1) * (sT (ix2 b j) : E))
      (nne_row cntT _ _ _ j)
  · rw [if_neg h, if_neg h]

end Out

/-- The output block at the last point of a column tile. -/
theorem last_out (c : Dev nD) (i : grid0.Coords) (arg2 : Memref sig .tc .vmem S1024x1024 .f32) (harg2 : arg2.IsWhole) (arg3 : Memref sig .tc .vmem S1024x1024 .i32) (harg3 : arg3.IsWhole) (arg4 : Memref sig .tc .vmem S30x1024 .f32) (harg4 : arg4.IsWhole) (arg5 : Memref sig .tc .vmem S8x1024 .f32) (harg5 : arg5.IsWhole) (arg6 : Memref sig .tc .vmem S30x1024 .f32) (harg6 : arg6.IsWhole) (arg7 : Memref sig .tc .vmem S30x1024 .f32) (harg7 : arg7.IsWhole) (hc0 : ¬cond0_0 i) (hc1 : cond0_1 i)
    (x0 : Vec Ideal S1024x1024 .f32) (x1 : Vec Ideal S1024x1024 .i32) (x2 xs0 xs1 : Vec Ideal S30x1024 .f32) (r : Fin 8) (j : Fin 1024) :
    (out0_C_3 (F := Ideal) c i arg2 harg2 arg3 harg3 arg4 harg4 arg5 harg5 arg6 harg6 arg7 harg7 hc0 hc1 x0 x1 x2 xs0 xs1 (ix2 r j) : E) = Ideal.div (colMassOf (fun b => (x2 (ix2 b j) : E))
          (fun b => (xs0 (ix2 b j) : E) + tileCnt x0 x1 b j)
          (fun b => (xs1 (ix2 b j) : E) + tileS x0 x1 b j)) c8 := by
  refine (congrFun (Out.out_eq_pay3 (F := Ideal) c i arg2 harg2 arg3 harg3 arg4 harg4 arg5 harg5 arg6 harg6 arg7 harg7 hc0 hc1 x0 x1 x2 xs0 xs1) (ix2 r j)).trans ?_
  refine (Out.pay3_apply _ _ _ r j).trans ?_
  exact congrArg (fun t : E => Ideal.div t c8)
    (congrArg₂ (colMassOf (fun b => (x2 (ix2 b j) : E)))
      (funext fun b => last_cnt c i arg2 harg2 arg3 harg3 arg4 harg4 arg5 harg5 arg6 harg6 arg7 harg7 hc0 hc1 x0 x1 x2 xs0 xs1 b j)
      (funext fun b => last_s c i arg2 harg2 arg3 harg3 arg4 harg4 arg5 harg5 arg6 harg6 arg7 harg7 hc0 hc1 x0 x1 x2 xs0 xs1 b j))

end Cert.KernelIdeal.Tile

end
-- ==== Proof.KValue.lean ====
/-
  The value of the kernel program: its result is the bin-table loss of the specification.

  Grid point t = 8·q + k works on column tile q (columns 1024q … 1024q+1023) and row tile k (rows 1024k … 1024k+1023).
  Within a column tile the two carried tables start afresh at k = 0 and grow by each row tile's counts and masses, so
  after k = 7 they hold, at (b, j), the sums over all eight row tiles, which are the whole column's count and mass of
  bin b in column 1024q + j (the rows 1024k + r, k < 8, r < 1024, are all 8192 rows).  That point writes back the
  output block of rows 8q … 8q+7, each holding an eighth of the column masses; the two blocks cover the [16, 1024]
  array.  The lines after the region sum the array, multiply by 1 and divide by 2^24.
-/
import proofs.«415593_j11123965296942_3_alg».proof.Proof.Gen.KernelIdeal.Frame
import proofs.«415593_j11123965296942_3_alg».proof.Proof.Spec
import proofs.«415593_j11123965296942_3_alg».proof.Proof.KTileCnt
import proofs.«415593_j11123965296942_3_alg».proof.Proof.KTileS
import proofs.«415593_j11123965296942_3_alg».proof.Proof.KTileOut
import Idealize.ShloMosaic.Lib.Pipeline.Value
import Idealize.ShloMosaic.Lib.StableHlo.Run
import Idealize.ShloMosaic.Lib.Tactic
import Mathlib.Algebra.BigOperators.Fin
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.GHM Cert.KernelIdeal.Tile

variable (m : (ℓ : Loc nD τ sig) → Buf (Elt Ideal) ℓ) (ρ : Dev nD → PrngReg)

/-- The three argument arrays on core `c`. -/
abbrev Parr (c : Dev nD) : SNC.Idx → E := m ((c : Thread nD τ).loc main_arg0)
abbrev Tarr (c : Dev nD) : SNC.Idx → BitVec 32 := m ((c : Thread nD τ).loc main_arg1)
abbrev Aarr (c : Dev nD) : SBC.Idx → E := m ((c : Thread nD τ).loc main_arg2)

/-- The input blocks of grid point `t`, at their literal types. -/
abbrev xblk (c : Dev nD) (t : Fin cfg0.N) : Vec Ideal S1024x1024 .f32 := iblk m c 0 t
abbrev tblk (c : Dev nD) (t : Fin cfg0.N) : Vec Ideal S1024x1024 .i32 := iblk m c 1 t
abbrev ablk (c : Dev nD) (t : Fin cfg0.N) : Vec Ideal S30x1024 .f32 := iblk m c 2 t

/-- The block indices of the four windows at point t = 8q + k: inputs at (k, q), the histogram at (0, q), the output at (q, 0). -/
theorem idx_facts : ∀ t : Fin cfg0.N,
    win0_0.index t (0 : Fin 2) = t.val % 8 ∧ win0_0.index t (1 : Fin 2) = t.val / 8
    ∧ win0_1.index t (0 : Fin 2) = t.val % 8 ∧ win0_1.index t (1 : Fin 2) = t.val / 8
    ∧ win0_2.index t (0 : Fin 2) = 0 ∧ win0_2.index t (1 : Fin 2) = t.val / 8
    ∧ win0_3.index t (0 : Fin 2) = t.val / 8 ∧ win0_3.index t (1 : Fin 2) = 0 :=
  (by decide +kernel : ∀ t : Fin grid0.N, _)

theorem tN (t : Fin cfg0.N) : t.val < 16 := lt_of_lt_of_eq t.isLt (show cfg0.N = 16 from N_0)

/-- Element (r, j) of the logits block of point t is element (1024·(t mod 8) + r, 1024·(t div 8) + j) of the array. -/
theorem xblk_apply (c : Dev nD) (t : Fin cfg0.N) (r j : Fin 1024) :
    xblk m c t (ix2 r j) = Parr m c (ix2 ⟨1024 * (t.val % 8) + r.val, by have := tN t; omega⟩ ⟨1024 * (t.val / 8) + j.val, by have := tN t; omega⟩) := by
  obtain ⟨e0, e1, -⟩ := idx_facts t
  unfold xblk iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = 1024 * (t.val % 8) + r.val; rw [e0]; omega
  | ⟨1, _⟩ => show win0_0.index t 1 * 1024 + 1 * j.val = 1024 * (t.val / 8) + j.val; rw [e1]; omega

/-- The same for the labels block. -/
theorem tblk_apply (c : Dev nD) (t : Fin cfg0.N) (r j : Fin 1024) :
    tblk m c t (ix2 r j) = Tarr m c (ix2 ⟨1024 * (t.val % 8) + r.val, by have := tN t; omega⟩ ⟨1024 * (t.val / 8) + j.val, by have := tN t; omega⟩) := by
  obtain ⟨-, -, e0, e1, -⟩ := idx_facts t
  unfold tblk iblk
  rw [View.read_apply]
  show V m c main_arg1 _ = m (c.tc.loc main_arg1) _
  rw [V_main_arg1]
  congr 1
  funext a
  apply Fin.ext
  match a with
  | ⟨0, _⟩ => show win0_1.index t 0 * 1024 + 1 * r.val = 1024 * (t.val % 8) + r.val; rw [e0]; omega
  | ⟨1, _⟩ => show win0_1.index t 1 * 1024 + 1 * j.val = 1024 * (t.val / 8) + j.val; rw [e1]; omega

/-- Element (b, j) of the running-histogram block of point t is element (b, 1024·(t div 8) + j) of the array. -/
theorem ablk_apply (c : Dev nD) (t : Fin cfg0.N) (b : Fin 30) (j : Fin 1024) :
    ablk m c t (ix2 b j) = Aarr m c (ix2 b ⟨1024 * (t.val / 8) + j.val, by have := tN t; omega⟩) := by
  obtain ⟨-, -, -, -, e0, e1, -⟩ := idx_facts t
  unfold ablk iblk
  rw [View.read_apply]
  show V m c main_arg2 _ = m (c.tc.loc main_arg2) _
  rw [V_main_arg2]
  congr 1
  funext a
  apply Fin.ext
  match a with
  | ⟨0, _⟩ => show win0_2.index t 0 * 30 + 1 * b.val = b.val; rw [e0]; omega
  | ⟨1, _⟩ => show win0_2.index t 1 * 1024 + 1 * j.val = 1024 * (t.val / 8) + j.val; rw [e1]; omega

/-! ## The carried tables, point by point -/

/-- The counts of the tile of point n (zero past the grid). -/
def tCnt (c : Dev nD) (n : ℕ) (b : Fin 30) (j : Fin 1024) : E :=
  if h : n < cfg0.N then tileCnt (xblk m c ⟨n, h⟩) (tblk m c ⟨n, h⟩) b j else 0

/-- The masses of the tile of point n (zero past the grid). -/
def tS (c : Dev nD) (n : ℕ) (b : Fin 30) (j : Fin 1024) : E :=
  if h : n < cfg0.N then tileS (xblk m c ⟨n, h⟩) (tblk m c ⟨n, h⟩) b j else 0

/-- The count table after point n: afresh at the first row tile of a column tile, else grown by the point's counts. -/
def cntAfter (c : Dev nD) : ℕ → Fin 30 → Fin 1024 → E
  | 0 => tCnt m c 0
  | n + 1 => fun b j => if (n + 1) % 8 = 0 then tCnt m c (n + 1) b j else cntAfter c n b j + tCnt m c (n + 1) b j

/-- The mass table after point n. -/
def sAfter (c : Dev nD) : ℕ → Fin 30 → Fin 1024 → E
  | 0 => tS m c 0
  | n + 1 => fun b j => if (n + 1) % 8 = 0 then tS m c (n + 1) b j else sAfter c n b j + tS m c (n + 1) b j

theorem tCnt_of_lt (c : Dev nD) (n : ℕ) (h : n < cfg0.N) (b : Fin 30) (j : Fin 1024) :
    tCnt m c n b j = tileCnt (xblk m c ⟨n, h⟩) (tblk m c ⟨n, h⟩) b j := dif_pos h
theorem tS_of_lt (c : Dev nD) (n : ℕ) (h : n < cfg0.N) (b : Fin 30) (j : Fin 1024) :
    tS m c n b j = tileS (xblk m c ⟨n, h⟩) (tblk m c ⟨n, h⟩) b j := dif_pos h

/-- What the generated run leaves in the two carried tables after point n is the two recursions above. -/
theorem tables_eq (c : Dev nD) : ∀ (n : ℕ) (h : n < cfg0.N) (b : Fin 30) (j : Fin 1024),
    ((outsAt0 m c n h).2.1 (ix2 b j) : E) = cntAfter m c n b j ∧ ((outsAt0 m c n h).2.2 (ix2 b j) : E) = sAfter m c n b j
  | 0, h => fun b j => by
    have hA := outsAt0_A m c ⟨0, h⟩ (Nat.zero_mod 8) (by show ¬(0 % 8 = 7); decide)
    have e : outsAt0 m c 0 h = outsAt0 m c (⟨0, h⟩ : Fin cfg0.N).val (⟨0, h⟩ : Fin cfg0.N).isLt := rfl
    rw [e, hA]
    dsimp only
    exact ⟨(first_cnt c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) _ _ (iblk m c 0 ⟨0, h⟩) (iblk m c 1 ⟨0, h⟩) (iblk m c 2 ⟨0, h⟩) b j).trans (tCnt_of_lt m c 0 h b j).symm,
      (first_s c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) _ _ (iblk m c 0 ⟨0, h⟩) (iblk m c 1 ⟨0, h⟩) (iblk m c 2 ⟨0, h⟩) b j).trans (tS_of_lt m c 0 h b j).symm⟩
  | n + 1, h => fun b j => by
    have ih := tables_eq c n (Nat.lt_of_succ_lt h)
    have e : outsAt0 m c (n + 1) h = outsAt0 m c (⟨n + 1, h⟩ : Fin cfg0.N).val (⟨n + 1, h⟩ : Fin cfg0.N).isLt := rfl
    by_cases h0 : (n + 1) % 8 = 0
    · have h1 : ¬(n + 1) % 8 = 7 := by omega
      rw [e, outsAt0_A m c ⟨n + 1, h⟩ h0 h1]
      dsimp only
      refine ⟨(first_cnt c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) b j).trans ?_,
        (first_s c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) b j).trans ?_⟩
      · show _ = (if (n + 1) % 8 = 0 then tCnt m c (n + 1) b j else cntAfter m c n b j + tCnt m c (n + 1) b j)
        rw [if_pos h0]; exact (tCnt_of_lt m c (n + 1) h b j).symm
      · show _ = (if (n + 1) % 8 = 0 then tS m c (n + 1) b j else sAfter m c n b j + tS m c (n + 1) b j)
        rw [if_pos h0]; exact (tS_of_lt m c (n + 1) h b j).symm
    · by_cases h1 : (n + 1) % 8 = 7
      · rw [e, outsAt0_C m c ⟨n + 1, h⟩ h0 h1]
        dsimp only
        refine ⟨(last_cnt c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) _ _ b j).trans ?_,
          (last_s c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) _ _ b j).trans ?_⟩
        · show ((outsAt0 m c n _).2.1 (ix2 b j) : E) + _ = (if (n + 1) % 8 = 0 then tCnt m c (n + 1) b j else cntAfter m c n b j + tCnt m c (n + 1) b j)
          rw [if_neg h0, (ih b j).1, tCnt_of_lt m c (n + 1) h b j]
        · show ((outsAt0 m c n _).2.2 (ix2 b j) : E) + _ = (if (n + 1) % 8 = 0 then tS m c (n + 1) b j else sAfter m c n b j + tS m c (n + 1) b j)
          rw [if_neg h0, (ih b j).2, tS_of_lt m c (n + 1) h b j]
      · rw [e, outsAt0_B m c ⟨n + 1, h⟩ h0 h1]
        dsimp only
        refine ⟨(mid_cnt c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) _ _ b j).trans ?_,
          (mid_s c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) _ _ (iblk m c 0 ⟨n + 1, h⟩) (iblk m c 1 ⟨n + 1, h⟩) (iblk m c 2 ⟨n + 1, h⟩) _ _ b j).trans ?_⟩
        · show ((outsAt0 m c n _).2.1 (ix2 b j) : E) + _ = (if (n + 1) % 8 = 0 then tCnt m c (n + 1) b j else cntAfter m c n b j + tCnt m c (n + 1) b j)
          rw [if_neg h0, (ih b j).1, tCnt_of_lt m c (n + 1) h b j]
        · show ((outsAt0 m c n _).2.2 (ix2 b j) : E) + _ = (if (n + 1) % 8 = 0 then tS m c (n + 1) b j else sAfter m c n b j + tS m c (n + 1) b j)
          rw [if_neg h0, (ih b j).2, tS_of_lt m c (n + 1) h b j]

/-! ## After the last row tile of a column tile the tables hold the whole column -/

/-- Eight steps of "grow by the point's share" from a fresh start are the sum of the eight shares. -/
theorem acc8 (g f : ℕ → E) (q : ℕ) (hbase : g (8 * q) = f (8 * q))
    (hstep : ∀ n, (n + 1) % 8 ≠ 0 → g (n + 1) = g n + f (n + 1)) :
    g (8 * q + 7) = ∑ k ∈ Finset.range 8, f (8 * q + k) := by
  simp only [Finset.sum_range_succ, Finset.sum_range_zero, zero_add, Nat.add_zero]
  rw [show 8 * q + 7 = (8 * q + 6) + 1 from rfl, hstep _ (by omega),
    show 8 * q + 6 = (8 * q + 5) + 1 from rfl, hstep _ (by omega),
    show 8 * q + 5 = (8 * q + 4) + 1 from rfl, hstep _ (by omega),
    show 8 * q + 4 = (8 * q + 3) + 1 from rfl, hstep _ (by omega),
    show 8 * q + 3 = (8 * q + 2) + 1 from rfl, hstep _ (by omega),
    show 8 * q + 2 = (8 * q + 1) + 1 from rfl, hstep _ (by omega),
    show 8 * q + 1 = (8 * q + 0) + 1 from rfl, hstep _ (by omega), Nat.add_zero, hbase]

theorem cntAfter_step (c : Dev nD) (b : Fin 30) (j : Fin 1024) (n : ℕ) (h : (n + 1) % 8 ≠ 0) :
    cntAfter m c (n + 1) b j = cntAfter m c n b j + tCnt m c (n + 1) b j := by
  show (if (n + 1) % 8 = 0 then _ else _) = _
  rw [if_neg h]

theorem sAfter_step (c : Dev nD) (b : Fin 30) (j : Fin 1024) (n : ℕ) (h : (n + 1) % 8 ≠ 0) :
    sAfter m c (n + 1) b j = sAfter m c n b j + tS m c (n + 1) b j := by
  show (if (n + 1) % 8 = 0 then _ else _) = _
  rw [if_neg h]

theorem cntAfter_base (c : Dev nD) (b : Fin 30) (j : Fin 1024) (q : Fin 2) :
    cntAfter m c (8 * q.val) b j = tCnt m c (8 * q.val) b j := by
  rcases q with ⟨_ | _ | _, hq⟩
  · rfl
  · show (if (7 + 1) % 8 = 0 then tCnt m c (7 + 1) b j else cntAfter m c 7 b j + tCnt m c (7 + 1) b j) = tCnt m c (7 + 1) b j
    exact if_pos (by decide)
  · omega

theorem sAfter_base (c : Dev nD) (b : Fin 30) (j : Fin 1024) (q : Fin 2) :
    sAfter m c (8 * q.val) b j = tS m c (8 * q.val) b j := by
  rcases q with ⟨_ | _ | _, hq⟩
  · rfl
  · show (if (7 + 1) % 8 = 0 then tS m c (7 + 1) b j else sAfter m c 7 b j + tS m c (7 + 1) b j) = tS m c (7 + 1) b j
    exact if_pos (by decide)
  · omega

/-- The column of the array that tile column j of column tile q is. -/
abbrev colOf (q : Fin 2) (j : Fin 1024) : Fin 2048 := ⟨1024 * q.val + j.val, by have := q.isLt; have := j.isLt; omega⟩
/-- The row of the array that tile row r of row tile k is. -/
abbrev rowOf (k : Fin 8) (r : Fin 1024) : Fin 8192 := ⟨1024 * k.val + r.val, by have := k.isLt; have := r.isLt; omega⟩

/-- The 8192 rows are the eight row tiles of 1024 rows. -/
theorem sum_rows_tiles {M : Type*} [AddCommMonoid M] (f : Fin 8192 → M) :
    ∑ i : Fin 8192, f i = ∑ k : Fin 8, ∑ r : Fin 1024, f (rowOf k r) := by
  rw [← Finset.sum_product']
  refine (Fintype.sum_equiv (finProdFinEquiv (m := 8) (n := 1024)) _ _ ?_).symm
  rintro ⟨k, r⟩
  refine congrArg f (Fin.ext ?_)
  simp [finProdFinEquiv]
  omega

/-- The block of point 8q + k read at (r, j) is the array at row tile k's row r and column tile q's column j. -/
theorem blocks_at (c : Dev nD) (q : Fin 2) (k : Fin 8) (h : 8 * q.val + k.val < cfg0.N) (r j : Fin 1024) :
    xblk m c ⟨8 * q.val + k.val, h⟩ (ix2 r j) = Parr m c (ix2 (rowOf k r) (colOf q j))
    ∧ tblk m c ⟨8 * q.val + k.val, h⟩ (ix2 r j) = Tarr m c (ix2 (rowOf k r) (colOf q j)) := by
  have hk := k.isLt
  have e1 : (8 * q.val + k.val) % 8 = k.val := by omega
  have e2 : (8 * q.val + k.val) / 8 = q.val := by omega
  rw [xblk_apply, tblk_apply]
  constructor
  · congr 2 <;> exact Fin.ext (by dsimp only; omega)
  · congr 2 <;> exact Fin.ext (by dsimp only; omega)

theorem lt_N (q : Fin 2) (k : ℕ) (hk : k < 8) : 8 * q.val + k < cfg0.N := by
  rw [show cfg0.N = 16 from N_0]; have := q.isLt; omega

/-- After the last row tile of column tile q the count table holds, at (b, j), the count of bin b in column (q, j). -/
theorem cntAfter_col (c : Dev nD) (q : Fin 2) (b : Fin 30) (j : Fin 1024) :
    cntAfter m c (8 * q.val + 7) b j = cnt (Parr m c) (Tarr m c) b (colOf q j) := by
  rw [acc8 (fun n => cntAfter m c n b j) (fun n => tCnt m c n b j) q.val (cntAfter_base m c b j q)
    (fun n h => cntAfter_step m c b j n h), Finset.sum_range]
  unfold cnt
  rw [sum_rows_tiles]
  refine Finset.sum_congr rfl fun k _ => ?_
  rw [tCnt_of_lt m c _ (lt_N q k.val k.isLt)]
  unfold tileCnt
  refine Finset.sum_congr rfl fun r _ => ?_
  obtain ⟨e1, e2⟩ := blocks_at m c q k (lt_N q k.val k.isLt) r j
  rw [e1, e2]
  rfl

/-- … and the mass table the mass of bin b in that column. -/
theorem sAfter_col (c : Dev nD) (q : Fin 2) (b : Fin 30) (j : Fin 1024) :
    sAfter m c (8 * q.val + 7) b j = sacc (Parr m c) (Tarr m c) b (colOf q j) := by
  rw [acc8 (fun n => sAfter m c n b j) (fun n => tS m c n b j) q.val (sAfter_base m c b j q)
    (fun n h => sAfter_step m c b j n h), Finset.sum_range]
  unfold sacc
  rw [sum_rows_tiles]
  refine Finset.sum_congr rfl fun k _ => ?_
  rw [tS_of_lt m c _ (lt_N q k.val k.isLt)]
  unfold tileS
  refine Finset.sum_congr rfl fun r _ => ?_
  obtain ⟨e1, e2⟩ := blocks_at m c q k (lt_N q k.val k.isLt) r j
  rw [e1, e2]
  rfl

/-! ## The output array -/

/-- The [16, 1024] array the region leaves: the specification's array of partial sums. -/
abbrev outG (c : Dev nD) : SOut.Idx → E := outArr (Parr m c) (Tarr m c) (Aarr m c)

/-- The output block the last point n + 1 of a column tile leaves: at (r, j) an eighth of the mass of column ((n+1) div 8, j). -/
theorem out_at (c : Dev nD) (n : ℕ) (h : n + 1 < cfg0.N) (h0 : ¬(n + 1) % 8 = 0) (h7 : (n + 1) % 8 = 7) (r : Fin 8) (j : Fin 1024) :
    ((outsAt0 m c (n + 1) h).1 (ix2 r j) : E)
      = Ideal.div (colMass (Parr m c) (Tarr m c) (Aarr m c)
          (colOf ⟨(n + 1) / 8, by have : n + 1 < 16 := lt_of_lt_of_eq h (show cfg0.N = 16 from N_0); omega⟩ j)) c8 := by
  have hN : n + 1 < 16 := lt_of_lt_of_eq h (show cfg0.N = 16 from N_0)
  have e : outsAt0 m c (n + 1) h = outsAt0 m c (⟨n + 1, h⟩ : Fin cfg0.N).val (⟨n + 1, h⟩ : Fin cfg0.N).isLt := rfl
  rw [e, outsAt0_C m c ⟨n + 1, h⟩ h0 h7]
  dsimp only
  refine (last_out c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h7) (iblk m c 0 ⟨n + 1, h⟩) (iblk m c 1 ⟨n + 1, h⟩) (iblk m c 2 ⟨n + 1, h⟩)
    (outsAt0 m c ((⟨n + 1, h⟩ : Fin cfg0.N).val - 1) (Nat.lt_of_le_of_lt (Nat.sub_le _ _) (⟨n + 1, h⟩ : Fin cfg0.N).isLt)).2.1
    (outsAt0 m c ((⟨n + 1, h⟩ : Fin cfg0.N).val - 1) (Nat.lt_of_le_of_lt (Nat.sub_le _ _) (⟨n + 1, h⟩ : Fin cfg0.N).isLt)).2.2 r j).trans ?_
  refine congrArg (fun z => Ideal.div z c8) ?_
  unfold colMass
  have hq7 : 8 * ((n + 1) / 8) + 7 = n + 1 := by omega
  have ecnt := fun b => cntAfter_col m c ⟨(n + 1) / 8, by omega⟩ b j
  have es := fun b => sAfter_col m c ⟨(n + 1) / 8, by omega⟩ b j
  dsimp only at ecnt es
  rw [hq7] at ecnt es
  congr 1
  · funext b
    exact ablk_apply m c ⟨n + 1, h⟩ b j
  · funext b
    show ((outsAt0 m c n (Nat.lt_of_succ_lt h)).2.1 (ix2 b j) : E) + tileCnt (xblk m c ⟨n + 1, h⟩) (tblk m c ⟨n + 1, h⟩) b j = _
    rw [(tables_eq m c n (Nat.lt_of_succ_lt h) b j).1, ← tCnt_of_lt m c (n + 1) h b j, ← cntAfter_step m c b j n h0]
    exact ecnt b
  · funext b
    show ((outsAt0 m c n (Nat.lt_of_succ_lt h)).2.2 (ix2 b j) : E) + tileS (xblk m c ⟨n + 1, h⟩) (tblk m c ⟨n + 1, h⟩) b j = _
    rw [(tables_eq m c n (Nat.lt_of_succ_lt h) b j).2, ← tS_of_lt m c (n + 1) h b j, ← sAfter_step m c b j n h0]
    exact es b

/-- What the last point of column tile q writes back is block q of that array. -/
theorem flushed_eq (c : Dev nD) (t : Fin cfg0.N) (hf : (cfg0.win 3).flush t = true) :
    (dats m 0 c).flushed 3 t = ((cfg0.win 3).blk t).view.read (Elt Ideal) (outG m c) := by
  have h7 : t.val % 8 = 7 := (flush0_3 t).mp hf
  obtain ⟨-, -, -, -, -, -, e30, e31⟩ := idx_facts t
  obtain ⟨tv, ht⟩ := t
  cases tv with
  | zero => exact absurd h7 (by show ¬(0 % 8 = 7); decide)
  | succ n =>
    have hN : n + 1 < 16 := lt_of_lt_of_eq ht (show cfg0.N = 16 from N_0)
    have h0 : ¬(n + 1) % 8 = 0 := by dsimp only at h7; omega
    show (cfg0.win 3).cut (grid0.coords ⟨n + 1, ht⟩) ((dats m 0 c).after 3 ⟨n + 1, ht⟩) = _
    rw [after0_3]
    funext y
    obtain ⟨r, j, rfl⟩ : ∃ (r : Fin 8) (j : Fin 1024), y = ix2 r j := ⟨y 0, y 1, eq_ix2 y⟩
    rw [View.read_apply]
    refine (out_at m c n ht h0 h7 r j).trans ?_
    show _ = outArr (Parr m c) (Tarr m c) (Aarr m c) (((cfg0.win 3).blk ⟨n + 1, ht⟩).view.emb (ix2 r j))
    unfold outArr
    congr 2
    apply Fin.ext
    show 1024 * ((n + 1) / 8) + j.val = 1024 * ((win0_3.index ⟨n + 1, ht⟩ 0 * 8 + 1 * r.val) / 8) + (win0_3.index ⟨n + 1, ht⟩ 1 * 1024 + 1 * j.val)
    rw [e30, e31]
    have := r.isLt
    dsimp only
    omega

/-- An index of the output array is in point t's block iff each coordinate is in the block's range. -/
theorem mem_blk (t : Fin cfg0.N) (i : S16x1024.Idx) :
    i ∈ ((cfg0.win 3).blk t).view.set ↔ ∀ a : Fin 2, win0_3.index t a * S8x1024.size a ≤ (i a).val ∧ (i a).val < win0_3.index t a * S8x1024.size a + S8x1024.size a := by
  show i ∈ ((View.whole main_v0).slice (win0_3.rect t)).set ↔ _
  rw [View.set_slice_whole, Rect.mem_set_unit]
  exact Iff.rfl

/-- The two written-back blocks cover the array, so it ends holding the specification's array. -/
theorem final_out (c : Dev nD) : (dats m 0 c).arrAt 3 cfg0.N = outG m c :=
  (dats m 0 c).arrAt_eq_of_cover 3 (outG m c) (flushed_eq m c) fun i => by
    have hi0 : (i 0).val < 16 := (i 0).isLt
    have hi1 : (i 1).val < 1024 := (i 1).isLt
    have hlt : 8 * ((i 0).val / 8) + 7 < cfg0.N := by rw [show cfg0.N = 16 from N_0]; omega
    refine ⟨⟨8 * ((i 0).val / 8) + 7, hlt⟩, (flush0_3 _).mpr (by dsimp only; omega), ?_⟩
    obtain ⟨-, -, -, -, -, -, e30, e31⟩ := idx_facts ⟨8 * ((i 0).val / 8) + 7, hlt⟩
    rw [mem_blk]
    intro a
    match a with
    | ⟨0, _⟩ =>
      show win0_3.index ⟨8 * ((i 0).val / 8) + 7, hlt⟩ 0 * 8 ≤ (i 0).val ∧ (i 0).val < win0_3.index ⟨8 * ((i 0).val / 8) + 7, hlt⟩ 0 * 8 + 8
      rw [e30]; dsimp only; omega
    | ⟨1, _⟩ =>
      show win0_3.index ⟨8 * ((i 0).val / 8) + 7, hlt⟩ 1 * 1024 ≤ (i 1).val ∧ (i 1).val < win0_3.index ⟨8 * ((i 0).val / 8) + 7, hlt⟩ 1 * 1024 + 1024
      rw [e31]; omega

/-! ## The lines after the region, and the run -/

theorem v3_rest : main_v3 ∈ Pipeline.restRefs sig (cfgs 0).spec := Pipeline.mem_restRefs_of main_v3 rfl (by decide)

theorem tail_eq (c : Dev nD) :
    Pipeline.afterTail₀ cfgs (dats m) 0 (V0 m) [hostOps1] c main_v3 = fun _ => kernelLoss (Parr m c) (Tarr m c) (Aarr m c) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.tc.devRef main_v0) = outG m c from
    (Pipeline.withArrays_arr spec0 launch0.win.arr_inj c _ _ 3).trans (final_out m c)]
  funext i
  show _ = Ideal.div (c1 * (c0 + ∑ y : SOut.Idx, outG m c y)) c2p24
  generalize outG m c = y0
  simp only [Host.divf, mulf, constant, Host.reduceAdd, Ideal.hostReduceAdd_def]
  rw [Ideal.hostReduceAdd_total reducesTo_S16x1024_S_d0_1 (fun b => b.elim0) y0 _ i]
  rfl

/-- The run, read: the result is the bin-table loss of the argument arrays, which end unchanged. -/
theorem run : θ_run defs (onTc (τ := τ) (main (F := Ideal))) ⟨m, fun _ => 0, ρ⟩ fun r => ∀ c : Dev nD,
      r.2.mem ((c.tc : Thread nD τ).loc main_v3) = (fun _ => kernelLoss (Parr m c) (Tarr m c) (Aarr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).2 main_v3 v3_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KValue
end
-- ==== Proof.Algebra.lean ====
/-
  The two losses agree when the running histogram is non-negative.

  Fix a column c.  Every row i lies in exactly one bin, so the per-element sum regroups by bin:
      Σ_i v(bin i)·bce_i = Σ_b Σ_{i : bin i = b} v(b)·bce_i = Σ_b v(b)·Σ_{i : bin i = b} bce_i ,
  the last step distributing a FINITE NON-NEGATIVE factor v(b) over a sum of extended reals (the one place the
  hypothesis is used: on a populated bin acc' = ¾·A + ¼·cnt ≥ ¼ > 0, so 8192/acc' is a positive real, and so is
  (8192/acc')/n = 8192/(acc'·n) for the positive count n of populated bins).  An empty bin contributes nothing on either
  side.  The eight rows of a column's output each hold an eighth of the column's mass and add up to it, for every
  extended real; and multiplying by 1 and dividing by 2^24 commute.
-/
import proofs.«415593_j11123965296942_3_alg».proof.Proof.Spec
import Mathlib.Algebra.BigOperators.Fin
import Mathlib.Algebra.BigOperators.Ring.Finset

noncomputable section

namespace Cert.GHM

open Idealize.ShloMosaic Idealize.ShloMosaic.ValueIdx

namespace AlgAux

/-! ### The literals as real numbers -/

theorem c0_eq : c0 = (0 : EReal) := by
  simp [Ideal.ofBits, Ideal.ieee]

theorem c1_eq : c1 = (1 : EReal) := by
  rw [show (1 : EReal) = ((1 : ℝ) : EReal) by norm_cast]
  simp [Ideal.ofBits, Ideal.ieee, -EReal.coe_mul]; norm_num

theorem c8_eq : c8 = ((8 : ℝ) : EReal) := by
  simp [Ideal.ofBits, Ideal.ieee, -EReal.coe_mul]; norm_num

theorem c34_eq : c34 = (((3 : ℝ) / 4 : ℝ) : EReal) := by
  simp [Ideal.ofBits, Ideal.ieee, -EReal.coe_mul]; norm_num

theorem c14_eq : c14 = (((1 : ℝ) / 4 : ℝ) : EReal) := by
  simp [Ideal.ofBits, Ideal.ieee, -EReal.coe_mul]; norm_num

theorem c8192_eq : c8192 = ((8192 : ℝ) : EReal) := by
  simp [Ideal.ofBits, Ideal.ieee, -EReal.coe_mul]; norm_num

/-! ### One column, abstractly: rows `i : ι` with a bin `β i : Fin 30` and a term `e i` -/

/-- A non-negative real factor distributes over a finite sum of arbitrary extended reals. -/
theorem coe_mul_sum {ι : Type*} (s : Finset ι) (v : ℝ) (hv : 0 ≤ v) (f : ι → EReal) :
    (v : EReal) * ∑ i ∈ s, f i = ∑ i ∈ s, (v : EReal) * f i := by
  classical
  induction s using Finset.induction_on with
  | empty => simp
  | insert a s ha ih =>
    rw [Finset.sum_insert ha, Finset.sum_insert ha,
      EReal.left_distrib_of_nonneg_of_ne_top (EReal.coe_nonneg.mpr hv) (EReal.coe_ne_top v), ih]

section column

variable {ι : Type} [Fintype ι] (β : ι → Fin 30) (e : ι → EReal)

/-- How many rows fall in bin `b`, as a natural number. -/
def nIn (b : Fin 30) : ℕ := (Finset.univ.filter (fun i => β i = b)).card

/-- The histogram of the column as the specification writes it. -/
def cntA (b : Fin 30) : EReal := ∑ i, if β i = b then (1 : EReal) else 0

/-- The mass of bin `b` as the specification writes it. -/
def sA (b : Fin 30) : EReal := ∑ i, if β i = b then e i else 0

theorem cntA_eq (b : Fin 30) : cntA β b = (((nIn β b : ℕ) : ℝ) : EReal) := by
  unfold cntA nIn
  rw [Finset.sum_boole]
  rfl

theorem one_le_cntA_iff (b : Fin 30) : c1 ≤ cntA β b ↔ 1 ≤ nIn β b := by
  rw [c1_eq, cntA_eq, show (1 : EReal) = ((1 : ℝ) : EReal) by norm_cast, EReal.coe_le_coe_iff]
  exact Nat.one_le_cast

theorem nIn_pos_of_mem (i : ι) : 1 ≤ nIn β (β i) := by
  unfold nIn
  exact Finset.card_pos.mpr ⟨i, by simp⟩

theorem ne_of_nIn_eq_zero {b : Fin 30} (h : nIn β b = 0) (i : ι) : β i ≠ b := by
  intro hi
  have := nIn_pos_of_mem β i
  rw [hi] at this
  omega

/-- The divisor max(nne, 1) is a real number, at least one. -/
theorem max_nne_real : ∃ N : ℝ, 1 ≤ N ∧ max (nneOf (cntA β)) c1 = (N : EReal) := by
  obtain ⟨m, hn⟩ : ∃ m : ℕ, nneOf (cntA β) = ((m : ℝ) : EReal) := by
    refine ⟨(Finset.univ.filter (fun b => c1 ≤ cntA β b)).card, ?_⟩
    unfold nneOf
    rw [Finset.sum_boole]
    rfl
  rw [hn, c1_eq, show (1 : EReal) = ((1 : ℝ) : EReal) by norm_cast]
  rcases le_total (m : ℝ) 1 with h | h
  · exact ⟨1, le_refl _, max_eq_right (EReal.coe_le_coe_iff.mpr h)⟩
  · exact ⟨_, h, max_eq_left (EReal.coe_le_coe_iff.mpr h)⟩

/-- One column: the bin-table mass Σ_b w[b]·s[b] is the per-row sum Σ_i ((8192/acc'[bin i])/n)·e_i.  Both are
    Σ_i v(bin i)·e_i for the real weight v(b) = 8192/(acc'[b]·n), positive on every populated bin. -/
theorem col_eq (r : Fin 30 → ℝ) (hr : ∀ b, 0 ≤ r b) :
    colMassOf (fun b => (r b : EReal)) (cntA β) (sA β e)
      = ∑ i, Ideal.div (Ideal.div c8192 (c34 * (r (β i) : EReal) + c14 * cntA β (β i)))
          (max (nneOf (cntA β)) c1) * e i := by
  classical
  obtain ⟨N, hN1, hN⟩ := max_nne_real β
  have hN0 : N ≠ 0 := by intro h; rw [h] at hN1; linarith
  have hNpos : 0 < N := by linarith
  -- acc' = ¾·r + ¼·cnt is a real number, positive on a populated bin
  have hacc : ∀ b, c34 * (r b : EReal) + c14 * cntA β b
      = ((3 / 4 * r b + 1 / 4 * (nIn β b : ℝ) : ℝ) : EReal) := by
    intro b
    rw [c34_eq, c14_eq, cntA_eq, ← EReal.coe_mul, ← EReal.coe_mul, ← EReal.coe_add]
  have hapos : ∀ b, 1 ≤ nIn β b → 0 < 3 / 4 * r b + 1 / 4 * (nIn β b : ℝ) := by
    intro b hb
    have h1 : (1 : ℝ) ≤ (nIn β b : ℝ) := by exact_mod_cast hb
    have h2 := hr b
    linarith
  have hv0 : ∀ b, 1 ≤ nIn β b → 0 ≤ 8192 * (1 / ((3 / 4 * r b + 1 / 4 * (nIn β b : ℝ)) * N)) := by
    intro b hb
    have := hapos b hb
    positivity
  -- the left side, one bin at a time
  have hL : ∀ b, wBinOf (fun b => (r b : EReal)) (cntA β) b * sA β e b
      = ∑ i, if β i = b then
          ((8192 * (1 / ((3 / 4 * r b + 1 / 4 * (nIn β b : ℝ)) * N)) : ℝ) : EReal) * e i else 0 := by
    intro b
    unfold wBinOf
    by_cases hb : 1 ≤ nIn β b
    · rw [if_pos ((one_le_cntA_iff β b).mpr hb), hacc, hN, ← EReal.coe_mul,
        Ideal.div_coe (mul_ne_zero (hapos b hb).ne' hN0), c8192_eq, ← EReal.coe_mul]
      unfold sA
      rw [coe_mul_sum _ _ (hv0 b hb)]
      refine Finset.sum_congr rfl fun i _ => ?_
      rw [mul_ite, mul_zero]
    · rw [if_neg (mt (one_le_cntA_iff β b).mp hb), c0_eq, zero_mul]
      symm
      refine Finset.sum_eq_zero fun i _ => ?_
      rw [if_neg (ne_of_nIn_eq_zero β (by omega) i)]
  -- the right side, one row at a time: its bin is populated
  have hR : ∀ i, Ideal.div (Ideal.div c8192 (c34 * (r (β i) : EReal) + c14 * cntA β (β i)))
        (max (nneOf (cntA β)) c1)
      = ((8192 * (1 / ((3 / 4 * r (β i) + 1 / 4 * (nIn β (β i) : ℝ)) * N)) : ℝ) : EReal) := by
    intro i
    have hb := nIn_pos_of_mem β i
    have ha0 := (hapos _ hb).ne'
    rw [hacc, hN, Ideal.div_coe ha0, Ideal.div_coe hN0, c8192_eq, ← EReal.coe_mul, ← EReal.coe_mul]
    congr 1
    field_simp
  unfold colMassOf
  rw [Finset.sum_congr rfl (fun b _ => hL b), Finset.sum_comm]
  refine Finset.sum_congr rfl fun i _ => ?_
  rw [Finset.sum_ite_eq, if_pos (Finset.mem_univ _), hR]

end column

/-! ### The bin word of a row is one of the thirty table rows -/

/-- A word clipped to [0, 29] (signed maximum with 0, then signed minimum with 29) is below 30. -/
theorem clip_lt (z : BitVec 32) : (IntOp.minsi 29#32 (IntOp.maxsi 0#32 z)).toNat < 30 := by
  unfold IntOp.minsi IntOp.maxsi
  by_cases h0 : z.slt 0#32
  · rw [if_pos h0, if_neg (by decide)]
    decide
  · rw [if_neg h0]
    by_cases h1 : (29#32 : BitVec 32).slt z
    · rw [if_pos h1]; decide
    · rw [if_neg h1]
      rw [BitVec.slt_iff_toInt_lt] at h0 h1
      have e0 : (0#32 : BitVec 32).toInt = 0 := by decide
      have e29 : (29#32 : BitVec 32).toInt = 29 := by decide
      rw [e0] at h0
      rw [e29] at h1
      have hz := BitVec.toInt_eq_toNat_cond z
      have hlt := z.isLt
      split at hz <;> omega

section link

variable (P : SNC.Idx → E) (T : SNC.Idx → BitVec 32) (A : SBC.Idx → E)

theorem bin_lt (i : Fin 8192) (c : Fin 2048) : (bin P T i c).toNat < 30 := by
  unfold bin binOf
  exact clip_lt _

/-- A row lies in bin `b` exactly when its table row is `b`. -/
theorem bin_eq_iff (i : Fin 8192) (c : Fin 2048) (b : Fin 30) :
    bin P T i c = binWord b ↔ binRow P T i c = b := by
  have hlt := bin_lt P T i c
  have hb := b.isLt
  constructor
  · intro h
    apply Fin.ext
    show (bin P T i c).toNat % 30 = b.val
    rw [h, BitVec.toNat_ofNat]
    omega
  · intro h
    have h' : (bin P T i c).toNat % 30 = b.val := congrArg Fin.val h
    apply BitVec.eq_of_toNat_eq
    rw [BitVec.toNat_ofNat]
    omega

theorem cnt_eq (c : Fin 2048) (b : Fin 30) : cnt P T b c = cntA (fun i => binRow P T i c) b := by
  unfold cnt cntA
  refine Finset.sum_congr rfl fun i _ => ?_
  exact if_congr (bin_eq_iff P T i c b) rfl rfl

theorem sacc_eq (c : Fin 2048) (b : Fin 30) :
    sacc P T b c = sA (fun i => binRow P T i c) (fun i => bce P T i c) b := by
  unfold sacc sA
  refine Finset.sum_congr rfl fun i _ => ?_
  exact if_congr (bin_eq_iff P T i c b) rfl rfl

/-- One column of the two programs. -/
theorem colMass_eq (hA : ∀ (b : Fin 30) (c : Fin 2048), ∃ r : ℝ, 0 ≤ r ∧ A (ix2 b c) = ((r : ℝ) : EReal))
    (c : Fin 2048) : colMass P T A c = ∑ i, wElem P T A i c * bce P T i c := by
  choose r hr0 hrA using fun b => hA b c
  have h1 : (fun b => A (ix2 b c)) = fun b => ((r b : ℝ) : EReal) := funext hrA
  have h2 : (fun b => cnt P T b c) = cntA (fun i => binRow P T i c) := funext (cnt_eq P T c)
  have h3 : (fun b => sacc P T b c) = sA (fun i => binRow P T i c) (fun i => bce P T i c) :=
    funext (sacc_eq P T c)
  unfold colMass
  rw [h1, h2, h3, col_eq _ _ r hr0]
  refine Finset.sum_congr rfl fun i _ => ?_
  unfold wElem accNew nne
  rw [cnt_eq P T c (binRow P T i c), hrA, h2]

end link

/-! ### The eight rows of a column add up to its mass; the index sets -/

/-- Eight eighths of any extended real add up to it. -/
theorem eight (x : EReal) : ∑ _r : Fin 8, Ideal.div x c8 = x := by
  rw [c8_eq, Ideal.div_coe (by norm_num : (8 : ℝ) ≠ 0), Fin.sum_univ_eight]
  induction x using EReal.rec with
  | bot => rw [EReal.bot_mul_coe_of_pos (by norm_num)]; simp
  | coe x =>
    rw [← EReal.coe_mul]
    simp only [← EReal.coe_add]
    rw [EReal.coe_eq_coe_iff]
    ring
  | top => rw [EReal.top_mul_coe_of_pos (by norm_num)]; simp

/-- A sum over m·n indices is the double sum over quotient and remainder. -/
theorem sum_fin_mul {m n : ℕ} (F : Fin (m * n) → EReal) :
    ∑ a, F a = ∑ k : Fin m, ∑ r : Fin n, F (finProdFinEquiv (k, r)) := by
  rw [← Equiv.sum_comp finProdFinEquiv F, Fintype.sum_prod_type]

/-- The [16, 1024] array of eighths sums to the sum of the 2048 column masses: row a = 8k + r and column j hold
    an eighth of the mass of column 1024k + j. -/
theorem out_sum (G : Fin 2048 → EReal) :
    ∑ y : SOut.Idx, Ideal.div (G ⟨1024 * ((y 0).val / 8) + (y 1).val, by
      have h0 : (y 0).val < 16 := (y 0).isLt
      have h1 : (y 1).val < 1024 := (y 1).isLt
      omega⟩) c8 = ∑ c, G c := by
  rw [sum_idx2, sum_fin_mul (m := 2) (n := 8), sum_fin_mul (m := 2) (n := 1024) G]
  refine Finset.sum_congr rfl fun k _ => ?_
  rw [Finset.sum_comm]
  refine Finset.sum_congr rfl fun j _ => ?_
  rw [← eight (G (finProdFinEquiv (k, j)))]
  refine Finset.sum_congr rfl fun r _ => ?_
  congr 2
  apply Fin.ext
  show 1024 * ((finProdFinEquiv (k, r) : Fin (2 * 8)).val / 8) + j.val = (finProdFinEquiv (k, j) : Fin (2 * 1024)).val
  rw [finProdFinEquiv_apply_val, finProdFinEquiv_apply_val]
  dsimp only
  have hr := r.isLt
  omega

end AlgAux

open AlgAux in
/-- The bin-table loss is the per-element loss when every entry of the running histogram is a non-negative real. -/
theorem loss_eq (P : SNC.Idx → E) (T : SNC.Idx → BitVec 32) (A : SBC.Idx → E)
    (hA : ∀ (b : Fin 30) (c : Fin 2048), ∃ r : ℝ, 0 ≤ r ∧ A (ix2 b c) = ((r : ℝ) : EReal)) :
    kernelLoss P T A = refLoss P T A := by
  unfold kernelLoss refLoss
  rw [c1_eq, c0_eq, one_mul, mul_one, zero_add, zero_add]
  congr 1
  rw [show (∑ y : SOut.Idx, outArr P T A y) = ∑ c, colMass P T A c from out_sum (colMass P T A)]
  rw [sum_idx2, Finset.sum_comm]
  refine Finset.sum_congr rfl fun c _ => ?_
  exact colMass_eq P T A hA c

end Cert.GHM

end
-- ==== Proof.PreDecode.lean ====
/-
  What the precondition says of the running histogram: every entry is a non-negative real.

  The precondition is the conjunction of three reductions by "and" over whole arrays: |P| < +∞, |A| < +∞ and A ≥ 0,
  each elementwise.  All-ones of the conjunction gives all-ones of each reduction, hence the elementwise facts;
  an extended real with |a| < +∞ is a real, and the comparison a ≥ 0 then speaks of that real.
-/
import proofs.«415593_j11123965296942_3_alg».proof.Pre_finite_inputs
import proofs.«415593_j11123965296942_3_alg».proof.Proof.Spec
import Idealize.ShloMosaic.Lib.ReduceAll
import Idealize.ShloMosaic.Lib.StableHlo.Predicate

noncomputable section

namespace Cert.GHM

open Idealize.ShloMosaic Idealize.ShloMosaic.ValueIdx

/-- A one-bit word made from a truth value is 1 exactly when the truth value is true. -/
private theorem ofBool_eq_one_iff (p : Bool) : BitVec.ofBool p = 1#1 ↔ p = true := by cases p <;> decide

/-- The word 0x7F800000 (exponent all ones, fraction zero, sign clear) is +∞. -/
private theorem ofBits_inf_f32 : Ideal.ofBits .f32 0x7F800000#32 = (⊤ : EReal) := by
  simp [Ideal.ofBits, Ideal.ieee]

/-- An extended real whose absolute value max(x, -x) lies strictly below +∞ is a real:
    at x = ⊥ and at x = ⊤ that maximum is ⊤, which is not below itself. -/
private theorem real_of_abs_lt_inf (x : EReal)
    (hx : Ideal.cmp .olt (max x (-x)) (Ideal.ofBits .f32 0x7F800000#32) = 1#1) : ∃ r : ℝ, x = ((r : ℝ) : EReal) := by
  rw [ofBits_inf_f32] at hx
  unfold Ideal.cmp at hx
  rw [ofBool_eq_one_iff] at hx
  induction x using EReal.rec with
  | bot => simp at hx
  | coe r => exact ⟨r, rfl⟩
  | top => simp at hx

/-- The ordered comparison x ≥ 0 against the zero word, read back in the extended reals' order. -/
private theorem nonneg_of_oge_zero (x : EReal) (hx : Ideal.cmp .oge x (Ideal.ofBits .f32 0x00000000#32) = 1#1) :
    0 ≤ x := by
  have z : Ideal.ofBits .f32 0x00000000#32 = (0 : EReal) := by simp [Ideal.ofBits, Ideal.ieee]
  rw [z] at hx
  unfold Ideal.cmp at hx
  rw [ofBool_eq_one_iff] at hx
  simpa using hx

/-- Under the precondition every entry of the running histogram is a non-negative real. -/
theorem acc_nonneg_of_pre [Cert.Pre_finite_inputs.Facts] (P : SNC.Idx → E) (T : SNC.Idx → BitVec 32) (A : SBC.Idx → E)
    (h : Cert.Pre_finite_inputs.fn (F := Ideal) P T A = fun _ => 1#1) :
    ∀ (b : Fin 30) (c : Fin 2048), ∃ r : ℝ, 0 ≤ r ∧ A (ix2 b c) = ((r : ℝ) : EReal) := by
  intro b c
  -- the scalar shape has one index, so a reduction over all axes has one result
  haveI : Subsingleton Cert.Pre_finite_inputs.S_.Idx := ⟨fun a b => funext fun d => d.elim0⟩
  -- the precondition at its one index: ((all |P| < +∞) and (all |A| < +∞)) and (all A ≥ 0), equal to 1
  have e := congrFun h ValueIdx.ix0
  dsimp only [Cert.Pre_finite_inputs.fn] at e
  obtain ⟨h87, h11⟩ := IntOp.andi_eq_one.1 e
  obtain ⟨-, h7⟩ := IntOp.andi_eq_one.1 h87
  -- a reduction by "and" equal to 1 had a 1 at every entry, in particular at (b, c)
  have f7 := Host.reduce_andi_all _ _ _ _ _ h7 (ix2 b c)
  have f11 := Host.reduce_andi_all _ _ _ _ _ h11 (ix2 b c)
  -- |A(b,c)| < +∞ makes A(b,c) a real r, and A(b,c) ≥ 0 is then 0 ≤ r
  obtain ⟨r, hr⟩ := real_of_abs_lt_inf (A (ix2 b c)) f7
  have h0 : (0 : EReal) ≤ A (ix2 b c) := nonneg_of_oge_zero (A (ix2 b c)) f11
  refine ⟨r, ?_, hr⟩
  rw [hr] at h0
  exact_mod_cast h0

end Cert.GHM

end
-- ==== Proof.lean ====
/-
  The certificate: the histogram-weighted cross-entropy loss computed from per-bin tables equals the loss computed
  element by element, over the extended reals, whenever the running histogram is non-negative.

  Both programs bin every element (i, c) by clip(⌊30·|σ(p) − t|⌋, 0, 29) and form its cross-entropy term.  One weights
  each term by (8192 / acc'[bin, c]) / max(n[c], 1), with acc' = ¾·A + ¼·counts and n[c] the number of populated bins
  of column c, and sums all terms.  The other accumulates, tile by tile, the per-bin counts and the per-bin sums of the
  terms, and at the end of each column tile forms Σ_b w[b, c]·s[b, c] with w = 8192 / (acc'·max(n, 1)) on populated
  bins.  The two agree because a column's terms regroup by bin and a non-negative finite weight distributes over the
  bin's sum; the weight is finite and positive exactly because a populated bin of a non-negative running histogram has
  acc' ≥ ¼.  The frames are the generated ones (the reference's from its run), the idealization rewrote nothing.
-/
import proofs.«415593_j11123965296942_3_alg».proof.Defs
import proofs.«415593_j11123965296942_3_alg».proof.Proof.Gen.Kernel
import proofs.«415593_j11123965296942_3_alg».proof.Proof.Gen.Kernel.Frame
import proofs.«415593_j11123965296942_3_alg».proof.Proof.Gen.KernelIdeal
import proofs.«415593_j11123965296942_3_alg».proof.Proof.Gen.KernelIdeal.Frame
import proofs.«415593_j11123965296942_3_alg».proof.Proof.Gen.ReferenceIdeal
import proofs.«415593_j11123965296942_3_alg».proof.Proof.Gen.Pre_finite_inputs
import proofs.«415593_j11123965296942_3_alg».proof.Proof.RefRunHand
import proofs.«415593_j11123965296942_3_alg».proof.Proof.RefRead
import proofs.«415593_j11123965296942_3_alg».proof.Proof.RefValue
import proofs.«415593_j11123965296942_3_alg».proof.Proof.KValue
import proofs.«415593_j11123965296942_3_alg».proof.Proof.Algebra
import proofs.«415593_j11123965296942_3_alg».proof.Proof.PreDecode
import Idealize.ShloMosaic.Adequacy
import Idealize.ShloMosaic.Init

noncomputable section

namespace Cert.Proof

open Idealize.ShloMosaic Idealize.ShloMosaic.TcCoe Idealize.SL.Sem

/-- The reference's frame: its run, with the result forgotten. -/
theorem frame_ref : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.RunH.run m ρ)

/-- Both programs end at the bin-table loss of the (agreeing) arguments: the kernel's run reads it off the carried
    tables, the reference's run ends at the per-element loss, and the two losses agree under the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.GHM.kernelLoss (Cert.KernelIdeal.KValue.Parr m c) (Cert.KernelIdeal.KValue.Tarr m c)
    (Cert.KernelIdeal.KValue.Aarr m c), Cert.KernelIdeal.KValue.run m ρ, ?_⟩
  refine (θ_run Cert.ReferenceIdeal.defs _ _).mono (fun r h c => ⟨(h c).1.trans ?_, (h c).2⟩)
    (Cert.ReferenceIdeal.RunH.run m' ρ')
  rw [Cert.ReferenceIdeal.RefValue.ref_value, (hagree c).1, (hagree c).2.1, (hagree c).2.2]
  funext _
  exact (Cert.GHM.loss_eq _ _ _ (Cert.GHM.acc_nonneg_of_pre _ _ _ (hpre c))).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ref, trivial, algebraic⟩

end Cert.Proof

end
